-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x1024 : Shape := ⟨2, ![1024, 1024]⟩
abbrev S128x128 : Shape := ⟨2, ![128, 128]⟩
abbrev S256x1 : Shape := ⟨2, ![256, 1]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S1024x128 .f32) (main_arg1 : IVec S1024x1024 32) (main_arg2 : FVec F S128x128 .f32) (main_arg3 : FVec F S256x1 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  main_v13
-- ==== Kernel.lean ====
abbrev S1024x128 : Shape := ⟨2, ![1024, 128]⟩
abbrev S1024x1024 : Shape := ⟨2, ![1024, 1024]⟩
abbrev S128x128 : Shape := ⟨2, ![128, 128]⟩
abbrev S256x1 : Shape := ⟨2, ![256, 1]⟩
abbrev S512x1024 : Shape := ⟨2, ![512, 1024]⟩
abbrev S512x128 : Shape := ⟨2, ![512, 128]⟩
abbrev S1024x1 : Shape := ⟨2, ![1024, 1]⟩
abbrev S1x1024 : Shape := ⟨2, ![1, 1024]⟩
abbrev S128x1 : Shape := ⟨2, ![128, 1]⟩
abbrev S512x1 : Shape := ⟨2, ![512, 1]⟩
abbrev S512 : Shape := ⟨1, ![512]⟩

abbrev nBuf : Space → Nat
  | .hbm => 5
  | .vmem => 10
  | .smem => 0
  | _ => 0

abbrev bufTy : (tb : Table) → Fin (tcTables nBuf tb) → BufTy
  | .hbm, ⟨0, _⟩ => ⟨S1024x128, .f32⟩
  | .hbm, ⟨1, _⟩ => ⟨S1024x1024, .i32⟩
  | .hbm, ⟨2, _⟩ => ⟨S128x128, .f32⟩
  | .hbm, ⟨3, _⟩ => ⟨S256x1, .f32⟩
  | .hbm, ⟨4, _⟩ => ⟨S1024x128, .f32⟩
  | .local _ .vmem, ⟨0, _⟩ => ⟨S1024x128, .f32⟩
  | .local _ .vmem, ⟨1, _⟩ => ⟨S128x128, .f32⟩
  | .local _ .vmem, ⟨2, _⟩ => ⟨S256x1, .f32⟩
  | .local _ .vmem, ⟨3, _⟩ => ⟨S512x1024, .i32⟩
  | .local _ .vmem, ⟨4, _⟩ => ⟨S512x1024, .i32⟩
  | .local _ .vmem, ⟨5, _⟩ => ⟨S512x128, .f32⟩
  | .local _ .vmem, ⟨6, _⟩ => ⟨S512x128, .f32⟩
  | .local _ .vmem, ⟨7, _⟩ => ⟨S1024x128, .f32⟩
  | .local _ .vmem, ⟨8, _⟩ => ⟨S1024x1, .f32⟩
  | .local _ .vmem, ⟨9, _⟩ => ⟨S1x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  shapeCasts_S1024x128_S1024x128 : S1024x128.ShapeCasts S1024x128
  inb_S256x1_S128x1_0_0 : ∀ a, (![0, 0] : Fin 2 → Nat) a + S128x1.size a ≤ S256x1.size a
  h_S128x1 : 0 < S128x1.numel
  inb_S256x1_S128x1_128_0 : ∀ a, (![128, 0] : Fin 2 → Nat) a + S128x1.size a ≤ S256x1.size a
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  h_S512x1 : 0 < S512x1.numel
  broadcasts_S512x1_S512x1024 : S512x1.Broadcasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []
  dot_S128x1_S1024x128_S1x1024_0_1_1_0_n_n_wf : DotDims.WF S128x1 S1024x128 S1x1024 [0] [1] [1] [0] [] []
  dot_S512x1024_S1024x128_S512x128_1_0_0_1_n_n_wf : DotDims.WF S512x1024 S1024x128 S512x128 [1] [0] [0] [1] [] []
  hrank0 : 0 < grid0.rank
  k0_off1_inb : ∀ i : grid0.Coords, ∀ a, (k0_off1 i) a + S512x1.size a ≤ S1024x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S1024x1024.size a
  hwx0_3 : ∀ i : grid0.Coords, EltTy.bits .i32 = 32 ∨ (Rect.block (s := S1024x1024) S512x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S1024x128.size a
  hwx0_4 : ∀ i : grid0.Coords, EltTy.bits .f32 = 32 ∨ (Rect.block (s := S1024x128) S512x128.size (cc0_transform_4 i) (hinb0_4 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S128x1_S1024x128_S1x1024_0_1_1_0_n_n : DotDims S128x1 S1024x128 S1x1024 where
  lhsContracting := [0]
  rhsContracting := [1]
  lhsNonContracting := [1]
  rhsNonContracting := [0]
  lhsBatch := []
  rhsBatch := []
  wf := dot_S128x1_S1024x128_S1x1024_0_1_1_0_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024x1024 : Shape := ⟨2, ![1024, 1024]⟩
abbrev S128x128 : Shape := ⟨2, ![128, 128]⟩
abbrev S256x1 : Shape := ⟨2, ![256, 1]⟩
abbrev S_ : Shape := ⟨0, ![]⟩
abbrev S1048576 : Shape := ⟨1, ![1048576]⟩
abbrev S1048576x1 : Shape := ⟨2, ![1048576, 1]⟩
abbrev S1x1048576 : Shape := ⟨2, ![1, 1048576]⟩
abbrev S2x1048576 : Shape := ⟨2, ![2, 1048576]⟩
abbrev S1048576x128 : Shape := ⟨2, ![1048576, 128]⟩
abbrev S1048576x256 : Shape := ⟨2, ![1048576, 256]⟩
abbrev S256x1048576 : Shape := ⟨2, ![256, 1048576]⟩
abbrev S1x256 : Shape := ⟨2, ![1, 256]⟩
abbrev S1024x1 : Shape := ⟨2, ![1024, 1]⟩

abbrev nBuf : Space → Nat
  | .hbm => 226
  | .vmem => 0
  | .smem => 0
  | _ => 0

abbrev hbmTy0_0 (i : Nat) : BufTy := match i % 128 with
  | 0 => ⟨S1024x128, .f32⟩
  | 1 => ⟨S1024x1024, .i32⟩
  | 2 => ⟨S128x128, .f32⟩
  | 3 => ⟨S256x1, .f32⟩
  | 4 => ⟨S_, .i32⟩
  | 5 => ⟨S1024x1024, .i32⟩
  | 6 => ⟨S1024x1024, .i1⟩
  | 7 => ⟨S1048576, .i1⟩
  | 8 => ⟨S1048576, .i32⟩
  | 9 => ⟨S_, .i32⟩
  | 10 => ⟨S_, .i32⟩
  | 11 => ⟨S1048576, .i32⟩
  | 12 => ⟨S_, .i32⟩
  | 13 => ⟨S1048576, .i32⟩
  | 14 => ⟨S_, .i32⟩
  | 15 => ⟨S_, .i32⟩
  | 16 => ⟨S1048576, .i32⟩
  | 17 => ⟨S1048576, .i32⟩
  | 18 => ⟨S_, .i32⟩
  | 19 => ⟨S1048576, .i32⟩
  | 20 => ⟨S1048576, .i1⟩
  | 21 => ⟨S_, .i32⟩
  | 22 => ⟨S1048576, .i32⟩
  | 23 => ⟨S1048576, .i32⟩
  | 24 => ⟨S1048576, .i32⟩
  | 25 => ⟨S1048576x1, .i32⟩
  | 26 => ⟨S_, .i32⟩
  | 27 => ⟨S1048576, .i32⟩
  | 28 => ⟨S1048576, .i32⟩
  | 29 => ⟨S_, .i32⟩
  | 30 => ⟨S_, .i32⟩
  | 31 => ⟨S1048576, .i32⟩
  | 32 => ⟨S_, .i32⟩
  | 33 => ⟨S1048576, .i32⟩
  | 34 => ⟨S1048576, .i32⟩
  | 35 => ⟨S1048576, .i32⟩
  | 36 => ⟨S_, .i32⟩
  | 37 => ⟨S1048576, .i32⟩
  | 38 => ⟨S1048576, .i1⟩
  | 39 => ⟨S1048576, .i32⟩
  | 40 => ⟨S1048576, .i32⟩
  | 41 => ⟨S_, .i32⟩
  | 42 => ⟨S1048576, .i32⟩
  | 43 => ⟨S1048576, .i1⟩
  | 44 => ⟨S1048576, .i1⟩
  | 45 => ⟨S_, .i32⟩
  | 46 => ⟨S1048576, .i32⟩
  | 47 => ⟨S1048576, .i32⟩
  | 48 => ⟨S1048576, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S1048576, .i32⟩
  | 56 => ⟨S1048576, .i32⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i1⟩
  | 63 => ⟨S_, .i32⟩
  | 64 => ⟨S_, .i1⟩
  | 65 => ⟨S1048576, .i1⟩
  | 66 => ⟨S1048576, .i1⟩
  | 67 => ⟨S1048576, .i1⟩
  | 68 => ⟨S1048576, .i32⟩
  | 69 => ⟨S1048576, .i32⟩
  | 70 => ⟨S1048576, .i32⟩
  | 71 => ⟨S_, .i32⟩
  | 72 => ⟨S1048576, .i32⟩
  | 73 => ⟨S1048576, .i32⟩
  | 74 => ⟨S1048576, .i32⟩
  | 75 => ⟨S_, .i32⟩
  | 76 => ⟨S1048576, .i32⟩
  | 77 => ⟨S1048576, .i1⟩
  | 78 => ⟨S1048576, .i32⟩
  | 79 => ⟨S1048576, .i32⟩
  | 80 => ⟨S_, .i32⟩
  | 81 => ⟨S1048576, .i32⟩
  | 82 => ⟨S1048576, .i1⟩
  | 83 => ⟨S1048576, .i1⟩
  | 84 => ⟨S_, .i32⟩
  | 85 => ⟨S1048576, .i32⟩
  | 86 => ⟨S1048576, .i32⟩
  | 87 => ⟨S1048576, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S1048576, .i32⟩
  | 95 => ⟨S1048576, .i32⟩
  | 96 => ⟨S_, .i32⟩
  | 97 => ⟨S1048576, .i32⟩
  | 98 => ⟨S1048576, .i1⟩
  | 99 => ⟨S_, .i32⟩
  | 100 => ⟨S1048576, .i32⟩
  | 101 => ⟨S1048576, .i1⟩
  | 102 => ⟨S_, .i32⟩
  | 103 => ⟨S_, .i1⟩
  | 104 => ⟨S1048576, .i1⟩
  | 105 => ⟨S1048576, .i1⟩
  | 106 => ⟨S1048576, .i1⟩
  | 107 => ⟨S1048576, .i32⟩
  | 108 => ⟨S1048576, .i32⟩
  | 109 => ⟨S1048576, .i32⟩
  | 110 => ⟨S1048576, .i32⟩
  | 111 => ⟨S1024x1024, .i32⟩
  | 112 => ⟨S_, .i32⟩
  | 113 => ⟨S_, .i32⟩
  | 114 => ⟨S1048576, .i32⟩
  | 115 => ⟨S1048576, .i1⟩
  | 116 => ⟨S_, .i32⟩
  | 117 => ⟨S_, .i32⟩
  | 118 => ⟨S1048576, .i32⟩
  | 119 => ⟨S1048576, .i32⟩
  | 120 => ⟨S_, .i32⟩
  | 121 => ⟨S_, .i32⟩
  | 122 => ⟨S1048576, .i32⟩
  | 123 => ⟨S1048576, .i32⟩
  | 124 => ⟨S1x1048576, .i32⟩
  | 125 => ⟨S1x1048576, .i32⟩
  | 126 => ⟨S2x1048576, .i32⟩
  | 127 => ⟨S1024x128, .f32⟩
  | _ => ⟨S1024x128, .f32⟩

abbrev hbmTy0_1 (i : Nat) : BufTy := match i % 128 with
  | 0 => ⟨S1x1048576, .i32⟩
  | 1 => ⟨S1048576, .i32⟩
  | 2 => ⟨S_, .i32⟩
  | 3 => ⟨S1048576, .i32⟩
  | 4 => ⟨S1048576, .i1⟩
  | 5 => ⟨S_, .i32⟩
  | 6 => ⟨S1048576, .i32⟩
  | 7 => ⟨S1048576, .i32⟩
  | 8 => ⟨S1048576, .i32⟩
  | 9 => ⟨S1048576x1, .i32⟩
  | 10 => ⟨S1048576x128, .f32⟩
  | 11 => ⟨S1x1048576, .i32⟩
  | 12 => ⟨S1048576, .i32⟩
  | 13 => ⟨S_, .i32⟩
  | 14 => ⟨S1048576, .i32⟩
  | 15 => ⟨S1048576, .i1⟩
  | 16 => ⟨S_, .i32⟩
  | 17 => ⟨S1048576, .i32⟩
  | 18 => ⟨S1048576, .i32⟩
  | 19 => ⟨S1048576, .i32⟩
  | 20 => ⟨S1048576x1, .i32⟩
  | 21 => ⟨S1048576x128, .f32⟩
  | 22 => ⟨S1048576x256, .f32⟩
  | 23 => ⟨S256x1048576, .f32⟩
  | 24 => ⟨S1x256, .f32⟩
  | 25 => ⟨S1x1048576, .f32⟩
  | 26 => ⟨S1048576, .f32⟩
  | 27 => ⟨S_, .f32⟩
  | 28 => ⟨S_, .f32⟩
  | 29 => ⟨S1048576, .f32⟩
  | 30 => ⟨S1048576, .i1⟩
  | 31 => ⟨S_, .f32⟩
  | 32 => ⟨S1048576, .f32⟩
  | 33 => ⟨S1048576, .f32⟩
  | 34 => ⟨S1048576, .f32⟩
  | 35 => ⟨S1048576, .f32⟩
  | 36 => ⟨S1048576, .f32⟩
  | 37 => ⟨S_, .f32⟩
  | 38 => ⟨S1024x1, .f32⟩
  | 39 => ⟨S1x1048576, .i32⟩
  | 40 => ⟨S1048576, .i32⟩
  | 41 => ⟨S1048576x1, .f32⟩
  | 42 => ⟨S_, .i32⟩
  | 43 => ⟨S1048576, .i32⟩
  | 44 => ⟨S1048576, .i1⟩
  | 45 => ⟨S_, .i32⟩
  | 46 => ⟨S1048576, .i32⟩
  | 47 => ⟨S1048576, .i32⟩
  | 48 => ⟨S1048576, .i32⟩
  | 49 => ⟨S1048576x1, .i32⟩
  | 50 => ⟨S1024x1, .f32⟩
  | 51 => ⟨S_, .f32⟩
  | 52 => ⟨S1024x128, .f32⟩
  | 53 => ⟨S1x1048576, .i32⟩
  | 54 => ⟨S1048576, .i32⟩
  | 55 => ⟨S1048576x1, .f32⟩
  | 56 => ⟨S1x1048576, .i32⟩
  | 57 => ⟨S1048576, .i32⟩
  | 58 => ⟨S_, .i32⟩
  | 59 => ⟨S1048576, .i32⟩
  | 60 => ⟨S1048576, .i1⟩
  | 61 => ⟨S_, .i32⟩
  | 62 => ⟨S1048576, .i32⟩
  | 63 => ⟨S1048576, .i32⟩
  | 64 => ⟨S1048576, .i32⟩
  | 65 => ⟨S1048576x1, .i32⟩
  | 66 => ⟨S1048576x128, .f32⟩
  | 67 => ⟨S1048576x128, .f32⟩
  | 68 => ⟨S1048576x128, .f32⟩
  | 69 => ⟨S_, .i32⟩
  | 70 => ⟨S1048576, .i32⟩
  | 71 => ⟨S1048576, .i1⟩
  | 72 => ⟨S_, .i32⟩
  | 73 => ⟨S1048576, .i32⟩
  | 74 => ⟨S1048576, .i32⟩
  | 75 => ⟨S1048576, .i32⟩
  | 76 => ⟨S1048576x1, .i32⟩
  | 77 => ⟨S1024x128, .f32⟩
  | 78 => ⟨S_, .f32⟩
  | 79 => ⟨S1024x1, .f32⟩
  | 80 => ⟨S1024x1, .f32⟩
  | 81 => ⟨S1024x128, .f32⟩
  | 82 => ⟨S1024x128, .f32⟩
  | 83 => ⟨S_, .f32⟩
  | 84 => ⟨S1024x128, .f32⟩
  | 85 => ⟨S1024x128, .i1⟩
  | 86 => ⟨S_, .f32⟩
  | 87 => ⟨S1024x128, .f32⟩
  | 88 => ⟨S1024x128, .i1⟩
  | 89 => ⟨S_, .f32⟩
  | 90 => ⟨S_, .f32⟩
  | 91 => ⟨S1024x128, .f32⟩
  | 92 => ⟨S1024x128, .f32⟩
  | 93 => ⟨S1024x128, .f32⟩
  | 94 => ⟨S_, .f32⟩
  | 95 => ⟨S1024x128, .f32⟩
  | 96 => ⟨S1024x128, .f32⟩
  | 97 => ⟨S1024x128, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_call0_c : Ref sig .tc := ⟨.hbm, 9, rfl⟩
abbrev main_call0_call0_v0 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_call2_call0_c : Ref sig .tc := ⟨.hbm, 29, rfl⟩
abbrev main_call2_call0_v0 : Ref sig .tc := ⟨.hbm, 30, rfl⟩
abbrev main_v13 : Ref sig .tc := ⟨.hbm, 31, rfl⟩
abbrev main_c_5 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_call3_v5 : Ref sig .tc := ⟨.hbm, 38, rfl⟩
abbrev main_call3_v6 : Ref sig .tc := ⟨.hbm, 39, rfl⟩
abbrev main_call3_v7 : Ref sig .tc := ⟨.hbm, 40, rfl⟩
abbrev main_call3_c : Ref sig .tc := ⟨.hbm, 41, rfl⟩
abbrev main_call3_v8 : Ref sig .tc := ⟨.hbm, 42, rfl⟩
abbrev main_call3_v9 : Ref sig .tc := ⟨.hbm, 43, rfl⟩
abbrev main_call3_v10 : Ref sig .tc := ⟨.hbm, 44, rfl⟩
abbrev main_call3_c_0 : Ref sig .tc := ⟨.hbm, 45, rfl⟩
abbrev main_call3_v11 : Ref sig .tc := ⟨.hbm, 46, rfl⟩
abbrev main_call3_v12 : Ref sig .tc := ⟨.hbm, 47, rfl⟩
abbrev main_v14 : Ref sig .tc := ⟨.hbm, 48, rfl⟩
abbrev main_c_6 : Ref sig .tc := ⟨.hbm, 49, rfl⟩
abbrev main_call4_v0 : Ref sig .tc := ⟨.hbm, 50, rfl⟩
abbrev main_call4_c : Ref sig .tc := ⟨.hbm, 51, rfl⟩
abbrev main_call4_v1 : Ref sig .tc := ⟨.hbm, 52, rfl⟩
abbrev main_call4_c_0 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_c_1 : Ref sig .tc := ⟨.hbm, 57, rfl⟩
abbrev main_call4_v5 : Ref sig .tc := ⟨.hbm, 58, rfl⟩
abbrev main_call4_v6 : Ref sig .tc := ⟨.hbm, 59, rfl⟩
abbrev main_call4_c_2 : Ref sig .tc := ⟨.hbm, 60, rfl⟩
abbrev main_call4_v7 : Ref sig .tc := ⟨.hbm, 61, rfl⟩
abbrev main_call4_v8 : Ref sig .tc := ⟨.hbm, 62, rfl⟩
abbrev main_call4_c_3 : Ref sig .tc := ⟨.hbm, 63, rfl⟩
abbrev main_call4_v9 : Ref sig .tc := ⟨.hbm, 64, rfl⟩
abbrev main_call4_v10 : Ref sig .tc := ⟨.hbm, 65, rfl⟩
abbrev main_call4_v11 : Ref sig .tc := ⟨.hbm, 66, rfl⟩
abbrev main_call4_v12 : Ref sig .tc := ⟨.hbm, 67, rfl⟩
abbrev main_call4_v13 : Ref sig .tc := ⟨.hbm, 68, rfl⟩
abbrev main_call4_v14 : Ref sig .tc := ⟨.hbm, 69, rfl⟩
abbrev main_v15 : Ref sig .tc := ⟨.hbm, 70, rfl⟩
abbrev main_c_7 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_v5 : Ref sig .tc := ⟨.hbm, 77, rfl⟩
abbrev main_call5_v6 : Ref sig .tc := ⟨.hbm, 78, rfl⟩
abbrev main_call5_v7 : Ref sig .tc := ⟨.hbm, 79, rfl⟩
abbrev main_call5_c : Ref sig .tc := ⟨.hbm, 80, rfl⟩
abbrev main_call5_v8 : Ref sig .tc := ⟨.hbm, 81, rfl⟩
abbrev main_call5_v9 : Ref sig .tc := ⟨.hbm, 82, rfl⟩
abbrev main_call5_v10 : Ref sig .tc := ⟨.hbm, 83, rfl⟩
abbrev main_call5_c_0 : Ref sig .tc := ⟨.hbm, 84, rfl⟩
abbrev main_call5_v11 : Ref sig .tc := ⟨.hbm, 85, rfl⟩
abbrev main_call5_v12 : Ref sig .tc := ⟨.hbm, 86, rfl⟩
abbrev main_v16 : Ref sig .tc := ⟨.hbm, 87, rfl⟩
abbrev main_c_8 : Ref sig .tc := ⟨.hbm, 88, rfl⟩
abbrev main_call6_v0 : Ref sig .tc := ⟨.hbm, 89, rfl⟩
abbrev main_call6_c : Ref sig .tc := ⟨.hbm, 90, rfl⟩
abbrev main_call6_v1 : Ref sig .tc := ⟨.hbm, 91, rfl⟩
abbrev main_call6_c_0 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_c_1 : Ref sig .tc := ⟨.hbm, 96, rfl⟩
abbrev main_call6_v5 : Ref sig .tc := ⟨.hbm, 97, rfl⟩
abbrev main_call6_v6 : Ref sig .tc := ⟨.hbm, 98, rfl⟩
abbrev main_call6_c_2 : Ref sig .tc := ⟨.hbm, 99, rfl⟩
abbrev main_call6_v7 : Ref sig .tc := ⟨.hbm, 100, rfl⟩
abbrev main_call6_v8 : Ref sig .tc := ⟨.hbm, 101, rfl⟩
abbrev main_call6_c_3 : Ref sig .tc := ⟨.hbm, 102, rfl⟩
abbrev main_call6_v9 : Ref sig .tc := ⟨.hbm, 103, rfl⟩
abbrev main_call6_v10 : Ref sig .tc := ⟨.hbm, 104, rfl⟩
abbrev main_call6_v11 : Ref sig .tc := ⟨.hbm, 105, rfl⟩
abbrev main_call6_v12 : Ref sig .tc := ⟨.hbm, 106, rfl⟩
abbrev main_call6_v13 : Ref sig .tc := ⟨.hbm, 107, rfl⟩
abbrev main_call6_v14 : Ref sig .tc := ⟨.hbm, 108, rfl⟩
abbrev main_v17 : Ref sig .tc := ⟨.hbm, 109, rfl⟩
abbrev main_v18 : Ref sig .tc := ⟨.hbm, 110, rfl⟩
abbrev main_v19 : Ref sig .tc := ⟨.hbm, 111, rfl⟩
abbrev main_c_9 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_c_10 : Ref sig .tc := ⟨.hbm, 116, rfl⟩
abbrev main_call7_v0 : Ref sig .tc := ⟨.hbm, 117, rfl⟩
abbrev main_call7_v1 : Ref sig .tc := ⟨.hbm, 118, rfl⟩
abbrev main_v23 : Ref sig .tc := ⟨.hbm, 119, rfl⟩
abbrev main_c_11 : Ref sig .tc := ⟨.hbm, 120, rfl⟩
abbrev main_call8_v0 : Ref sig .tc := ⟨.hbm, 121, rfl⟩
abbrev main_call8_v1 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_c_12 : Ref sig .tc := ⟨.hbm, 130, rfl⟩
abbrev main_v31 : Ref sig .tc := ⟨.hbm, 131, rfl⟩
abbrev main_v32 : Ref sig .tc := ⟨.hbm, 132, rfl⟩
abbrev main_c_13 : Ref sig .tc := ⟨.hbm, 133, rfl⟩
abbrev main_v33 : Ref sig .tc := ⟨.hbm, 134, rfl⟩
abbrev main_v34 : Ref sig .tc := ⟨.hbm, 135, rfl⟩
abbrev main_v35 : Ref sig .tc := ⟨.hbm, 136, rfl⟩
abbrev main_v36 : Ref sig .tc := ⟨.hbm, 137, rfl⟩
abbrev main_v37 : Ref sig .tc := ⟨.hbm, 138, rfl⟩
abbrev main_v38 : Ref sig .tc := ⟨.hbm, 139, rfl⟩
abbrev main_v39 : Ref sig .tc := ⟨.hbm, 140, rfl⟩
abbrev main_c_14 : Ref sig .tc := ⟨.hbm, 141, rfl⟩
abbrev main_v40 : Ref sig .tc := ⟨.hbm, 142, rfl⟩
abbrev main_v41 : Ref sig .tc := ⟨.hbm, 143, rfl⟩
abbrev main_c_15 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_cst : Ref sig .tc := ⟨.hbm, 155, rfl⟩
abbrev main_call9_cst : Ref sig .tc := ⟨.hbm, 156, rfl⟩
abbrev main_call9_v0 : Ref sig .tc := ⟨.hbm, 157, rfl⟩
abbrev main_call9_v1 : Ref sig .tc := ⟨.hbm, 158, rfl⟩
abbrev main_call9_v2 : Ref sig .tc := ⟨.hbm, 159, rfl⟩
abbrev main_call9_v3 : Ref sig .tc := ⟨.hbm, 160, rfl⟩
abbrev main_call9_v4 : Ref sig .tc := ⟨.hbm, 161, rfl⟩
abbrev main_v52 : Ref sig .tc := ⟨.hbm, 162, rfl⟩
abbrev main_v53 : Ref sig .tc := ⟨.hbm, 163, rfl⟩
abbrev main_v54 : Ref sig .tc := ⟨.hbm, 164, rfl⟩
abbrev main_cst_16 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_c_17 : Ref sig .tc := ⟨.hbm, 170, rfl⟩
abbrev main_v59 : Ref sig .tc := ⟨.hbm, 171, rfl⟩
abbrev main_v60 : Ref sig .tc := ⟨.hbm, 172, rfl⟩
abbrev main_c_18 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_cst_19 : Ref sig .tc := ⟨.hbm, 179, rfl⟩
abbrev main_v66 : Ref sig .tc := ⟨.hbm, 180, rfl⟩
abbrev main_v67 : Ref sig .tc := ⟨.hbm, 181, rfl⟩
abbrev main_v68 : Ref sig .tc := ⟨.hbm, 182, rfl⟩
abbrev main_v69 : Ref sig .tc := ⟨.hbm, 183, rfl⟩
abbrev main_v70 : Ref sig .tc := ⟨.hbm, 184, rfl⟩
abbrev main_v71 : Ref sig .tc := ⟨.hbm, 185, rfl⟩
abbrev main_c_20 : Ref sig .tc := ⟨.hbm, 186, rfl⟩
abbrev main_v72 : Ref sig .tc := ⟨.hbm, 187, rfl⟩
abbrev main_v73 : Ref sig .tc := ⟨.hbm, 188, rfl⟩
abbrev main_c_21 : Ref sig .tc := ⟨.hbm, 189, rfl⟩
abbrev main_v74 : Ref sig .tc := ⟨.hbm, 190, rfl⟩
abbrev main_v75 : Ref sig .tc := ⟨.hbm, 191, rfl⟩
abbrev main_v76 : Ref sig .tc := ⟨.hbm, 192, rfl⟩
abbrev main_v77 : Ref sig .tc := ⟨.hbm, 193, rfl⟩
abbrev main_v78 : Ref sig .tc := ⟨.hbm, 194, rfl⟩
abbrev main_v79 : Ref sig .tc := ⟨.hbm, 195, rfl⟩
abbrev main_v80 : Ref sig .tc := ⟨.hbm, 196, rfl⟩
abbrev main_c_22 : Ref sig .tc := ⟨.hbm, 197, rfl⟩
abbrev main_v81 : Ref sig .tc := ⟨.hbm, 198, rfl⟩
abbrev main_v82 : Ref sig .tc := ⟨.hbm, 199, rfl⟩
abbrev main_c_23 : Ref sig .tc := ⟨.hbm, 200, rfl⟩
abbrev main_v83 : Ref sig .tc := ⟨.hbm, 201, rfl⟩
abbrev main_v84 : Ref sig .tc := ⟨.hbm, 202, rfl⟩
abbrev main_v85 : Ref sig .tc := ⟨.hbm, 203, rfl⟩
abbrev main_v86 : Ref sig .tc := ⟨.hbm, 204, rfl⟩
abbrev main_v87 : Ref sig .tc := ⟨.hbm, 205, rfl⟩
abbrev main_cst_24 : Ref sig .tc := ⟨.hbm, 206, rfl⟩
abbrev main_v88 : Ref sig .tc := ⟨.hbm, 207, rfl⟩
abbrev main_v89 : Ref sig .tc := ⟨.hbm, 208, rfl⟩
abbrev main_v90 : Ref sig .tc := ⟨.hbm, 209, rfl⟩
abbrev main_v91 : Ref sig .tc := ⟨.hbm, 210, rfl⟩
abbrev main_call10_cst : Ref sig .tc := ⟨.hbm, 211, rfl⟩
abbrev main_call10_v0 : Ref sig .tc := ⟨.hbm, 212, rfl⟩
abbrev main_call10_v1 : Ref sig .tc := ⟨.hbm, 213, rfl⟩
abbrev main_call10_cst_0 : Ref sig .tc := ⟨.hbm, 214, rfl⟩
abbrev main_call10_v2 : Ref sig .tc := ⟨.hbm, 215, rfl⟩
abbrev main_call10_v3 : Ref sig .tc := ⟨.hbm, 216, rfl⟩
abbrev main_call10_cst_1 : Ref sig .tc := ⟨.hbm, 217, rfl⟩
abbrev main_call10_call0_v0 : Ref sig .tc := ⟨.hbm, 218, rfl⟩
abbrev main_call10_call0_v1 : Ref sig .tc := ⟨.hbm, 219, rfl⟩
abbrev main_call10_v4 : Ref sig .tc := ⟨.hbm, 220, rfl⟩
abbrev main_call10_v5 : Ref sig .tc := ⟨.hbm, 221, rfl⟩
abbrev main_call10_cst_2 : Ref sig .tc := ⟨.hbm, 222, rfl⟩
abbrev main_call10_v6 : Ref sig .tc := ⟨.hbm, 223, rfl⟩
abbrev main_call10_v7 : Ref sig .tc := ⟨.hbm, 224, rfl⟩
abbrev main_v92 : Ref sig .tc := ⟨.hbm, 225, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S1024x1024_S_d0_1 : S1024x1024.ReducesTo [0, 1] S_
  bcast_S1048576_S1x1048576_1 : S1048576.BroadcastsInDim S1x1048576 (![1] : Fin 1 → Fin S1x1048576.rank)
  concatenates_S1x1048576_S1x1048576_S2x1048576_d0 : Shape.Concatenates [S1x1048576, S1x1048576] S2x1048576 0
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576x128_S1048576x128_S1048576x256_d1 : Shape.Concatenates [S1048576x128, S1048576x128] S1048576x256 1
  transposes_S1048576x256_S256x1048576_1_0 : S1048576x256.Transposes [1, 0] S256x1048576
  transposes_S256x1_S1x256_1_0 : S256x1.Transposes [1, 0] S1x256
  bcast_S_S1024x1 : S_.BroadcastsInDim S1024x1 (![] : Fin 0 → Fin S1024x1.rank)
  bcast_S_S1024x128 : S_.BroadcastsInDim S1024x128 (![] : Fin 0 → Fin S1024x128.rank)
  bcast_S1048576x1_S1048576x128_0_1 : S1048576x1.BroadcastsInDim S1048576x128 (![0, 1] : Fin 2 → Fin S1048576x128.rank)
  bcast_S1024x1_S1024x128_0_1 : S1024x1.BroadcastsInDim S1024x128 (![0, 1] : Fin 2 → Fin S1024x128.rank)
  scatter_S1048576_S1048576x1_S1048576_n_0_0_1_wf : ScatterDims.WF S1048576 S1048576x1 S1048576 [] [0] [0] 1
  dot_S1024x128_S128x128_S1024x128_1_0_0_1_n_n_wf : DotDims.WF S1024x128 S128x128 S1024x128 [1] [0] [0] [1] [] []
  gather_S1024x128_S1048576x1_S1048576x128_1_0_n_n_0_1_1128_wf : GatherDims.WF S1024x128 S1048576x1 S1048576x128 [1] [0] [] [0] [] 1 ![1, 128]
  dot_S1x256_S256x1048576_S1x1048576_1_0_0_1_n_n_wf : DotDims.WF S1x256 S256x1048576 S1x1048576 [1] [0] [0] [1] [] []
  scatter_S1024x1_S1048576x1_S1048576x1_1_0_0_1_wf : ScatterDims.WF S1024x1 S1048576x1 S1048576x1 [1] [0] [0] 1
  scatter_S1024x128_S1048576x1_S1048576x128_1_0_0_1_wf : ScatterDims.WF S1024x128 S1048576x1 S1048576x128 [1] [0] [0] 1

variable [Facts₀]

def scatter_S1048576_S1048576x1_S1048576_n_0_0_1 : ScatterDims S1048576 S1048576x1 S1048576 where
  updateWindowDims := []
  insertedWindowDims := [0]
  scatterDimsToOperandDims := [0]
  indexVectorDim := 1
  wf := scatter_S1048576_S1048576x1_S1048576_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def gather_S1024x128_S1048576x1_S1048576x128_1_0_n_n_0_1_1128 : GatherDims S1024x128 S1048576x1 S1048576x128 where
  offsetDims := [1]
  collapsedSliceDims := [0]
  operandBatchingDims := []
  startIndicesBatchingDims := []
  startIndexMap := [0]
  indexVectorDim := 1
  sliceSizes := ![1, 128]
  wf := gather_S1024x128_S1048576x1_S1048576x128_1_0_n_n_0_1_1128_wf
def dot_S1x256_S256x1048576_S1x1048576_1_0_0_1_n_n : DotDims S1x256 S256x1048576 S1x1048576 where
  lhsContracting := [1]
  rhsContracting := [0]
  lhsNonContracting := [0]
  rhsNonContracting := [1]
  lhsBatch := []
  rhsBatch := []
  wf := dot_S1x256_S256x1048576_S1x1048576_1_0_0_1_n_n_wf
def scatter_S1024x1_S1048576x1_S1048576x1_1_0_0_1 : ScatterDims S1024x1 S1048576x1 S1048576x1 where
  updateWindowDims := [1]
  insertedWindowDims := [0]
  scatterDimsToOperandDims := [0]
  indexVectorDim := 1
  wf := scatter_S1024x1_S1048576x1_S1048576x1_1_0_0_1_wf
def scatter_S1024x128_S1048576x1_S1048576x128_1_0_0_1 : ScatterDims S1024x128 S1048576x1 S1048576x128 where
  updateWindowDims := [1]
  insertedWindowDims := [0]
  scatterDimsToOperandDims := [0]
  indexVectorDim := 1
  wf := scatter_S1024x128_S1048576x1_S1048576x128_1_0_0_1_wf

class Facts : Prop extends Facts₀ where

variable [Facts]
-- ==== Proof.Spec.lean ====
/-
  The function both programs compute, stated once over the argument arrays, index by index, on the extended reals.

  With `hid = x · W` (a 1024 × 128 matrix), every ordered pair of nodes `(i, j)` has the logit
  `srcTerm i + dstTerm j`, where `srcTerm i = hid i · a[0:128]` and `dstTerm j = a[128:256] · hid j`; its edge weight is
  `exp (0 - leaky (logit))` when the adjacency entry `adj i j` is not zero and `0` otherwise. Row `i` of the result is the
  ELU of the weighted sum of the rows `hid j`, divided by the row's total weight plus the constant `1e-9` (as an f32 word).
  Every float constant is kept as the f32 word both programs carry, never evaluated here.
-/
import Idealize.ShloMosaic.PureOps.Ideal
import Idealize.ShloMosaic.Lib.ValueIdx

noncomputable section

namespace Cert.GatSpec

open Idealize.ShloMosaic Idealize.ShloMosaic.ValueIdx

/-- The f32 words `0.0`, `0.2`, `1e-9` (rounded to f32) and `1.0`, read on the extended reals. -/
def c0 : EReal := Ideal.ofBits .f32 0x00000000#32
def c02 : EReal := Ideal.ofBits .f32 0x3E4CCCCD#32
def ceps : EReal := Ideal.ofBits .f32 0x3089705F#32
def c1 : EReal := Ideal.ofBits .f32 0x3F800000#32

/-- Leaky ReLU of slope `0.2`: `z` where `z ≥ 0`, else `0.2 · z`. -/
def leaky (z : EReal) : EReal :=
  Scalar.select (FloatOps.cmpf (F := Ideal) (φ := .f32) .oge z c0) z (c02 * z)

/-- ELU: `h` where `h > 0`, else `exp (min h 0) - 1`. -/
def elu (h : EReal) : EReal :=
  Scalar.select (FloatOps.cmpf (F := Ideal) (φ := .f32) .ogt h c0) h (Ideal.exp (min h c0) - c1)

variable (x : (⟨2, ![1024, 128]⟩ : Shape).Idx → EReal) (adj : (⟨2, ![1024, 1024]⟩ : Shape).Idx → BitVec 32)
  (W : (⟨2, ![128, 128]⟩ : Shape).Idx → EReal) (a : (⟨2, ![256, 1]⟩ : Shape).Idx → EReal)

/-- The hidden features `x · W`. -/
def hid (r : Fin 1024) (k : Fin 128) : EReal := ∑ c : Fin 128, x (ix2 r c) * W (ix2 c k)

/-- The source node's share of a logit: row `i` of `hid` against the first 128 entries of `a`. -/
def srcTerm (i : Fin 1024) : EReal :=
  ∑ k : Fin 128, hid x W i k * a (ix2 (⟨k.val, by omega⟩ : Fin 256) (0 : Fin 1))

/-- The destination node's share of a logit: the last 128 entries of `a` against row `j` of `hid`. -/
def dstTerm (j : Fin 1024) : EReal :=
  ∑ k : Fin 128, a (ix2 (⟨128 + k.val, by omega⟩ : Fin 256) (0 : Fin 1)) * hid x W j k

/-- The weight of the ordered pair `(i, j)`: `exp (0 - leaky (logit))` on an edge, `0` off it. -/
def wgt (i j : Fin 1024) : EReal :=
  Scalar.select (IntOp.cmpi .ne (adj (ix2 i j)) 0#32)
    (Ideal.exp (c0 - leaky (srcTerm x W a i + dstTerm x W a j))) c0

/-- A row's total weight. -/
def rowsum (i : Fin 1024) : EReal := ∑ j : Fin 1024, wgt x adj W a i j

/-- A row's weighted sum of hidden features. -/
def agg (i : Fin 1024) (k : Fin 128) : EReal := ∑ j : Fin 1024, wgt x adj W a i j * hid x W j k

/-- The result array. -/
def out : (⟨2, ![1024, 128]⟩ : Shape).Idx → EReal := fun idx =>
  elu (Ideal.div (agg x adj W a (idx 0) (idx 1)) (rowsum x adj W a (idx 0) + ceps))

end Cert.GatSpec

end
-- ==== Proof.KernelPayload.lean ====
/-
  The kernel body's arithmetic read at one index, on the extended reals.

  At the first grid point the body computes the hidden features `x · W` and the two logit shares from them and keeps the three
  in scratch; at every grid point it forms, for its 512 rows, the masked edge weights against all 1024 columns, their row sums and
  their products with the hidden features, the quotient and the ELU. Each statement below reads one stored value at an index as
  the sum it is.
-/
import proofs.«130080_g13718125543874_cont_sun_m_270_4_alg».proof.Proof.Gen.KernelIdeal.Skeleton
import proofs.«130080_g13718125543874_cont_sun_m_270_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.GatSpec

/-! ## The four products' operand indices

Each product contracts one axis. At an output index `i` and a contraction index `q`, an operand's coordinate on its free axis is
the output's coordinate on the matching axis, and on its contracted axis it is `q`'s one coordinate. -/

/-- `x · W`: the left operand's row is the output's row. -/
theorem lhs_xw_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
/-- `x · W`: the left operand's column is the contracted coordinate. -/
theorem lhs_xw_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- `x · W`: the right operand's row is the contracted coordinate. -/
theorem rhs_xw_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- `x · W`: the right operand's column is the output's column. -/
theorem rhs_xw_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- `hid · a1`: the left operand's row is the output's row. -/
theorem lhs_src_0 (i : S1024x1.Idx) (q : dot_S1024x128_S128x1_S1024x1_1_0_0_1_n_n.contr.Idx) :
    (dot_S1024x128_S128x1_S1024x1_1_0_0_1_n_n.lhsIdx i q 0).val = (i 0).val := by
  unfold DotDims.lhsIdx
  rw [dif_neg (show ¬(0 : Fin S1024x128.rank) ∈ dot_S1024x128_S128x1_S1024x1_1_0_0_1_n_n.lhsBatch by decide),
    dif_pos (show (0 : Fin S1024x128.rank) ∈ dot_S1024x128_S128x1_S1024x1_1_0_0_1_n_n.lhsNonContracting by decide)]
  rfl
/-- `hid · a1`: the left operand's column is the contracted coordinate. -/
theorem lhs_src_1 (i : S1024x1.Idx) (q : dot_S1024x128_S128x1_S1024x1_1_0_0_1_n_n.contr.Idx) :
    (dot_S1024x128_S128x1_S1024x1_1_0_0_1_n_n.lhsIdx i q 1).val = (q ⟨0, by decide⟩).val :=
  dot_S1024x128_S128x1_S1024x1_1_0_0_1_n_n.lhsIdx_val_of_single rfl i q
/-- `hid · a1`: the right operand's row is the contracted coordinate. -/
theorem rhs_src_0 (i : S1024x1.Idx) (q : dot_S1024x128_S128x1_S1024x1_1_0_0_1_n_n.contr.Idx) :
    (dot_S1024x128_S128x1_S1024x1_1_0_0_1_n_n.rhsIdx i q 0).val = (q ⟨0, by decide⟩).val :=
  dot_S1024x128_S128x1_S1024x1_1_0_0_1_n_n.rhsIdx_val_of_single rfl i q
/-- `hid · a1`: the right operand's one column is the output's one column. -/
theorem rhs_src_1 (i : S1024x1.Idx) (q : dot_S1024x128_S128x1_S1024x1_1_0_0_1_n_n.contr.Idx) :
    (dot_S1024x128_S128x1_S1024x1_1_0_0_1_n_n.rhsIdx i q 1).val = (i 1).val := by
  unfold DotDims.rhsIdx
  rw [dif_neg (show ¬(1 : Fin S128x1.rank) ∈ dot_S1024x128_S128x1_S1024x1_1_0_0_1_n_n.rhsBatch by decide),
    dif_pos (show (1 : Fin S128x1.rank) ∈ dot_S1024x128_S128x1_S1024x1_1_0_0_1_n_n.rhsNonContracting by decide)]
  rfl

/-- `a2` against `hid`, each contracted on its 128-axis: the left operand's row is the contracted coordinate. -/
theorem lhs_dst_0 (i : S1x1024.Idx) (q : dot_S128x1_S1024x128_S1x1024_0_1_1_0_n_n.contr.Idx) :
    (dot_S128x1_S1024x128_S1x1024_0_1_1_0_n_n.lhsIdx i q 0).val = (q ⟨0, by decide⟩).val :=
  dot_S128x1_S1024x128_S1x1024_0_1_1_0_n_n.lhsIdx_val_of_single rfl i q
/-- … the left operand's one column is the output's one row. -/
theorem lhs_dst_1 (i : S1x1024.Idx) (q : dot_S128x1_S1024x128_S1x1024_0_1_1_0_n_n.contr.Idx) :
    (dot_S128x1_S1024x128_S1x1024_0_1_1_0_n_n.lhsIdx i q 1).val = (i 0).val := by
  unfold DotDims.lhsIdx
  rw [dif_neg (show ¬(1 : Fin S128x1.rank) ∈ dot_S128x1_S1024x128_S1x1024_0_1_1_0_n_n.lhsBatch by decide),
    dif_pos (show (1 : Fin S128x1.rank) ∈ dot_S128x1_S1024x128_S1x1024_0_1_1_0_n_n.lhsNonContracting by decide)]
  rfl
/-- … the right operand's row is the output's column. -/
theorem rhs_dst_0 (i : S1x1024.Idx) (q : dot_S128x1_S1024x128_S1x1024_0_1_1_0_n_n.contr.Idx) :
    (dot_S128x1_S1024x128_S1x1024_0_1_1_0_n_n.rhsIdx i q 0).val = (i 1).val := by
  unfold DotDims.rhsIdx
  rw [dif_neg (show ¬(0 : Fin S1024x128.rank) ∈ dot_S128x1_S1024x128_S1x1024_0_1_1_0_n_n.rhsBatch by decide),
    dif_pos (show (0 : Fin S1024x128.rank) ∈ dot_S128x1_S1024x128_S1x1024_0_1_1_0_n_n.rhsNonContracting by decide)]
  rfl
/-- … and the right operand's column is the contracted coordinate. -/
theorem rhs_dst_1 (i : S1x1024.Idx) (q : dot_S128x1_S1024x128_S1x1024_0_1_1_0_n_n.contr.Idx) :
    (dot_S128x1_S1024x128_S1x1024_0_1_1_0_n_n.rhsIdx i q 1).val = (q ⟨0, by decide⟩).val :=
  dot_S128x1_S1024x128_S1x1024_0_1_1_0_n_n.rhsIdx_val_of_single rfl i q

/-- The weights against `hid`: the left operand's row is the output's row. -/
theorem lhs_agg_0 (i : S512x128.Idx) (q : dot_S512x1024_S1024x128_S512x128_1_0_0_1_n_n.contr.Idx) :
    (dot_S512x1024_S1024x128_S512x128_1_0_0_1_n_n.lhsIdx i q 0).val = (i 0).val := by
  unfold DotDims.lhsIdx
  rw [dif_neg (show ¬(0 : Fin S512x1024.rank) ∈ dot_S512x1024_S1024x128_S512x128_1_0_0_1_n_n.lhsBatch by decide),
    dif_pos (show (0 : Fin S512x1024.rank) ∈ dot_S512x1024_S1024x128_S512x128_1_0_0_1_n_n.lhsNonContracting by decide)]
  rfl
/-- … the left operand's column is the contracted coordinate. -/
theorem lhs_agg_1 (i : S512x128.Idx) (q : dot_S512x1024_S1024x128_S512x128_1_0_0_1_n_n.contr.Idx) :
    (dot_S512x1024_S1024x128_S512x128_1_0_0_1_n_n.lhsIdx i q 1).val = (q ⟨0, by decide⟩).val :=
  dot_S512x1024_S1024x128_S512x128_1_0_0_1_n_n.lhsIdx_val_of_single rfl i q
/-- … the right operand's row is the contracted coordinate. -/
theorem rhs_agg_0 (i : S512x128.Idx) (q : dot_S512x1024_S1024x128_S512x128_1_0_0_1_n_n.contr.Idx) :
    (dot_S512x1024_S1024x128_S512x128_1_0_0_1_n_n.rhsIdx i q 0).val = (q ⟨0, by decide⟩).val :=
  dot_S512x1024_S1024x128_S512x128_1_0_0_1_n_n.rhsIdx_val_of_single rfl i q
/-- … and the right operand's column is the output's column. -/
theorem rhs_agg_1 (i : S512x128.Idx) (q : dot_S512x1024_S1024x128_S512x128_1_0_0_1_n_n.contr.Idx) :
    (dot_S512x1024_S1024x128_S512x128_1_0_0_1_n_n.rhsIdx i q 1).val = (i 1).val := by
  unfold DotDims.rhsIdx
  rw [dif_neg (show ¬(1 : Fin S1024x128.rank) ∈ dot_S512x1024_S1024x128_S512x128_1_0_0_1_n_n.rhsBatch by decide),
    dif_pos (show (1 : Fin S1024x128.rank) ∈ dot_S512x1024_S1024x128_S512x128_1_0_0_1_n_n.rhsNonContracting by decide)]
  rfl

/-! ## The first grid point's three stored values -/

/-- The product `x · W` at `(r, k)`: the sum over the shared 128-axis. -/
theorem pay2_apply (x0 : Vec Ideal S1024x128 .f32) (w0 : Vec Ideal S128x128 .f32) (r : Fin 1024) (k : Fin 128) :
    k0_pay2 (F := Ideal) x0 w0 (ix2 r k) = ∑ c : Fin 128, x0 (ix2 r c) * w0 (ix2 c k) := by
  unfold k0_pay2
  refine (Ideal.matmul_constant_zero_apply (φ₁ := .f32) (φ₂ := .f32) dot_S1024x128_S128x128_S1024x128_1_0_0_1_n_n none x0 w0
    (ix2 r k)).trans ?_
  rw [← Equiv.sum_comp (contrEquiv1 dot_S1024x128_S128x128_S1024x128_1_0_0_1_n_n 128 rfl rfl).symm]
  refine Finset.sum_congr rfl fun c _ => ?_
  have hk := contrEquiv1_symm_val dot_S1024x128_S128x128_S1024x128_1_0_0_1_n_n 128 rfl rfl c
  have el : dot_S1024x128_S128x128_S1024x128_1_0_0_1_n_n.lhsIdx (ix2 r k)
      ((contrEquiv1 dot_S1024x128_S128x128_S1024x128_1_0_0_1_n_n 128 rfl rfl).symm c) = ix2 r c :=
    funext fun a => Fin.ext (by
      match a with
      | ⟨0, _⟩ => exact lhs_xw_0 _ _
      | ⟨1, _⟩ => exact (lhs_xw_1 _ _).trans hk)
  have er : dot_S1024x128_S128x128_S1024x128_1_0_0_1_n_n.rhsIdx (ix2 r k)
      ((contrEquiv1 dot_S1024x128_S128x128_S1024x128_1_0_0_1_n_n 128 rfl rfl).symm c) = ix2 c k :=
    funext fun a => Fin.ext (by
      match a with
      | ⟨0, _⟩ => exact (rhs_xw_0 _ _).trans hk
      | ⟨1, _⟩ => exact rhs_xw_1 _ _)
  rw [el, er]

/-- The hidden features the first grid point stores: entry `(r, k)` is the dot product of row `r` of `x` and column `k` of `W`. -/
theorem pay3_apply (x0 : Vec Ideal S1024x128 .f32) (w0 : Vec Ideal S128x128 .f32) (r : Fin 1024) (k : Fin 128) :
    k0_pay3 (F := Ideal) x0 w0 (ix2 r k) = ∑ c : Fin 128, x0 (ix2 r c) * w0 (ix2 c k) := by
  unfold k0_pay3
  exact (congrFun (shapeCast_self (k0_pay2 (F := Ideal) x0 w0) shapeCasts_S1024x128_S1024x128) (ix2 r k)).trans
    (pay2_apply x0 w0 r k)

/-- The source share the first grid point stores: entry `r` is row `r` of the hidden features against the 128-vector `a1`. -/
theorem pay4_apply (x0 : Vec Ideal S1024x128 .f32) (w0 : Vec Ideal S128x128 .f32) (a1 : Vec Ideal S128x1 .f32) (r : Fin 1024) :
    k0_pay4 (F := Ideal) x0 w0 a1 (ix2 r (0 : Fin 1))
      = ∑ k : Fin 128, (∑ c : Fin 128, x0 (ix2 r c) * w0 (ix2 c k)) * a1 (ix2 k (0 : Fin 1)) := by
  unfold k0_pay4
  refine (congrFun (shapeCast_self _ shapeCasts_S1024x1_S1024x1) (ix2 r (0 : Fin 1))).trans ?_
  refine (Ideal.matmul_constant_zero_apply (φ₁ := .f32) (φ₂ := .f32) dot_S1024x128_S128x1_S1024x1_1_0_0_1_n_n none
    (k0_pay2 (F := Ideal) x0 w0) a1 (ix2 r (0 : Fin 1))).trans ?_
  rw [← Equiv.sum_comp (contrEquiv1 dot_S1024x128_S128x1_S1024x1_1_0_0_1_n_n 128 rfl rfl).symm]
  refine Finset.sum_congr rfl fun k _ => ?_
  have hk := contrEquiv1_symm_val dot_S1024x128_S128x1_S1024x1_1_0_0_1_n_n 128 rfl rfl k
  have el : dot_S1024x128_S128x1_S1024x1_1_0_0_1_n_n.lhsIdx (ix2 r (0 : Fin 1))
      ((contrEquiv1 dot_S1024x128_S128x1_S1024x1_1_0_0_1_n_n 128 rfl rfl).symm k) = ix2 r k :=
    funext fun a => Fin.ext (by
      match a with
      | ⟨0, _⟩ => exact lhs_src_0 _ _
      | ⟨1, _⟩ => exact (lhs_src_1 _ _).trans hk)
  have er : dot_S1024x128_S128x1_S1024x1_1_0_0_1_n_n.rhsIdx (ix2 r (0 : Fin 1))
      ((contrEquiv1 dot_S1024x128_S128x1_S1024x1_1_0_0_1_n_n 128 rfl rfl).symm k) = ix2 k (0 : Fin 1) :=
    funext fun a => Fin.ext (by
      match a with
      | ⟨0, _⟩ => exact (rhs_src_0 _ _).trans hk
      | ⟨1, _⟩ => exact rhs_src_1 _ _)
  rw [el, er, pay2_apply]

/-- The destination share the first grid point stores: entry `j` is the 128-vector `a2` against row `j` of the hidden features. -/
theorem pay5_apply (x0 : Vec Ideal S1024x128 .f32) (w0 : Vec Ideal S128x128 .f32) (a2 : Vec Ideal S128x1 .f32) (j : Fin 1024) :
    k0_pay5 (F := Ideal) x0 w0 a2 (ix2 (0 : Fin 1) j)
      = ∑ k : Fin 128, a2 (ix2 k (0 : Fin 1)) * (∑ c : Fin 128, x0 (ix2 j c) * w0 (ix2 c k)) := by
  unfold k0_pay5
  refine (congrFun (shapeCast_self _ shapeCasts_S1x1024_S1x1024) (ix2 (0 : Fin 1) j)).trans ?_
  refine (Ideal.matmul_constant_zero_apply (φ₁ := .f32) (φ₂ := .f32) dot_S128x1_S1024x128_S1x1024_0_1_1_0_n_n none
    a2 (k0_pay2 (F := Ideal) x0 w0) (ix2 (0 : Fin 1) j)).trans ?_
  rw [← Equiv.sum_comp (contrEquiv1 dot_S128x1_S1024x128_S1x1024_0_1_1_0_n_n 128 rfl rfl).symm]
  refine Finset.sum_congr rfl fun k _ => ?_
  have hk := contrEquiv1_symm_val dot_S128x1_S1024x128_S1x1024_0_1_1_0_n_n 128 rfl rfl k
  have el : dot_S128x1_S1024x128_S1x1024_0_1_1_0_n_n.lhsIdx (ix2 (0 : Fin 1) j)
      ((contrEquiv1 dot_S128x1_S1024x128_S1x1024_0_1_1_0_n_n 128 rfl rfl).symm k) = ix2 k (0 : Fin 1) :=
    funext fun a => Fin.ext (by
      match a with
      | ⟨0, _⟩ => exact (lhs_dst_0 _ _).trans hk
      | ⟨1, _⟩ => exact lhs_dst_1 _ _)
  have er : dot_S128x1_S1024x128_S1x1024_0_1_1_0_n_n.rhsIdx (ix2 (0 : Fin 1) j)
      ((contrEquiv1 dot_S128x1_S1024x128_S1x1024_0_1_1_0_n_n 128 rfl rfl).symm k) = ix2 j k :=
    funext fun a => Fin.ext (by
      match a with
      | ⟨0, _⟩ => exact rhs_dst_0 _ _
      | ⟨1, _⟩ => exact (rhs_dst_1 _ _).trans hk)
  rw [el, er, pay2_apply]

/-! ## Columns: a vector stood up as a column, and a column copied across

The row sums come out as a 512-vector, are stood up as a `512 × 1` column and copied across 128 lanes; the source shares are a
`512 × 1` column copied across 1024 lanes. -/

/-- An `[a]` vector cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The masked edge weights of a block -/

/-- The block's `512 × 1024` matrix of weights, as the body forms it from the loaded source shares, destination shares and
    adjacency block. -/
def wvec (v5 : Vec Ideal S512x1 .f32) (v6 : Vec Ideal S1x1024 .f32) (v15 : Vec Ideal S512x1024 .i32) : FVec Ideal S512x1024 .f32 :=
  have v7 : FVec Ideal S512x1024 .f32 := broadcastTo S512x1024 v5 broadcasts_S512x1_S512x1024
  have v8 : FVec Ideal S512x1024 .f32 := broadcastTo S512x1024 v6 broadcasts_S1x1024_S512x1024
  have v9 : FVec Ideal S512x1024 .f32 := addf v7 v8
  have cst : Ideal .f32 := Scalar.ofBits .f32 0x00000000#32
  have v10 : FVec Ideal S512x1024 .f32 := broadcast S512x1024 cst
  have v11 : IVec S512x1024 1 := cmpf .oge v9 v10
  have cst_3 : Ideal .f32 := Scalar.ofBits .f32 0x3E4CCCCD#32
  have v12 : FVec Ideal S512x1024 .f32 := broadcast S512x1024 cst_3
  have v13 : FVec Ideal S512x1024 .f32 := mulf v12 v9
  have v14 : FVec Ideal S512x1024 .f32 := select v11 v9 v13
  have v16 : IVec S512x1024 32 := broadcast S512x1024 0#32
  have v17 : IVec S512x1024 1 := cmpi .ne v15 v16
  have cst_7 : Ideal .f32 := Scalar.ofBits .f32 0x00000000#32
  have v18 : FVec Ideal S512x1024 .f32 := broadcast S512x1024 cst_7
  have v19 : FVec Ideal S512x1024 .f32 := subf v18 v14
  have v20 : FVec Ideal S512x1024 .f32 := exp v19
  have cst_8 : Ideal .f32 := Scalar.ofBits .f32 0x00000000#32
  have v21 : FVec Ideal S512x1024 .f32 := broadcast S512x1024 cst_8
  select v17 v20 v21

/-- The weight the body gives row `p` of its block against column `j`, from the loaded source shares `v5`, destination shares
    `v6` and adjacency block `v15`. -/
def blockWgt (v5 : Vec Ideal S512x1 .f32) (v6 : Vec Ideal S1x1024 .f32) (v15 : Vec Ideal S512x1024 .i32) (p : Fin 512) (j : Fin 1024) : EReal :=
  Scalar.select (IntOp.cmpi .ne (v15 (ix2 p j)) 0#32)
    (Ideal.exp (c0 - leaky (v5 (ix2 p (0 : Fin 1)) + v6 (ix2 (0 : Fin 1) j)))) c0

/-- The weight matrix at `(p, j)`: on an edge the exponential of minus the leaky logit, off it zero. -/
theorem wvec_apply (v5 : Vec Ideal S512x1 .f32) (v6 : Vec Ideal S1x1024 .f32) (v15 : Vec Ideal S512x1024 .i32) (p : Fin 512) (j : Fin 1024) :
    wvec v5 v6 v15 (ix2 p j) = blockWgt v5 v6 v15 p j := by
  have e7 : broadcastTo S512x1024 v5 broadcasts_S512x1_S512x1024 (ix2 p j) = v5 (ix2 p (0 : Fin 1)) :=
    broadcastTo_a1_ab_apply v5 broadcasts_S512x1_S512x1024 p j
  have e8 : broadcastTo S512x1024 v6 broadcasts_S1x1024_S512x1024 (ix2 p j) = v6 (ix2 (0 : Fin 1) j) :=
    broadcastTo_1b_ab_apply v6 broadcasts_S1x1024_S512x1024 p j
  show Scalar.select (IntOp.cmpi .ne (v15 (ix2 p j)) 0#32)
    (Ideal.exp (c0 - leaky (broadcastTo S512x1024 v5 broadcasts_S512x1_S512x1024 (ix2 p j)
      + broadcastTo S512x1024 v6 broadcasts_S1x1024_S512x1024 (ix2 p j)))) c0 = _
  rw [e7, e8]
  rfl

/-! ## The row sum, the weighted sum, the quotient and the ELU -/

/-- The lane sum of a `512 × 1024` matrix at row `p`: the sum over the 1024 columns. -/
theorem rowsum_apply (W : FVec Ideal S512x1024 .f32) (hφ : FKind.Formats .f32)
    (hacc : (0x00000000#32 : BitVec 32) = 0x00000000#32) (p : Fin 512) :
    multiReduction (F := Ideal) .add [1] S512 W 0x00000000#32 reduces_S512x1024_S512 hφ hacc (ix1 p)
      = ∑ j : Fin 1024, W (ix2 p j) := by
  refine (Ideal.multiReduction_add_single W 0x00000000#32 reduces_S512x1024_S512 hφ hacc (ix1 p)).trans ?_
  refine Finset.sum_congr rfl fun j _ => congrArg W (funext fun a => Fin.ext ?_)
  match a with
  | ⟨0, _⟩ => rfl
  | ⟨1, _⟩ => rfl

/-- The product of a `512 × 1024` matrix with the hidden features at `(p, k)`: the sum over the 1024 shared coordinates. -/
theorem agg_apply (W : FVec Ideal S512x1024 .f32) (v25 : Vec Ideal S1024x128 .f32) (p : Fin 512) (k : Fin 128) :
    matmul (F := Ideal) (φ₁ := .f32) (φ₂ := .f32) dot_S512x1024_S1024x128_S512x128_1_0_0_1_n_n none W v25
        (constant S512x128 .f32 0x00000000#32) (ix2 p k)
      = ∑ j : Fin 1024, W (ix2 p j) * v25 (ix2 j k) := by
  refine (Ideal.matmul_constant_zero_apply (φ₁ := .f32) (φ₂ := .f32) dot_S512x1024_S1024x128_S512x128_1_0_0_1_n_n none W v25
    (ix2 p k)).trans ?_
  rw [← Equiv.sum_comp (contrEquiv1 dot_S512x1024_S1024x128_S512x128_1_0_0_1_n_n 1024 rfl rfl).symm]
  refine Finset.sum_congr rfl fun j _ => ?_
  have hk := contrEquiv1_symm_val dot_S512x1024_S1024x128_S512x128_1_0_0_1_n_n 1024 rfl rfl j
  have el : dot_S512x1024_S1024x128_S512x128_1_0_0_1_n_n.lhsIdx (ix2 p k)
      ((contrEquiv1 dot_S512x1024_S1024x128_S512x128_1_0_0_1_n_n 1024 rfl rfl).symm j) = ix2 p j :=
    funext fun a => Fin.ext (by
      match a with
      | ⟨0, _⟩ => exact lhs_agg_0 _ _
      | ⟨1, _⟩ => exact (lhs_agg_1 _ _).trans hk)
  have er : dot_S512x1024_S1024x128_S512x128_1_0_0_1_n_n.rhsIdx (ix2 p k)
      ((contrEquiv1 dot_S512x1024_S1024x128_S512x128_1_0_0_1_n_n 1024 rfl rfl).symm j) = ix2 j k :=
    funext fun a => Fin.ext (by
      match a with
      | ⟨0, _⟩ => exact (rhs_agg_0 _ _).trans hk
      | ⟨1, _⟩ => exact rhs_agg_1 _ _)
  rw [el, er]

/-- The quotient the body forms, over the weight matrix by name. -/
theorem pay6_eq (v5 : Vec Ideal S512x1 .f32) (v6 : Vec Ideal S1x1024 .f32) (v15 : Vec Ideal S512x1024 .i32)
    (v25 : Vec Ideal S1024x128 .f32) :
    k0_pay6 (F := Ideal) v5 v6 v15 v25
      = divf (matmul (F := Ideal) (φ₁ := .f32) (φ₂ := .f32) dot_S512x1024_S1024x128_S512x128_1_0_0_1_n_n none (wvec v5 v6 v15) v25
            (constant S512x128 .f32 0x00000000#32))
          (broadcastTo S512x128
            (addf (shapeCast S512x1
                (multiReduction (F := Ideal) .add [1] S512 (wvec v5 v6 v15) 0x00000000#32 reduces_S512x1024_S512 (.inl rfl) rfl)
                shapeCasts_S512_S512x1)
              (broadcast S512x1 (Scalar.ofBits (F := Ideal) .f32 0x3089705F#32)))
            broadcasts_S512x1_S512x128) := rfl

/-- The quotient at `(p, k)`: the weighted sum of column `k` of the hidden features over row `p`'s weights, divided by the row's
    total weight plus `1e-9`. -/
theorem pay6_apply (v5 : Vec Ideal S512x1 .f32) (v6 : Vec Ideal S1x1024 .f32) (v15 : Vec Ideal S512x1024 .i32)
    (v25 : Vec Ideal S1024x128 .f32) (p : Fin 512) (k : Fin 128) :
    k0_pay6 (F := Ideal) v5 v6 v15 v25 (ix2 p k)
      = Ideal.div (∑ j : Fin 1024, blockWgt v5 v6 v15 p j * v25 (ix2 j k))
          ((∑ j : Fin 1024, blockWgt v5 v6 v15 p j) + ceps) := by
  have hnum : matmul (F := Ideal) (φ₁ := .f32) (φ₂ := .f32) dot_S512x1024_S1024x128_S512x128_1_0_0_1_n_n none (wvec v5 v6 v15) v25
        (constant S512x128 .f32 0x00000000#32) (ix2 p k)
      = ∑ j : Fin 1024, blockWgt v5 v6 v15 p j * v25 (ix2 j k) :=
    (agg_apply (wvec v5 v6 v15) v25 p k).trans
      (Finset.sum_congr rfl fun j _ => congrArg (· * v25 (ix2 j k)) (wvec_apply v5 v6 v15 p j))
  have hsum : shapeCast S512x1
        (multiReduction (F := Ideal) .add [1] S512 (wvec v5 v6 v15) 0x00000000#32 reduces_S512x1024_S512 (.inl rfl) rfl)
        shapeCasts_S512_S512x1 (ix2 p (0 : Fin 1))
      = ∑ j : Fin 1024, blockWgt v5 v6 v15 p j :=
    (shapeCast_a_a1_apply _ shapeCasts_S512_S512x1 p (0 : Fin 1)).trans
      ((rowsum_apply (wvec v5 v6 v15) (.inl rfl) rfl p).trans
        (Finset.sum_congr rfl fun j _ => wvec_apply v5 v6 v15 p j))
  have hden : broadcastTo S512x128
        (addf (shapeCast S512x1
            (multiReduction (F := Ideal) .add [1] S512 (wvec v5 v6 v15) 0x00000000#32 reduces_S512x1024_S512 (.inl rfl) rfl)
            shapeCasts_S512_S512x1)
          (broadcast S512x1 (Scalar.ofBits (F := Ideal) .f32 0x3089705F#32)))
        broadcasts_S512x1_S512x128 (ix2 p k)
      = (∑ j : Fin 1024, blockWgt v5 v6 v15 p j) + ceps :=
    (broadcastTo_a1_ab_apply _ broadcasts_S512x1_S512x128 p k).trans (congrArg (· + ceps) hsum)
  exact (congrFun (pay6_eq v5 v6 v15 v25) (ix2 p k)).trans (congrArg₂ Ideal.div hnum hden)

/-- The block the body stores: at `(p, k)`, the ELU of the weighted sum of column `k` of the hidden features `v25` over the
    row's weights, divided by the row's total weight plus `1e-9`. -/
theorem pay1_apply (v5 : Vec Ideal S512x1 .f32) (v6 : Vec Ideal S1x1024 .f32) (v15 : Vec Ideal S512x1024 .i32)
    (v25 : Vec Ideal S1024x128 .f32) (p : Fin 512) (k : Fin 128) :
    k0_pay1 (F := Ideal) (k0_pay6 v5 v6 v15 v25) (k0_pay7 v5 v6 v15 v25) (k0_pay8 v5 v6 v15 v25) k0_pay9 (ix2 p k)
      = elu (Ideal.div (∑ j : Fin 1024, blockWgt v5 v6 v15 p j * v25 (ix2 j k))
          ((∑ j : Fin 1024, blockWgt v5 v6 v15 p j) + ceps)) := by
  have h : k0_pay1 (F := Ideal) (k0_pay6 v5 v6 v15 v25) (k0_pay7 v5 v6 v15 v25) (k0_pay8 v5 v6 v15 v25) k0_pay9 (ix2 p k)
      = elu (k0_pay6 (F := Ideal) v5 v6 v15 v25 (ix2 p k)) := rfl
  exact h.trans (congrArg elu (pay6_apply v5 v6 v15 v25 p k))

end Cert.KernelIdeal.Payload

end
-- ==== Proof.KernelValue.lean ====
/-
  What the kernel's result array holds after its run, on the extended reals: the masked graph attention of the argument arrays.

  The grid has two points, each writing one 512-row block of the result. The first point also computes the hidden features and the
  two logit shares of all 1024 nodes and leaves them in scratch; the second point reads them back unchanged. So both blocks are the
  same function of the argument arrays, restricted to their rows, and the two blocks tile the array.
-/
import proofs.«130080_g13718125543874_cont_sun_m_270_4_alg».proof.Proof.Gen.KernelIdeal.Value
import proofs.«130080_g13718125543874_cont_sun_m_270_4_alg».proof.Proof.KernelPayload
import proofs.«130080_g13718125543874_cont_sun_m_270_4_alg».proof.Proof.Spec

noncomputable section

namespace Cert.KernelIdeal.KValue

open Cert.KernelIdeal Cert.KernelIdeal.Gen Idealize.ShloMosaic Idealize.ShloMosaic.TcCoe Idealize.SL.Sem
open Idealize.ShloMosaic.ValueIdx

/-! ## What each case of the body leaves, as terms of what it was given -/

section Pieces

variable {F : FTy → Type} [FloatOps F]

theorem hz : (![0, 0] : Fin 2 → Nat) = fun _ => 0 := funext fun a => by fin_cases a <;> rfl

/-- The first 128 entries of the 256-vector `a`. -/
abbrev aTop (x2 : Vec F S256x1 .f32) : Vec F S128x1 .f32 :=
  View.ld x2 (Rect.unit (s := S256x1) ![0, 0] S128x1.size inb_S256x1_S128x1_0_0)

/-- The last 128 entries of the 256-vector `a`. -/
abbrev aBot (x2 : Vec F S256x1 .f32) : Vec F S128x1 .f32 :=
  View.ld x2 (Rect.unit (s := S256x1) ![128, 0] S128x1.size inb_S256x1_S128x1_128_0)

/-- The 512 source shares of the rows of the point's block, out of all 1024. -/
abbrev srcRows (i : grid0.Coords) (s1 : Vec F S1024x1 .f32) : Vec F S512x1 .f32 :=
  View.ld s1 (Rect.unit (s := S1024x1) (k0_off1 i) S512x1.size (k0_off1_inb i))

/-- The block a point stores, from the hidden features `s0`, the source shares `s1`, the destination shares `s2` (as the three
    scratches hold them) and the point's adjacency block `x3`. -/
def blockOf (i : grid0.Coords) (s0 : Vec F S1024x128 .f32) (s1 : Vec F S1024x1 .f32) (s2 : Vec F S1x1024 .f32)
    (x3 : Vec F S512x1024 .i32) : Vec F S512x128 .f32 :=
  k0_pay1 (k0_pay6 (srcRows i s1) s2 x3 s0) (k0_pay7 (srcRows i s1) s2 x3 s0) (k0_pay8 (srcRows i s1) s2 x3 s0) k0_pay9

/-- The first point leaves the hidden features in the first scratch. -/
theorem soutA0_eq (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S256x1 .f32) (harg3 : arg3.IsWhole) (arg4 : Memref sig .tc .vmem S512x1024 .i32) (harg4 : arg4.IsWhole) (arg5 : Memref sig .tc .vmem S512x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1x1024 .f32) (harg8 : arg8.IsWhole) (hc0 : cond0_0 i) (x0 : Vec F S1024x128 .f32) (x1 : Vec F S128x128 .f32) (x2 : Vec F S256x1 .f32) (x3 : Vec F S512x1024 .i32) :
    sout0_A_0 c i arg1 harg1 arg2 harg2 arg3 harg3 arg4 harg4 arg5 harg5 arg6 harg6 arg7 harg7 arg8 harg8 hc0 x0 x1 x2 x3 = k0_pay3 x0 x1 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3)]
  unfold kernelRun0_A
  dsimp only
  sl_unfold_words
  rw [View.canon_unit_zero hz]
  simp only [View.readAt_eq_ld, harg1.read_unread, harg2.read_unread, View.ld_unit_zero (S := S1024x128) hz,
    View.ld_unit_zero (S := S128x128) hz]

/-- The first point leaves the source shares in the second scratch. -/
theorem soutA1_eq (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S256x1 .f32) (harg3 : arg3.IsWhole) (arg4 : Memref sig .tc .vmem S512x1024 .i32) (harg4 : arg4.IsWhole) (arg5 : Memref sig .tc .vmem S512x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1x1024 .f32) (harg8 : arg8.IsWhole) (hc0 : cond0_0 i) (x0 : Vec F S1024x128 .f32) (x1 : Vec F S128x128 .f32) (x2 : Vec F S256x1 .f32) (x3 : Vec F S512x1024 .i32) :
    sout0_A_1 c i arg1 harg1 arg2 harg2 arg3 harg3 arg4 harg4 arg5 harg5 arg6 harg6 arg7 harg7 arg8 harg8 hc0 x0 x1 x2 x3 = k0_pay4 x0 x1 (aTop x2) := by
  unfold sout0_A_1
  rw [View.read_writes_eq_canon _ _ _ (scover0_A_1 c i arg1 harg1 arg2 harg2 arg3 harg3 arg4 harg4 arg5 harg5 arg6 harg6 arg7 harg7 arg8 harg8 hc0 x0 x1 x2 x3)]
  unfold kernelRun0_A
  dsimp only
  sl_unfold_words
  rw [View.canon_unit_zero hz]
  simp only [View.readAt_eq_ld, harg1.read_unread, harg2.read_unread, harg3.read_unread, View.ld_unit_zero (S := S1024x128) hz,
    View.ld_unit_zero (S := S128x128) hz]

/-- The first point leaves the destination shares in the third scratch. -/
theorem soutA2_eq (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S256x1 .f32) (harg3 : arg3.IsWhole) (arg4 : Memref sig .tc .vmem S512x1024 .i32) (harg4 : arg4.IsWhole) (arg5 : Memref sig .tc .vmem S512x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1x1024 .f32) (harg8 : arg8.IsWhole) (hc0 : cond0_0 i) (x0 : Vec F S1024x128 .f32) (x1 : Vec F S128x128 .f32) (x2 : Vec F S256x1 .f32) (x3 : Vec F S512x1024 .i32) :
    sout0_A_2 c i arg1 harg1 arg2 harg2 arg3 harg3 arg4 harg4 arg5 harg5 arg6 harg6 arg7 harg7 arg8 harg8 hc0 x0 x1 x2 x3 = k0_pay5 x0 x1 (aBot x2) := by
  unfold sout0_A_2
  rw [View.read_writes_eq_canon _ _ _ (scover0_A_2 c i arg1 harg1 arg2 harg2 arg3 harg3 arg4 harg4 arg5 harg5 arg6 harg6 arg7 harg7 arg8 harg8 hc0 x0 x1 x2 x3)]
  unfold kernelRun0_A
  dsimp only
  sl_unfold_words
  rw [View.canon_unit_zero hz]
  simp only [View.readAt_eq_ld, harg1.read_unread, harg2.read_unread, harg3.read_unread, View.ld_unit_zero (S := S1024x128) hz,
    View.ld_unit_zero (S := S128x128) hz]

/-- The first point's block: the three scratches are read back as just stored. -/
theorem outA4_eq (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S256x1 .f32) (harg3 : arg3.IsWhole) (arg4 : Memref sig .tc .vmem S512x1024 .i32) (harg4 : arg4.IsWhole) (arg5 : Memref sig .tc .vmem S512x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1x1024 .f32) (harg8 : arg8.IsWhole) (hc0 : cond0_0 i) (x0 : Vec F S1024x128 .f32) (x1 : Vec F S128x128 .f32) (x2 : Vec F S256x1 .f32) (x3 : Vec F S512x1024 .i32) :
    out0_A_4 c i arg1 harg1 arg2 harg2 arg3 harg3 arg4 harg4 arg5 harg5 arg6 harg6 arg7 harg7 arg8 harg8 hc0 x0 x1 x2 x3
      = blockOf i (k0_pay3 x0 x1) (k0_pay4 x0 x1 (aTop x2)) (k0_pay5 x0 x1 (aBot x2)) x3 := by
  unfold out0_A_4
  rw [View.read_writes_eq_canon _ _ _ (cover0_A_4 c i arg1 harg1 arg2 harg2 arg3 harg3 arg4 harg4 arg5 harg5 arg6 harg6 arg7 harg7 arg8 harg8 hc0 x0 x1 x2 x3)]
  unfold kernelRun0_A
  dsimp only
  sl_unfold_words
  rw [View.canon_unit_zero hz]
  simp only [View.readAt_writes_junk_eq_canon, View.canon_unit_zero (S := S1024x1) hz, View.readCov_unit_zero (S := S1024x128) _ hz,
    View.readCov_unit_zero (S := S1x1024) _ hz,
    View.readAt_eq_ld, harg1.read_unread, harg2.read_unread, harg3.read_unread, harg4.read_unread,
    View.ld_unit_zero (S := S1024x128) hz, View.ld_unit_zero (S := S128x128) hz, View.ld_unit_zero (S := S512x1024) hz]
  dsimp only [blockOf, srcRows, aTop, aBot, View.ld, k0_off1]

/-- A later point's block: the three scratches are read as the point before left them. -/
theorem outB4_eq (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S256x1 .f32) (harg3 : arg3.IsWhole) (arg4 : Memref sig .tc .vmem S512x1024 .i32) (harg4 : arg4.IsWhole) (arg5 : Memref sig .tc .vmem S512x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1x1024 .f32) (harg8 : arg8.IsWhole) (hc0 : ¬cond0_0 i) (x0 : Vec F S1024x128 .f32) (x1 : Vec F S128x128 .f32) (x2 : Vec F S256x1 .f32) (x3 : Vec F S512x1024 .i32)
    (xs0 : Vec F S1024x128 .f32) (xs1 : Vec F S1024x1 .f32) (xs2 : Vec F S1x1024 .f32) :
    out0_B_4 c i arg1 harg1 arg2 harg2 arg3 harg3 arg4 harg4 arg5 harg5 arg6 harg6 arg7 harg7 arg8 harg8 hc0 x0 x1 x2 x3 xs0 xs1 xs2 = blockOf i xs0 xs1 xs2 x3 := by
  unfold out0_B_4
  rw [View.read_writes_eq_canon _ _ _ (cover0_B_4 c i arg1 harg1 arg2 harg2 arg3 harg3 arg4 harg4 arg5 harg5 arg6 harg6 arg7 harg7 arg8 harg8 hc0 x0 x1 x2 x3 xs0 xs1 xs2)]
  unfold kernelRun0_B
  dsimp only
  sl_unfold_words
  rw [View.canon_unit_zero hz]
  simp only [View.readAt_eq_ld, harg4.read_unread, harg6.read_unread, harg7.read_unread, harg8.read_unread,
    View.ld_unit_zero (S := S1024x128) hz, View.ld_unit_zero (S := S1x1024) hz, View.ld_unit_zero (S := S512x1024) hz]
  rfl

end Pieces

/-! ## The input blocks as rows of the argument arrays, and what the scratches hold -/

section Blocks

variable {F : FTy → Type} [FloatOps F]
variable (m : (ℓ : Loc nD τ sig) → Buf (Elt F) ℓ)

/-- The printed index maps, decided over the grid: the three whole-array windows stay at block (0, 0); the adjacency window and the
    result window are at block (t, 0); the body's row offset into the source shares is 512·t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ k0_off1 (grid0.coords t) (0 : Fin 2) = 512 * t.val ∧ k0_off1 (grid0.coords t) (1 : Fin 2) = 0 :=
  (by decide +kernel : ∀ t : Fin grid0.N, _)

/-- The four input blocks at a point, and the four argument arrays, each by its literal type. -/
abbrev xblk (c : Dev nD) (t : Fin cfg0.N) : Vec F S1024x128 .f32 := iblk m c 0 t
abbrev wblk (c : Dev nD) (t : Fin cfg0.N) : Vec F S128x128 .f32 := iblk m c 1 t
abbrev ablk (c : Dev nD) (t : Fin cfg0.N) : Vec F S256x1 .f32 := iblk m c 2 t
abbrev adjblk (c : Dev nD) (t : Fin cfg0.N) : Vec F S512x1024 .i32 := iblk m c 3 t
abbrev xarr (c : Dev nD) : Vec F S1024x128 .f32 := m ((c : Thread nD τ).loc main_arg0)
abbrev adjarr (c : Dev nD) : Vec F S1024x1024 .i32 := m ((c : Thread nD τ).loc main_arg1)
abbrev warr (c : Dev nD) : Vec F S128x128 .f32 := m ((c : Thread nD τ).loc main_arg2)
abbrev aarr (c : Dev nD) : Vec F S256x1 .f32 := m ((c : Thread nD τ).loc main_arg3)

/-- The first window's block is the whole array `x`. -/
theorem xblk_eq (c : Dev nD) (t : Fin cfg0.N) : xblk m c t = xarr m c := by
  obtain ⟨e0, e1, -⟩ := idx_facts t
  funext y
  show iblk m c 0 t y = _
  unfold iblk
  rw [View.read_apply]
  show V m c main_arg0 _ = m (c.tc.loc main_arg0) _
  unfold V
  congr 1
  funext a
  apply Fin.ext
  match a with
  | ⟨0, _⟩ => show win0_0.index t (0 : Fin 2) * 1024 + 1 * (y 0).val = (y 0).val; rw [e0]; omega
  | ⟨1, _⟩ => show win0_0.index t (1 : Fin 2) * 128 + 1 * (y 1).val = (y 1).val; rw [e1]; omega

/-- The second window's block is the whole array `W`. -/
theorem wblk_eq (c : Dev nD) (t : Fin cfg0.N) : wblk m c t = warr m c := by
  obtain ⟨-, -, e0, e1, -⟩ := idx_facts t
  funext y
  show iblk m c 1 t y = _
  unfold iblk
  rw [View.read_apply]
  show V m c main_arg2 _ = m (c.tc.loc main_arg2) _
  unfold V
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The third window's block is the whole array `a`. -/
theorem ablk_eq (c : Dev nD) (t : Fin cfg0.N) : ablk m c t = aarr m c := by
  obtain ⟨-, -, -, -, e0, e1, -⟩ := idx_facts t
  funext y
  show iblk m c 2 t y = _
  unfold iblk
  rw [View.read_apply]
  show V m c main_arg3 _ = m (c.tc.loc main_arg3) _
  unfold V
  congr 1
  funext a
  apply Fin.ext
  match a with
  | ⟨0, _⟩ => show win0_2.index t (0 : Fin 2) * 256 + 1 * (y 0).val = (y 0).val; rw [e0]; omega
  | ⟨1, _⟩ => show win0_2.index t (1 : Fin 2) * 1 + 1 * (y 1).val = (y 1).val; rw [e1]; omega

/-- The fourth window's block at point `t` is rows `512·t … 512·t + 511` of the adjacency array. -/
theorem adjblk_apply (c : Dev nD) (t : Fin cfg0.N) (p : Fin 512) (j r : Fin 1024) (hr : r.val = 512 * t.val + p.val) :
    adjblk m c t (ix2 p j) = adjarr m c (ix2 r j) := by
  obtain ⟨-, -, -, -, -, -, e0, e1, -⟩ := idx_facts t
  show iblk m c 3 t (ix2 p j) = _
  unfold iblk
  rw [View.read_apply]
  show V m c main_arg1 _ = m (c.tc.loc main_arg1) _
  unfold V
  congr 1
  funext a
  apply Fin.ext
  match a with
  | ⟨0, _⟩ => show win0_3.index t (0 : Fin 2) * 512 + 1 * p.val = r.val; rw [e0, hr]; omega
  | ⟨1, _⟩ => show win0_3.index t (1 : Fin 2) * 1024 + 1 * j.val = j.val; rw [e1]; omega

/-- The hidden features and the two logit shares as the first point computes them from the argument arrays. -/
abbrev hid0 (c : Dev nD) : Vec F S1024x128 .f32 := k0_pay3 (xarr m c) (warr m c)
abbrev src0 (c : Dev nD) : Vec F S1024x1 .f32 := k0_pay4 (xarr m c) (warr m c) (aTop (aarr m c))
abbrev dst0 (c : Dev nD) : Vec F S1x1024 .f32 := k0_pay5 (xarr m c) (warr m c) (aBot (aarr m c))

/-- After every point the three scratches hold them: the first point stores them, a later point leaves them alone. -/
theorem scratch_eq (c : Dev nD) : ∀ (n : ℕ) (h : n < cfg0.N), (outsAt0 m c n h).2 = (hid0 m c, src0 m c, dst0 m c)
  | 0, h => by
    rw [outsAt0_A m c ⟨0, h⟩ rfl]
    dsimp only
    rw [soutA0_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) scM0_2 (Memref.isWhole_whole _) ((hcond0_0 ⟨0, h⟩).mpr rfl) (xblk m c ⟨0, h⟩) (wblk m c ⟨0, h⟩) (ablk m c ⟨0, h⟩) (adjblk m c ⟨0, h⟩),
      soutA1_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) scM0_2 (Memref.isWhole_whole _) ((hcond0_0 ⟨0, h⟩).mpr rfl) (xblk m c ⟨0, h⟩) (wblk m c ⟨0, h⟩) (ablk m c ⟨0, h⟩) (adjblk m c ⟨0, h⟩),
      soutA2_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) scM0_2 (Memref.isWhole_whole _) ((hcond0_0 ⟨0, h⟩).mpr rfl) (xblk m c ⟨0, h⟩) (wblk m c ⟨0, h⟩) (ablk m c ⟨0, h⟩) (adjblk m c ⟨0, h⟩),
      xblk_eq, wblk_eq, ablk_eq]
  | n + 1, h => by
    have ih := scratch_eq c n (Nat.lt_of_succ_lt h)
    by_cases h0 : (n + 1) % 2 = 0
    · rw [outsAt0_A m c ⟨n + 1, h⟩ h0]
      dsimp only
      rw [soutA0_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) ((hcond0_0 ⟨n + 1, h⟩).mpr h0) (xblk m c ⟨n + 1, h⟩) (wblk m c ⟨n + 1, h⟩) (ablk m c ⟨n + 1, h⟩) (adjblk m c ⟨n + 1, h⟩),
        soutA1_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) ((hcond0_0 ⟨n + 1, h⟩).mpr h0) (xblk m c ⟨n + 1, h⟩) (wblk m c ⟨n + 1, h⟩) (ablk m c ⟨n + 1, h⟩) (adjblk m c ⟨n + 1, h⟩),
        soutA2_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) ((hcond0_0 ⟨n + 1, h⟩).mpr h0) (xblk m c ⟨n + 1, h⟩) (wblk m c ⟨n + 1, h⟩) (ablk m c ⟨n + 1, h⟩) (adjblk m c ⟨n + 1, h⟩),
        xblk_eq, wblk_eq, ablk_eq]
    · rw [outsAt0_B m c ⟨n + 1, h⟩ h0]
      dsimp only
      unfold sout0_B_0 sout0_B_1 sout0_B_2
      show ((outsAt0 m c n _).2.1, (outsAt0 m c n _).2.2.1, (outsAt0 m c n _).2.2.2) = _
      rw [ih]

/-- What point `t` writes back: the block of the hidden features and shares of the argument arrays and the point's adjacency rows. -/
theorem flushed_blk (c : Dev nD) (t : Fin cfg0.N) :
    (dats m 0 c).flushed 4 t
      = (cfg0.win 4).cut (grid0.coords t) (blockOf (grid0.coords t) (hid0 m c) (src0 m c) (dst0 m c) (adjblk m c t)) := by
  by_cases h0 : t.val % 2 = 0
  · rw [Value.flushed4_A m c t h0,
      outA4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (xblk m c t) (wblk m c t) (ablk m c t) (adjblk m c t),
      xblk_eq, wblk_eq, ablk_eq]
  · have hs := scratch_eq m c (t.val - 1) (Nat.lt_of_le_of_lt (Nat.sub_le _ _) t.isLt)
    rw [Value.flushed4_B m c t h0,
      outB4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (xblk m c t) (wblk m c t) (ablk m c t) (adjblk m c t)
        (outsAt0 m c (t.val - 1) (Nat.lt_of_le_of_lt (Nat.sub_le _ _) t.isLt)).2.1
        (outsAt0 m c (t.val - 1) (Nat.lt_of_le_of_lt (Nat.sub_le _ _) t.isLt)).2.2.1
        (outsAt0 m c (t.val - 1) (Nat.lt_of_le_of_lt (Nat.sub_le _ _) t.isLt)).2.2.2,
      hs]

end Blocks

/-! ## The block at an index is the specification at the array index -/

section Reads

variable {F : FTy → Type} [FloatOps F]

/-- Entry `k` of the first half of `a`. -/
theorem aTop_apply (A : Vec F S256x1 .f32) (k : Fin 128) :
    aTop A (ix2 k (0 : Fin 1)) = A (ix2 (⟨k.val, by omega⟩ : Fin 256) (0 : Fin 1)) := by
  show A _ = A _
  congr 1
  funext a
  apply Fin.ext
  match a with
  | ⟨0, _⟩ => show 0 + 1 * k.val = k.val; omega
  | ⟨1, _⟩ => rfl

/-- Entry `k` of the second half of `a`. -/
theorem aBot_apply (A : Vec F S256x1 .f32) (k : Fin 128) :
    aBot A (ix2 k (0 : Fin 1)) = A (ix2 (⟨128 + k.val, by omega⟩ : Fin 256) (0 : Fin 1)) := by
  show A _ = A _
  congr 1
  funext a
  apply Fin.ext
  match a with
  | ⟨0, _⟩ => show 128 + 1 * k.val = 128 + k.val; omega
  | ⟨1, _⟩ => rfl

/-- Row `p` of the block's source shares is row `offset + p` of all of them. -/
theorem srcRows_apply (i : grid0.Coords) (s1 : Vec F S1024x1 .f32) (p : Fin 512) (r : Fin 1024)
    (hr : r.val = k0_off1 i (0 : Fin 2) + p.val) (h1 : k0_off1 i (1 : Fin 2) = 0) :
    srcRows i s1 (ix2 p (0 : Fin 1)) = s1 (ix2 r (0 : Fin 1)) := by
  show s1 _ = s1 _
  congr 1
  funext a
  apply Fin.ext
  match a with
  | ⟨0, _⟩ => show k0_off1 i (0 : Fin 2) + 1 * p.val = r.val; omega
  | ⟨1, _⟩ => show k0_off1 i (1 : Fin 2) + 1 * 0 = 0; omega

end Reads

section Value

open Cert.GatSpec Cert.KernelIdeal.Payload

/-- The block of the hidden features and shares of `x`, `W`, `a` with rows `512·t … 512·t + 511` of the adjacency, at `(p, k)`, is
    the specification at `(512·t + p, k)`: the stored sums are the specification's `hid`, `srcTerm`, `dstTerm`, so the row's
    weights, their total and their products with the hidden features are the specification's. -/
theorem blockOf_apply (i : grid0.Coords) (tt : ℕ) (htt : tt < 2) (hoff0 : k0_off1 i (0 : Fin 2) = 512 * tt)
    (hoff1 : k0_off1 i (1 : Fin 2) = 0)
    (X : Vec Ideal S1024x128 .f32) (Wm : Vec Ideal S128x128 .f32) (A : Vec Ideal S256x1 .f32) (adjb : Vec Ideal S512x1024 .i32)
    (adj : (⟨2, ![1024, 1024]⟩ : Shape).Idx → BitVec 32)
    (hadj : ∀ (p : Fin 512) (j : Fin 1024), adjb (ix2 p j) = adj (ix2 (⟨512 * tt + p.val, by omega⟩ : Fin 1024) j))
    (p : Fin 512) (k : Fin 128) :
    blockOf (F := Ideal) i (k0_pay3 X Wm) (k0_pay4 X Wm (aTop A)) (k0_pay5 X Wm (aBot A)) adjb (ix2 p k)
      = Cert.GatSpec.out X adj Wm A (ix2 (⟨512 * tt + p.val, by omega⟩ : Fin 1024) k) := by
  have hhid : ∀ (j : Fin 1024) (k : Fin 128), k0_pay3 (F := Ideal) X Wm (ix2 j k) = hid X Wm j k :=
    fun j k => pay3_apply X Wm j k
  have hsrc : srcRows (F := Ideal) i (k0_pay4 (F := Ideal) X Wm (aTop A)) (ix2 p (0 : Fin 1))
      = srcTerm X Wm A (⟨512 * tt + p.val, by omega⟩ : Fin 1024) := by
    refine (srcRows_apply i _ p (⟨512 * tt + p.val, by omega⟩ : Fin 1024) (by rw [hoff0]) hoff1).trans ?_
    refine (pay4_apply X Wm (aTop A) _).trans ?_
    unfold srcTerm hid
    exact Finset.sum_congr rfl fun k _ => by rw [aTop_apply]
  have hdst : ∀ j : Fin 1024, k0_pay5 (F := Ideal) X Wm (aBot A) (ix2 (0 : Fin 1) j) = dstTerm X Wm A j := by
    intro j
    refine (pay5_apply X Wm (aBot A) j).trans ?_
    unfold dstTerm hid
    exact Finset.sum_congr rfl fun k _ => by rw [aBot_apply]
  have hw : ∀ j : Fin 1024, blockWgt (srcRows (F := Ideal) i (k0_pay4 (F := Ideal) X Wm (aTop A))) (k0_pay5 (F := Ideal) X Wm (aBot A)) adjb p j
      = wgt X adj Wm A (⟨512 * tt + p.val, by omega⟩ : Fin 1024) j := by
    intro j
    unfold blockWgt wgt
    rw [hsrc, hdst, hadj]
  unfold blockOf
  refine (pay1_apply _ _ _ _ p k).trans ?_
  show elu (Ideal.div _ _) = elu (Ideal.div (agg X adj Wm A _ k) (rowsum X adj Wm A _ + ceps))
  unfold agg rowsum
  simp only [hw, hhid]

end Value

/-! ## From the two blocks to the array, and the run -/

section Array

variable (m : (ℓ : Loc nD τ sig) → Buf (Elt Ideal) ℓ)

/-- The specification of the argument arrays. -/
abbrev spec (c : Dev nD) : Vec Ideal S1024x128 .f32 := Cert.GatSpec.out (xarr m c) (adjarr m c) (warr m c) (aarr m c)

/-- What point `t` writes back is block `t` of the specification: row `p` of the block is row `512·t + p` of the array. -/
theorem flushed_eq (c : Dev nD) (t : Fin cfg0.N) :
    (dats m 0 c).flushed 4 t = ((cfg0.win 4).blk t).view.read (Elt Ideal) (spec m c) := by
  obtain ⟨-, -, -, -, -, -, -, -, e0, e1, o0, o1⟩ := idx_facts t
  have hN : t.val < 2 := lt_of_lt_of_eq t.isLt N_0
  rw [flushed_blk]
  funext j
  rw [View.read_apply]
  obtain ⟨p, k, rfl⟩ : ∃ (p : Fin 512) (k : Fin 128), j = ix2 p k := ⟨j 0, j 1, eq_ix2 j⟩
  show blockOf (grid0.coords t) (hid0 m c) (src0 m c) (dst0 m c) (adjblk m c t) (ix2 p k) = spec m c _
  refine (blockOf_apply (grid0.coords t) t.val hN o0 o1 (xarr m c) (warr m c) (aarr m c) (adjblk m c t) (adjarr m c)
    (fun p j => adjblk_apply m c t p j _ rfl) p k).trans ?_
  show Cert.GatSpec.out (xarr m c) (adjarr m c) (warr m c) (aarr m c) _ = Cert.GatSpec.out (xarr m c) (adjarr m c) (warr m c) (aarr m c) _
  congr 1
  funext a
  apply Fin.ext
  match a with
  | ⟨0, _⟩ => show 512 * t.val + p.val = win0_4.index t (0 : Fin 2) * 512 + 1 * p.val; rw [e0]; omega
  | ⟨1, _⟩ => show k.val = win0_4.index t (1 : Fin 2) * 128 + 1 * k.val; rw [e1]; omega

/-- An index of the array is in point `t`'s block iff each coordinate is in the block's range on its axis. -/
theorem mem_blk (t : Fin cfg0.N) (i : S1024x128.Idx) :
    i ∈ ((cfg0.win 4).blk t).view.set ↔ ∀ a : Fin 2, win0_4.index t a * S512x128.size a ≤ (i a).val
      ∧ (i a).val < win0_4.index t a * S512x128.size a + S512x128.size a := by
  show i ∈ ((View.whole main_v0).slice (win0_4.rect t)).set ↔ _
  rw [View.set_slice_whole, Rect.mem_set_unit]
  exact Iff.rfl

/-- Row `r` of the array is in the block of point `r / 512`, so the two blocks cover it and the array ends at the specification. -/
theorem final (c : Dev nD) : (dats m 0 c).arrAt 4 cfg0.N = spec m c :=
  (dats m 0 c).arrAt_eq_of_cover 4 (spec m c) (fun t _ => flushed_eq m c t) fun i => by
    have hi0 : (i 0 : Nat) < 1024 := (i 0).isLt
    have hi1 : (i 1 : Nat) < 128 := (i 1).isLt
    have hlt : (i 0 : Nat) / 512 < cfg0.N := by rw [show cfg0.N = 2 from N_0]; omega
    obtain ⟨-, -, -, -, -, -, -, -, e0, e1, -⟩ := idx_facts ⟨(i 0 : Nat) / 512, hlt⟩
    refine ⟨⟨(i 0 : Nat) / 512, hlt⟩, flush0_4 _, ?_⟩
    rw [mem_blk]
    intro a
    match a with
    | ⟨0, _⟩ =>
      show win0_4.index ⟨(i 0 : Nat) / 512, hlt⟩ (0 : Fin 2) * 512 ≤ (i 0 : Nat)
        ∧ (i 0 : Nat) < win0_4.index ⟨(i 0 : Nat) / 512, hlt⟩ (0 : Fin 2) * 512 + 512
      rw [e0]; dsimp only; omega
    | ⟨1, _⟩ =>
      show win0_4.index ⟨(i 0 : Nat) / 512, hlt⟩ (1 : Fin 2) * 128 ≤ (i 1 : Nat)
        ∧ (i 1 : Nat) < win0_4.index ⟨(i 0 : Nat) / 512, hlt⟩ (1 : Fin 2) * 128 + 128
      rw [e1]; omega

end Array

/-- Every weakly fair execution of the idealized kernel terminates with the result array at the specification of the argument
    arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0)
          = Cert.GatSpec.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final m c), (h c).2⟩) (Value.run_blocks m ρ)

end Cert.KernelIdeal.KValue

end
-- ==== Proof.RefRun.lean ====
/-
  The run of the reference program `ReferenceIdeal` (dense masked graph attention), read back.

  The reference's @main is a straight line of tensor operations: no kernel, no loop. The helpers it calls
  (`cumsum`, `clip`, `floor_divide`, `remainder`, `_where…`, `leaky_relu`, `elu`) are defined over the buffers
  one call of them names, and a call means the callee's body on those buffers; so with each body put in its
  call's place @main is ONE list of 222 operations (`ops`; `main_eq`). A signature that scopes no buffer and no
  semaphore (`scopedRefs_eq`, `scopedSems_eq`) whose operations touch TensorCore buffers only (`ops_sub`) runs,
  from any memory with zero counters, to the state in which every buffer holds the fold of the operations'
  results over its launch contents (`run_main`).

  What the list computes, in order:
    * the edge mask `adj ≠ 0`, flattened; its inclusive running count (a windowed sum whose window is the whole
      line, padded on the left), and from it, by a histogram of the counts and a second running sum, for each
      output slot `k` the flat position of the `k`-th set entry — the positions of the nonzeros, in order;
    * each position split into row and column (`⌊p / 1024⌋ mod 1024` and `⌊p / 1⌋ mod 1024`, floor division and
      floor remainder spelt with truncating division, signs and selects), slots past the number of set
      entries filled with 1024; the two index rows stacked;
    * `h = x · W`; the rows of `h` gathered at the sources and at the destinations, joined along the feature axis,
      contracted with the attention vector: one score per slot; `leaky_relu` at slope 0.2, negated, exponentiated;
    * the weights summed per source node (a scatter-add into zeros), the weighted destination rows summed per
      source node likewise; their quotient, the denominator moved off zero by `1e-9`; `elu` of the quotient.
-/
import proofs.«130080_g13718125543874_cont_sun_m_270_4_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem
  Idealize.ShloMosaic.StableHlo

variable {F : FTy → Type} [FloatOps F]

/-- @main's 222 operations in order, each call's body in the call's place over that call's buffers. A called
    function's operation is spelt with the typed builders (`TRef.…`): its operands are the call's arguments (a
    buffer of @main at the argument's type, `.of`) and the fields of the call's record. -/
abbrev ops : List (HloOp τ sig (Elt F)) :=
  [ -- the mask: `adj ≠ 0`
    nullary main_c (constantI S_ 32 0#32),
    unary main_c main_v0 (broadcastInDim S1024x1024 ![] bcast_S_S1024x1024),
    binary main_arg1 main_v0 main_v1 (cmpi .ne),
    -- `cumsum`: the mask flattened and widened, then its running sum (window the whole line, left padding)
    TRef.reshape (.of main_v1 : TRef sig ⟨S1024x1024, .i1⟩) main_call0.v0 rfl shapeCasts_S1024x1024_S1048576,
    TRef.unary main_call0.v0 main_call0.v1 (extui 32 · natLt_1_32),
    TRef.nullary main_call0.call0.c (constantI S_ 32 0#32),
    TRef.unary main_call0.call0.c main_call0.call0.v0 (broadcastInDim S_ ![] bcast_S_S_),
    TRef.binary main_call0.v1 main_call0.call0.v0 main_call0.call0.v1 (fun x v => Host.reduceWindow IntOp.addi ![1048576] ![1] ![1048575] ![0] x v reduceWindows_S1048576_S1048576_w1048576s1p1048575_0 h_S_),
    -- a line of zeros (the histogram's start)
    nullary main_c_0 (constantI S_ 32 0#32),
    unary main_c_0 main_v3 (broadcastInDim S1048576 ![] bcast_S_S1048576),
    -- `clip`: the running count, at least 0
    nullary main_c_1 (constantI S_ 32 0#32),
    TRef.unary (.of main_c_1 : TRef sig ⟨S_, .i32⟩) main_call1.v0 id,
    TRef.unary main_call1.v0 main_call1.v1 (broadcastInDim S1048576 ![] bcast_S_S1048576),
    TRef.binary main_call1.v1 (.of main_v2 : TRef sig ⟨S1048576, .i32⟩) main_call1.v2 maxsi,
    -- a negative index counted from the end: `c < 0 ? c + 1048576 : c`, as a column of indices
    nullary main_c_2 (constantI S_ 32 0#32),
    unary main_c_2 main_v5 (broadcastInDim S1048576 ![] bcast_S_S1048576),
    binary main_v4 main_v5 main_v6 (cmpi .slt),
    nullary main_c_3 (constantI S_ 32 1048576#32),
    unary main_c_3 main_v7 (broadcastInDim S1048576 ![] bcast_S_S1048576),
    binary main_v4 main_v7 main_v8 addi,
    ternary main_v6 main_v8 main_v4 main_v9 select,
    unary main_v9 main_v10 (broadcastInDim S1048576x1 ![0] bcast_S1048576_S1048576x1_0),
    -- the histogram of the counts: ones added into the zeros at those indices
    nullary main_c_4 (constantI S_ 32 1#32),
    unary main_c_4 main_v11 (broadcastInDim S1048576 ![] bcast_S_S1048576),
    ternary main_v3 main_v10 main_v11 main_v12 (fun x i u => Host.scatter scatter_S1048576_S1048576x1_S1048576_n_0_0_1 IntOp.addi x i u),
    -- `cumsum_1`: the histogram's running sum — slot `k` holds the flat position of the `k`-th set entry
    TRef.nullary main_call2.call0.c (constantI S_ 32 0#32),
    TRef.unary main_call2.call0.c main_call2.call0.v0 (broadcastInDim S_ ![] bcast_S_S_),
    TRef.binary (.of main_v12 : TRef sig ⟨S1048576, .i32⟩) main_call2.call0.v0 main_call2.call0.v1 (fun x v => Host.reduceWindow IntOp.addi ![1048576] ![1] ![1048575] ![0] x v reduceWindows_S1048576_S1048576_w1048576s1p1048575_0 h_S_),
    -- `floor_divide` by 1024: the truncated quotient, less one where the signs differ and the remainder is not 0
    nullary main_c_5 (constantI S_ 32 1024#32),
    TRef.unary (.of main_c_5 : TRef sig ⟨S_, .i32⟩) main_call3.v0 (broadcastInDim S1048576 ![] bcast_S_S1048576),
    TRef.binary (.of main_v13 : TRef sig ⟨S1048576, .i32⟩) main_call3.v0 main_call3.v1 Host.divsi,
    TRef.unary (.of main_v13 : TRef sig ⟨S1048576, .i32⟩) main_call3.v2 signi,
    TRef.unary (.of main_c_5 : TRef sig ⟨S_, .i32⟩) main_call3.v3 signi,
    TRef.unary main_call3.v3 main_call3.v4 (broadcastInDim S1048576 ![] bcast_S_S1048576),
    TRef.binary main_call3.v2 main_call3.v4 main_call3.v5 (cmpi .ne),
    TRef.unary (.of main_c_5 : TRef sig ⟨S_, .i32⟩) main_call3.v6 (broadcastInDim S1048576 ![] bcast_S_S1048576),
    TRef.binary (.of main_v13 : TRef sig ⟨S1048576, .i32⟩) main_call3.v6 main_call3.v7 Host.remsi,
    TRef.nullary main_call3.c (constantI S_ 32 0#32),
    TRef.unary main_call3.c main_call3.v8 (broadcastInDim S1048576 ![] bcast_S_S1048576),
    TRef.binary main_call3.v7 main_call3.v8 main_call3.v9 (cmpi .ne),
    TRef.binary main_call3.v5 main_call3.v9 main_call3.v10 andi,
    TRef.nullary main_call3.c_0 (constantI S_ 32 1#32),
    TRef.unary main_call3.c_0 main_call3.v11 (broadcastInDim S1048576 ![] bcast_S_S1048576),
    TRef.binary main_call3.v1 main_call3.v11 main_call3.v12 subi,
    TRef.ternary main_call3.v10 main_call3.v12 main_call3.v1 main_call3.call0.v0 select,
    -- `remainder` by 1024 (a zero divisor replaced by 1): the truncated remainder, plus the divisor where it is
    -- not 0 and its sign is not the divisor's — the row
    nullary main_c_6 (constantI S_ 32 1024#32),
    TRef.unary (.of main_c_6 : TRef sig ⟨S_, .i32⟩) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S1048576 ![] bcast_S_S1048576),
    TRef.binary (.of main_v14 : TRef sig ⟨S1048576, .i32⟩) main_call4.v3 main_call4.v4 Host.remsi,
    TRef.nullary main_call4.c_1 (constantI S_ 32 0#32),
    TRef.unary main_call4.c_1 main_call4.v5 (broadcastInDim S1048576 ![] bcast_S_S1048576),
    TRef.binary main_call4.v4 main_call4.v5 main_call4.v6 (cmpi .ne),
    TRef.nullary main_call4.c_2 (constantI S_ 32 0#32),
    TRef.unary main_call4.c_2 main_call4.v7 (broadcastInDim S1048576 ![] bcast_S_S1048576),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S1048576 ![] bcast_S_S1048576),
    TRef.binary main_call4.v8 main_call4.v10 main_call4.v11 (cmpi .ne),
    TRef.binary main_call4.v11 main_call4.v6 main_call4.v12 andi,
    TRef.unary main_call4.call0.v0 main_call4.v13 (broadcastInDim S1048576 ![] bcast_S_S1048576),
    TRef.binary main_call4.v4 main_call4.v13 main_call4.v14 addi,
    TRef.ternary main_call4.v12 main_call4.v14 main_call4.v4 main_call4.v15 select,
    -- `floor_divide` by 1: the same sixteen operations over the second call's buffers
    nullary main_c_7 (constantI S_ 32 1#32),
    TRef.unary (.of main_c_7 : TRef sig ⟨S_, .i32⟩) main_call5.v0 (broadcastInDim S1048576 ![] bcast_S_S1048576),
    TRef.binary (.of main_v13 : TRef sig ⟨S1048576, .i32⟩) main_call5.v0 main_call5.v1 Host.divsi,
    TRef.unary (.of main_v13 : TRef sig ⟨S1048576, .i32⟩) main_call5.v2 signi,
    TRef.unary (.of main_c_7 : TRef sig ⟨S_, .i32⟩) main_call5.v3 signi,
    TRef.unary main_call5.v3 main_call5.v4 (broadcastInDim S1048576 ![] bcast_S_S1048576),
    TRef.binary main_call5.v2 main_call5.v4 main_call5.v5 (cmpi .ne),
    TRef.unary (.of main_c_7 : TRef sig ⟨S_, .i32⟩) main_call5.v6 (broadcastInDim S1048576 ![] bcast_S_S1048576),
    TRef.binary (.of main_v13 : TRef sig ⟨S1048576, .i32⟩) main_call5.v6 main_call5.v7 Host.remsi,
    TRef.nullary main_call5.c (constantI S_ 32 0#32),
    TRef.unary main_call5.c main_call5.v8 (broadcastInDim S1048576 ![] bcast_S_S1048576),
    TRef.binary main_call5.v7 main_call5.v8 main_call5.v9 (cmpi .ne),
    TRef.binary main_call5.v5 main_call5.v9 main_call5.v10 andi,
    TRef.nullary main_call5.c_0 (constantI S_ 32 1#32),
    TRef.unary main_call5.c_0 main_call5.v11 (broadcastInDim S1048576 ![] bcast_S_S1048576),
    TRef.binary main_call5.v1 main_call5.v11 main_call5.v12 subi,
    TRef.ternary main_call5.v10 main_call5.v12 main_call5.v1 main_call5.call0.v0 select,
    -- `remainder` by 1024 of that: the column
    nullary main_c_8 (constantI S_ 32 1024#32),
    TRef.unary (.of main_c_8 : TRef sig ⟨S_, .i32⟩) main_call6.v0 id,
    TRef.nullary main_call6.c (constantI S_ 32 0#32),
    TRef.binary main_call6.v0 main_call6.c main_call6.v1 (cmpi .eq),
    TRef.nullary main_call6.c_0 (constantI S_ 32 1#32),
    TRef.ternary main_call6.v1 main_call6.c_0 main_call6.v0 main_call6.call0.v0 select,
    TRef.unary main_call6.call0.v0 main_call6.v3 (broadcastInDim S1048576 ![] bcast_S_S1048576),
    TRef.binary (.of main_v16 : TRef sig ⟨S1048576, .i32⟩) main_call6.v3 main_call6.v4 Host.remsi,
    TRef.nullary main_call6.c_1 (constantI S_ 32 0#32),
    TRef.unary main_call6.c_1 main_call6.v5 (broadcastInDim S1048576 ![] bcast_S_S1048576),
    TRef.binary main_call6.v4 main_call6.v5 main_call6.v6 (cmpi .ne),
    TRef.nullary main_call6.c_2 (constantI S_ 32 0#32),
    TRef.unary main_call6.c_2 main_call6.v7 (broadcastInDim S1048576 ![] bcast_S_S1048576),
    TRef.binary main_call6.v4 main_call6.v7 main_call6.v8 (cmpi .slt),
    TRef.nullary main_call6.c_3 (constantI S_ 32 0#32),
    TRef.binary main_call6.call0.v0 main_call6.c_3 main_call6.v9 (cmpi .slt),
    TRef.unary main_call6.v9 main_call6.v10 (broadcastInDim S1048576 ![] bcast_S_S1048576),
    TRef.binary main_call6.v8 main_call6.v10 main_call6.v11 (cmpi .ne),
    TRef.binary main_call6.v11 main_call6.v6 main_call6.v12 andi,
    TRef.unary main_call6.call0.v0 main_call6.v13 (broadcastInDim S1048576 ![] bcast_S_S1048576),
    TRef.binary main_call6.v4 main_call6.v13 main_call6.v14 addi,
    TRef.ternary main_call6.v12 main_call6.v14 main_call6.v4 main_call6.v15 select,
    -- slots past the number of set entries: `iota ≥ Σ mask`
    nullary main_v18 (iotaInDim S1048576 32 0),
    unary main_v1 main_v19 (extui 32 · natLt_1_32),
    nullary main_c_9 (constantI S_ 32 0#32),
    binary main_v19 main_c_9 main_v20 (fun x v => Host.reduce IntOp.addi x v reducesTo_S1024x1024_S_d0_1 h_S_),
    unary main_v20 main_v21 (broadcastInDim S1048576 ![] bcast_S_S1048576),
    binary main_v18 main_v21 main_v22 (cmpi .sge),
    -- the row there 1024, elsewhere the row
    nullary main_c_10 (constantI S_ 32 1024#32),
    TRef.unary (.of main_c_10 : TRef sig ⟨S_, .i32⟩) main_call7.v0 id,
    TRef.unary main_call7.v0 main_call7.v1 (broadcastInDim S1048576 ![] bcast_S_S1048576),
    TRef.ternary (.of main_v22 : TRef sig ⟨S1048576, .i1⟩) main_call7.v1 (.of main_v15 : TRef sig ⟨S1048576, .i32⟩) main_call7.v2 select,
    -- the column there 1024, elsewhere the column
    nullary main_c_11 (constantI S_ 32 1024#32),
    TRef.unary (.of main_c_11 : TRef sig ⟨S_, .i32⟩) main_call8.v0 id,
    TRef.unary main_call8.v0 main_call8.v1 (broadcastInDim S1048576 ![] bcast_S_S1048576),
    TRef.ternary (.of main_v22 : TRef sig ⟨S1048576, .i1⟩) main_call8.v1 (.of main_v17 : TRef sig ⟨S1048576, .i32⟩) main_call8.v2 select,
    -- the two index rows stacked: sources over destinations
    unary main_v23 main_v25 (broadcastInDim S1x1048576 ![1] bcast_S1048576_S1x1048576_1),
    unary main_v24 main_v26 (broadcastInDim S1x1048576 ![1] bcast_S1048576_S1x1048576_1),
    binary main_v25 main_v26 main_v27 (fun a b => concatenate S2x1048576 0 [⟨S1x1048576, a⟩, ⟨S1x1048576, b⟩] concatenates_S1x1048576_S1x1048576_S2x1048576_d0),
    -- `h = x · W`
    binary main_arg0 main_arg2 main_v28 (fun l r => Host.dotGeneral dot_S1024x128_S128x128_S1024x128_1_0_0_1_n_n none l r),
    -- the rows of `h` at the sources (a negative index counted from the end)
    unary main_v27 main_v29 (extractStridedSlice S1x1048576 ![0, 0] · slices_S2x1048576_S1x1048576_0_0),
    reshape main_v29 main_v30 rfl shapeCasts_S1x1048576_S1048576,
    nullary main_c_12 (constantI S_ 32 0#32),
    unary main_c_12 main_v31 (broadcastInDim S1048576 ![] bcast_S_S1048576),
    binary main_v30 main_v31 main_v32 (cmpi .slt),
    nullary main_c_13 (constantI S_ 32 1024#32),
    unary main_c_13 main_v33 (broadcastInDim S1048576 ![] bcast_S_S1048576),
    binary main_v30 main_v33 main_v34 addi,
    ternary main_v32 main_v34 main_v30 main_v35 select,
    unary main_v35 main_v36 (broadcastInDim S1048576x1 ![0] bcast_S1048576_S1048576x1_0),
    binary main_v28 main_v36 main_v37 (fun x i => Host.gather gather_S1024x128_S1048576x1_S1048576x128_1_0_n_n_0_1_1128 x i),
    -- the rows of `h` at the destinations
    unary main_v27 main_v38 (extractStridedSlice S1x1048576 ![1, 0] · slices_S2x1048576_S1x1048576_1_0),
    reshape main_v38 main_v39 rfl shapeCasts_S1x1048576_S1048576,
    nullary main_c_14 (constantI S_ 32 0#32),
    unary main_c_14 main_v40 (broadcastInDim S1048576 ![] bcast_S_S1048576),
    binary main_v39 main_v40 main_v41 (cmpi .slt),
    nullary main_c_15 (constantI S_ 32 1024#32),
    unary main_c_15 main_v42 (broadcastInDim S1048576 ![] bcast_S_S1048576),
    binary main_v39 main_v42 main_v43 addi,
    ternary main_v41 main_v43 main_v39 main_v44 select,
    unary main_v44 main_v45 (broadcastInDim S1048576x1 ![0] bcast_S1048576_S1048576x1_0),
    binary main_v28 main_v45 main_v46 (fun x i => Host.gather gather_S1024x128_S1048576x1_S1048576x128_1_0_n_n_0_1_1128 x i),
    -- the two joined along the feature axis and contracted with the attention vector: one score per slot
    binary main_v37 main_v46 main_v47 (fun a b => concatenate S1048576x256 1 [⟨S1048576x128, a⟩, ⟨S1048576x128, b⟩] concatenates_S1048576x128_S1048576x128_S1048576x256_d1),
    unary main_v47 main_v48 (transpose S256x1048576 [1, 0] · transposes_S1048576x256_S256x1048576_1_0),
    unary main_arg3 main_v49 (transpose S1x256 [1, 0] · transposes_S256x1_S1x256_1_0),
    binary main_v49 main_v48 main_v50 (fun l r => Host.dotGeneral dot_S1x256_S256x1048576_S1x1048576_1_0_0_1_n_n none l r),
    reshape main_v50 main_v51 rfl shapeCasts_S1x1048576_S1048576,
    -- `leaky_relu` at slope 0.2: the score where it is at least 0, else 0.2 times it
    nullary main_cst (constant S_ .f32 0x3E4CCCCD#32),
    TRef.nullary main_call9.cst (constant S_ .f32 0x00000000#32),
    TRef.unary main_call9.cst main_call9.v0 (broadcastInDim S1048576 ![] bcast_S_S1048576),
    TRef.binary (.of main_v51 : TRef sig ⟨S1048576, .f32⟩) main_call9.v0 main_call9.v1 (cmpf .oge),
    TRef.unary (.of main_cst : TRef sig ⟨S_, .f32⟩) main_call9.v2 id,
    TRef.unary main_call9.v2 main_call9.v3 (broadcastInDim S1048576 ![] bcast_S_S1048576),
    TRef.binary main_call9.v3 (.of main_v51 : TRef sig ⟨S1048576, .f32⟩) main_call9.v4 mulf,
    TRef.ternary main_call9.v1 (.of main_v51 : TRef sig ⟨S1048576, .f32⟩) main_call9.v4 main_call9.call0.v0 select,
    -- the weight: `exp (-·)`
    unary main_v52 main_v53 Host.negf,
    unary main_v53 main_v54 Host.exp,
    -- the weights summed per source node: added into a column of zeros at the sources
    nullary main_cst_16 (constant S_ .f32 0x00000000#32),
    unary main_cst_16 main_v55 (broadcastInDim S1024x1 ![] bcast_S_S1024x1),
    unary main_v27 main_v56 (extractStridedSlice S1x1048576 ![0, 0] · slices_S2x1048576_S1x1048576_0_0),
    reshape main_v56 main_v57 rfl shapeCasts_S1x1048576_S1048576,
    unary main_v54 main_v58 (broadcastInDim S1048576x1 ![0] bcast_S1048576_S1048576x1_0),
    nullary main_c_17 (constantI S_ 32 0#32),
    unary main_c_17 main_v59 (broadcastInDim S1048576 ![] bcast_S_S1048576),
    binary main_v57 main_v59 main_v60 (cmpi .slt),
    nullary main_c_18 (constantI S_ 32 1024#32),
    unary main_c_18 main_v61 (broadcastInDim S1048576 ![] bcast_S_S1048576),
    binary main_v57 main_v61 main_v62 addi,
    ternary main_v60 main_v62 main_v57 main_v63 select,
    unary main_v63 main_v64 (broadcastInDim S1048576x1 ![0] bcast_S1048576_S1048576x1_0),
    ternary main_v55 main_v64 main_v58 main_v65 (fun x i u => Host.scatterAdd scatter_S1024x1_S1048576x1_S1048576x1_1_0_0_1 x i u),
    -- the weighted destination rows summed per source node: added into a table of zeros at the sources
    nullary main_cst_19 (constant S_ .f32 0x00000000#32),
    unary main_cst_19 main_v66 (broadcastInDim S1024x128 ![] bcast_S_S1024x128),
    unary main_v27 main_v67 (extractStridedSlice S1x1048576 ![0, 0] · slices_S2x1048576_S1x1048576_0_0),
    reshape main_v67 main_v68 rfl shapeCasts_S1x1048576_S1048576,
    unary main_v54 main_v69 (broadcastInDim S1048576x1 ![0] bcast_S1048576_S1048576x1_0),
    unary main_v27 main_v70 (extractStridedSlice S1x1048576 ![1, 0] · slices_S2x1048576_S1x1048576_1_0),
    reshape main_v70 main_v71 rfl shapeCasts_S1x1048576_S1048576,
    nullary main_c_20 (constantI S_ 32 0#32),
    unary main_c_20 main_v72 (broadcastInDim S1048576 ![] bcast_S_S1048576),
    binary main_v71 main_v72 main_v73 (cmpi .slt),
    nullary main_c_21 (constantI S_ 32 1024#32),
    unary main_c_21 main_v74 (broadcastInDim S1048576 ![] bcast_S_S1048576),
    binary main_v71 main_v74 main_v75 addi,
    ternary main_v73 main_v75 main_v71 main_v76 select,
    unary main_v76 main_v77 (broadcastInDim S1048576x1 ![0] bcast_S1048576_S1048576x1_0),
    binary main_v28 main_v77 main_v78 (fun x i => Host.gather gather_S1024x128_S1048576x1_S1048576x128_1_0_n_n_0_1_1128 x i),
    unary main_v69 main_v79 (broadcastInDim S1048576x128 ![0, 1] bcast_S1048576x1_S1048576x128_0_1),
    binary main_v79 main_v78 main_v80 mulf,
    nullary main_c_22 (constantI S_ 32 0#32),
    unary main_c_22 main_v81 (broadcastInDim S1048576 ![] bcast_S_S1048576),
    binary main_v68 main_v81 main_v82 (cmpi .slt),
    nullary main_c_23 (constantI S_ 32 1024#32),
    unary main_c_23 main_v83 (broadcastInDim S1048576 ![] bcast_S_S1048576),
    binary main_v68 main_v83 main_v84 addi,
    ternary main_v82 main_v84 main_v68 main_v85 select,
    unary main_v85 main_v86 (broadcastInDim S1048576x1 ![0] bcast_S1048576_S1048576x1_0),
    ternary main_v66 main_v86 main_v80 main_v87 (fun x i u => Host.scatterAdd scatter_S1024x128_S1048576x1_S1048576x128_1_0_0_1 x i u),
    -- the quotient, the denominator moved off zero by `1e-9`
    nullary main_cst_24 (constant S_ .f32 0x3089705F#32),
    unary main_cst_24 main_v88 (broadcastInDim S1024x1 ![] bcast_S_S1024x1),
    binary main_v65 main_v88 main_v89 addf,
    unary main_v89 main_v90 (broadcastInDim S1024x128 ![0, 1] bcast_S1024x1_S1024x128_0_1),
    binary main_v87 main_v90 main_v91 Host.divf,
    -- `elu`: the quotient where it is above 0, else `1 · expm1` of it (0 put where it is above 0 first)
    TRef.nullary main_call10.cst (constant S_ .f32 0x00000000#32),
    TRef.unary main_call10.cst main_call10.v0 (broadcastInDim S1024x128 ![] bcast_S_S1024x128),
    TRef.binary (.of main_v91 : TRef sig ⟨S1024x128, .f32⟩) main_call10.v0 main_call10.v1 (cmpf .ogt),
    TRef.nullary main_call10.cst_0 (constant S_ .f32 0x00000000#32),
    TRef.unary main_call10.cst_0 main_call10.v2 (broadcastInDim S1024x128 ![] bcast_S_S1024x128),
    TRef.binary (.of main_v91 : TRef sig ⟨S1024x128, .f32⟩) main_call10.v2 main_call10.v3 (cmpf .ogt),
    TRef.nullary main_call10.cst_1 (constant S_ .f32 0x00000000#32),
    TRef.unary main_call10.cst_1 main_call10.call0.v0 id,
    TRef.unary main_call10.call0.v0 main_call10.call0.v1 (broadcastInDim S1024x128 ![] bcast_S_S1024x128),
    TRef.ternary main_call10.v3 main_call10.call0.v1 (.of main_v91 : TRef sig ⟨S1024x128, .f32⟩) main_call10.call0.v2 select,
    TRef.unary main_call10.call0.v2 main_call10.v5 Host.expm1,
    TRef.nullary main_call10.cst_2 (constant S_ .f32 0x3F800000#32),
    TRef.unary main_call10.cst_2 main_call10.v6 (broadcastInDim S1024x128 ![] bcast_S_S1024x128),
    TRef.binary main_call10.v6 main_call10.v5 main_call10.v7 mulf,
    TRef.ternary main_call10.v1 (.of main_v91 : TRef sig ⟨S1024x128, .f32⟩) main_call10.v7 main_call10.call1.v0 select ]

-- 222 binds re-associated: the rewrite under the chain recurses once per statement
set_option maxRecDepth 16384 in
set_option maxHeartbeats 4000000 in
/-- @main is that straight line: its three windows and the functions' definitions unfolded at their calls and
    the records at their fields, both sides are one chain of ¦hlo¦ steps once sequencing is reassociated
    (¦bind_assoc¦) and each callee's closing ¦pure¦ absorbed (¦pure_bind¦). -/
theorem main_eq (c : Dev nD) : main (F := F) c = seq ops := by
  simp only [main, main_part0, main_part1, main_part2, fn_cumsum_0.body, fn_cumsum.body, fn_clip.body,
    fn_cumsum_1.body, fn_where.body, fn_floor_divide.body, fn_where_2.body, fn_remainder.body, fn_where_3.body,
    fn_where_4.body, fn_leaky_relu.body, fn_where_5.body, fn_where_6.body, fn_elu.body, seq, bind_assoc, pure_bind]
  rfl

/-- No TensorCore buffer of the signature is scoped: all 226 are tensor values in HBM. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

set_option maxRecDepth 16384 in
/-- Every operation of the list touches TensorCore references only: each builder's own fact, in the list's order. -/
theorem ops_sub : (ops : List (HloOp τ sig (Elt F))).Forall fun op => op.bufs ⊆ tcRefs τ sig :=
  ⟨-- the mask; `cumsum`; the zeros; `clip`
    nullary_bufs_sub .., unary_bufs_sub .., binary_bufs_sub ..,
    reshape_bufs_sub .., unary_bufs_sub .., nullary_bufs_sub .., unary_bufs_sub .., binary_bufs_sub ..,
    nullary_bufs_sub .., unary_bufs_sub ..,
    nullary_bufs_sub .., unary_bufs_sub .., unary_bufs_sub .., binary_bufs_sub ..,
    -- the index from the end; the histogram; `cumsum_1`
    nullary_bufs_sub .., unary_bufs_sub .., binary_bufs_sub .., nullary_bufs_sub .., unary_bufs_sub .., binary_bufs_sub ..,
    ternary_bufs_sub .., unary_bufs_sub ..,
    nullary_bufs_sub .., unary_bufs_sub .., ternary_bufs_sub ..,
    nullary_bufs_sub .., unary_bufs_sub .., binary_bufs_sub ..,
    -- `floor_divide` by 1024
    nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    -- `remainder` by 1024
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub ..,
    -- `floor_divide` by 1
    nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    -- `remainder` by 1024
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub ..,
    -- the slots past the count; the two fills; the stack; `h`
    nullary_bufs_sub .., unary_bufs_sub .., nullary_bufs_sub .., binary_bufs_sub .., unary_bufs_sub .., binary_bufs_sub ..,
    nullary_bufs_sub .., unary_bufs_sub .., unary_bufs_sub .., ternary_bufs_sub ..,
    nullary_bufs_sub .., unary_bufs_sub .., unary_bufs_sub .., ternary_bufs_sub ..,
    unary_bufs_sub .., unary_bufs_sub .., binary_bufs_sub ..,
    binary_bufs_sub ..,
    -- the rows at the sources; at the destinations
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub ..,
    -- the score; `leaky_relu`; the weight
    binary_bufs_sub .., unary_bufs_sub .., unary_bufs_sub .., binary_bufs_sub .., reshape_bufs_sub ..,
    nullary_bufs_sub .., nullary_bufs_sub .., unary_bufs_sub .., binary_bufs_sub .., unary_bufs_sub .., unary_bufs_sub ..,
    binary_bufs_sub .., ternary_bufs_sub ..,
    unary_bufs_sub .., unary_bufs_sub ..,
    -- the weights summed per source
    nullary_bufs_sub .., unary_bufs_sub .., unary_bufs_sub .., reshape_bufs_sub .., unary_bufs_sub .., nullary_bufs_sub ..,
    unary_bufs_sub .., binary_bufs_sub .., nullary_bufs_sub .., unary_bufs_sub .., binary_bufs_sub .., ternary_bufs_sub ..,
    unary_bufs_sub .., ternary_bufs_sub ..,
    -- the weighted rows summed per source
    nullary_bufs_sub .., unary_bufs_sub .., unary_bufs_sub .., reshape_bufs_sub .., unary_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., ternary_bufs_sub ..,
    -- the quotient; `elu`
    nullary_bufs_sub .., unary_bufs_sub .., binary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RRun

end
-- ==== Proof.IntOps.lean ====
/-
  The reference's integer operations on a flat array of 1048576 words, each read at one index as the sum it is.

  A `reduce_window` of additions whose window is the whole axis, padded on the low side by one less than its length, is the
  running (cumulative) sum. A scatter of additions along the one axis adds, into each position, the updates whose index word names
  that position, and drops the updates whose index lies outside the array. A full reduction by addition is the initial value plus
  the sum of all elements. All sums are of 32-bit words (addition modulo 2^32).
-/
import proofs.«130080_g13718125543874_cont_sun_m_270_4_alg».proof.Proof.Gen.ReferenceIdeal
import Idealize.ShloMosaic.Lib.ValueIdx
import Idealize.ShloMosaic.PureOps.Reduce
import Mathlib.Algebra.BigOperators.Group.Finset.Basic
import Mathlib.Algebra.BigOperators.Fin
import Mathlib.Algebra.BigOperators.Intervals
import Mathlib.Data.BitVec

noncomputable section

namespace Cert.ReferenceIdeal.IntOps

open Cert.ReferenceIdeal Idealize.ShloMosaic Idealize.ShloMosaic.ValueIdx

/-- A left fold that adds one term per list element is the start value plus the sum of the terms. -/
theorem foldl_add_eq_add_sum {M ι : Type} [AddCommMonoid M] (g : ι → M) (l : List ι) (v : M) :
    l.foldl (fun r n => r + g n) v = v + (l.map g).sum := by
  induction l generalizing v with
  | nil => simp
  | cons a l ih => rw [List.foldl_cons, ih, List.map_cons, List.sum_cons, add_assoc]

/-- The same fold over all of `Fin N` in order is the start value plus the sum over `Fin N`. -/
theorem foldl_finRange_add {M : Type} [AddCommMonoid M] (N : Nat) (g : Fin N → M) (v : M) :
    (List.finRange N).foldl (fun r n => r + g n) v = v + ∑ n : Fin N, g n := by
  rw [foldl_add_eq_add_sum, Fin.sum_univ_def]

/-- A rank-1 index set is its coordinate range … -/
def idxEquiv1 (N : Nat) : (⟨1, ![N]⟩ : Shape).Idx ≃ Fin N where
  toFun i := i 0
  invFun := ix1
  left_inv i := (eq_ix1 i).symm
  right_inv _ := rfl

/-- … so a sum over it is the sum over the coordinate. -/
theorem sum_idx1 {M : Type} [AddCommMonoid M] {N : Nat} (f : (⟨1, ![N]⟩ : Shape).Idx → M) :
    ∑ i, f i = ∑ a : Fin N, f (ix1 a) := by
  rw [← Equiv.sum_comp (idxEquiv1 N).symm f]; rfl

/-- The running sum at a general length `N = L + 1`: a window of `N` positions padded `L` low. Window position `n` of result `p`
    reads operand entry `p + n - L` when `L ≤ p + n` and the padding (zero) otherwise, so the sum over the window is the sum of the
    entries `0 … p` (re-index `n = L - p + k`, `k ≤ p`). -/
theorem cumsum_gen (N L : Nat) (hL : L + 1 = N) (x : (⟨1, ![N]⟩ : Shape).Idx → BitVec 32) (init : S_.Idx → BitVec 32)
    (h : (⟨1, ![N]⟩ : Shape).ReduceWindows (![N] : Fin 1 → Nat) ![1] ![L] ![0] ⟨1, ![N]⟩) (hu : 0 < S_.numel)
    (h0 : init ix0 = 0#32) (p : Fin N) :
    Host.reduceWindow (s := ⟨1, ![N]⟩) (t := ⟨1, ![N]⟩) IntOp.addi ![N] ![1] ![L] ![0] x init h hu (ix1 p)
      = ∑ q ∈ Finset.univ.filter (fun q : Fin N => q ≤ p), x (ix1 q) := by
  unfold Host.reduceWindow
  simp only [IntOp.addi_eq_add]
  rw [foldl_finRange_add]
  have hfirst : Shape.Idx.first hu = ix0 := funext fun a => a.elim0
  rw [hfirst, h0, show (0#32 : BitVec 32) = 0 from rfl, zero_add]
  -- the operand read at a natural position, zero outside the array
  let xN : Nat → BitVec 32 := fun m => if hm : m < N then x (ix1 ⟨m, hm⟩) else 0
  let G : (⟨1, ![N]⟩ : Shape).Idx → BitVec 32 := fun i => if L ≤ p.val + (i 0).val then xN (p.val + (i 0).val - L) else 0
  have hp : p.val < N := p.isLt
  trans ∑ n : Fin (Shape.numel ⟨1, ![N]⟩), G ((Shape.rowMajor ⟨1, ![N]⟩).symm n)
  · refine Finset.sum_congr rfl fun n _ => ?_
    let i : (⟨1, ![N]⟩ : Shape).Idx := (Shape.rowMajor ⟨1, ![N]⟩).symm n
    have hi : (i 0).val < N := (i 0).isLt
    split
    · rename_i h1
      have h00 : L ≤ p.val * 1 + (i 0).val ∧ p.val * 1 + (i 0).val - L < N := h1 0
      show _ = if L ≤ p.val + (i 0).val then xN (p.val + (i 0).val - L) else 0
      rw [if_pos (by omega)]
      have hm : p.val + (i 0).val - L < N := by omega
      show _ = if hm : p.val + (i 0).val - L < N then x (ix1 ⟨p.val + (i 0).val - L, hm⟩) else 0
      rw [dif_pos hm]
      refine congrArg x (funext fun a => ?_)
      obtain rfl : a = 0 := Subsingleton.elim _ _
      refine Fin.ext ?_
      show p.val * 1 + (i 0).val - L = p.val + (i 0).val - L
      rw [Nat.mul_one]
    · rename_i h1
      show _ = if L ≤ p.val + (i 0).val then xN (p.val + (i 0).val - L) else 0
      rw [if_neg]
      intro hc
      apply h1
      intro a
      obtain rfl : a = 0 := Subsingleton.elim _ _
      show L ≤ p.val * 1 + (i 0).val ∧ p.val * 1 + (i 0).val - L < N
      omega
  · rw [Equiv.sum_comp (Shape.rowMajor ⟨1, ![N]⟩).symm G, sum_idx1]
    show ∑ a : Fin N, (if L ≤ p.val + a.val then xN (p.val + a.val - L) else 0) = _
    have hR : ∑ q ∈ Finset.univ.filter (fun q : Fin N => q ≤ p), x (ix1 q)
        = ∑ q : Fin N, if q.val ≤ p.val then xN q.val else 0 := by
      rw [Finset.sum_filter]
      refine Finset.sum_congr rfl fun q _ => ?_
      show _ = if q.val ≤ p.val then (if hm : q.val < N then x (ix1 ⟨q.val, hm⟩) else 0) else 0
      rw [dif_pos q.isLt]
      rfl
    rw [hR, Fin.sum_univ_eq_sum_range (fun m => if L ≤ p.val + m then xN (p.val + m - L) else 0) N,
      Fin.sum_univ_eq_sum_range (fun m => if m ≤ p.val then xN m else 0) N,
      ← Finset.sum_filter, ← Finset.sum_filter]
    have e1 : (Finset.range N).filter (fun m => L ≤ p.val + m) = Finset.Ico (L - p.val) N := by
      ext m; simp only [Finset.mem_filter, Finset.mem_range, Finset.mem_Ico]; omega
    have e2 : (Finset.range N).filter (fun m => m ≤ p.val) = Finset.range (p.val + 1) := by
      ext m; simp only [Finset.mem_filter, Finset.mem_range]; omega
    rw [e1, e2, Finset.sum_Ico_eq_sum_range, show N - (L - p.val) = p.val + 1 by omega]
    refine Finset.sum_congr rfl fun k hk => ?_
    rw [Finset.mem_range] at hk
    congr 1
    omega

/-- A scatter of additions, read at one position: the operand there plus the updates that land there. -/
theorem scatter_add_gen {α : Type} [AddCommMonoid α] {s si u : Shape} {w : Nat} (d : ScatterDims s si u)
    (x : s.Idx → α) (idx : IVec si w) (upd : u.Idx → α) (k : s.Idx) :
    Host.scatter d (fun a b => a + b) x idx upd k
      = x k + ∑ j : u.Idx, if d.resultIdx? j idx = some k then upd j else 0 := by
  unfold Host.scatter
  rw [← Equiv.sum_comp u.rowMajor.symm, Fin.sum_univ_def]
  generalize List.finRange u.numel = l
  induction l generalizing x with
  | nil => simp
  | cons a l ih =>
    rw [List.foldl_cons, ih, List.map_cons, List.sum_cons, ← add_assoc]
    congr 1
    cases hr : d.resultIdx? (u.rowMajor.symm a) idx with
    | none => simp
    | some i =>
      by_cases hik : k = i
      · subst hik; simp
      · simp [hik, Ne.symm hik]

section Decode
variable (idx : S1048576x1.Idx → BitVec 32) (e k : Fin 1048576)

/-- The index word an update reads: row `e` of the one-column index array. -/
theorem siIdx_eq : scatter_S1048576_S1048576x1_S1048576_n_0_0_1.siIdx (ix1 e) ⟨0, by decide⟩ = ix2 e (0 : Fin 1) := by
  funext b
  match b with
  | ⟨0, _⟩ => rfl
  | ⟨1, _⟩ => rfl

/-- The start of an update's window on the one operand axis: its index word read signed. -/
theorem start_eq (a : Fin 1) :
    scatter_S1048576_S1048576x1_S1048576_n_0_0_1.start (ix1 e) idx a = (idx (ix2 e (0 : Fin 1))).toInt := by
  obtain rfl : a = 0 := Subsingleton.elim _ _
  show (idx (scatter_S1048576_S1048576x1_S1048576_n_0_0_1.siIdx (ix1 e) ⟨0, _⟩)).toInt = _
  rw [siIdx_eq]

/-- The one operand axis is inserted, so the window coordinate on it is zero. -/
theorem window_eq (a : Fin 1) : scatter_S1048576_S1048576x1_S1048576_n_0_0_1.window (ix1 e) a = 0 := by
  obtain rfl : a = 0 := Subsingleton.elim _ _
  rfl

/-- An update lands at position `k` exactly when its index word, read signed, is `k`. -/
theorem resultIdx_iff :
    scatter_S1048576_S1048576x1_S1048576_n_0_0_1.resultIdx? (ix1 e) idx = some (ix1 k)
      ↔ (idx (ix2 e (0 : Fin 1))).toInt = (k.val : Int) := by
  have hst : ∀ a : Fin 1, scatter_S1048576_S1048576x1_S1048576_n_0_0_1.start (ix1 e) idx a
      + (scatter_S1048576_S1048576x1_S1048576_n_0_0_1.window (ix1 e) a : Int) = (idx (ix2 e (0 : Fin 1))).toInt := fun a => by
    rw [start_eq, window_eq]; simp
  have hk : k.val < 1048576 := k.isLt
  constructor
  · intro hs
    unfold ScatterDims.resultIdx? at hs
    split at hs
    · rename_i hh
      have h1 := congrArg Fin.val (congrFun (Option.some.inj hs) 0)
      have h3 := (hh 0).1
      rw [hst] at h3
      replace h1 : ((scatter_S1048576_S1048576x1_S1048576_n_0_0_1.start (ix1 e) idx 0
        + (scatter_S1048576_S1048576x1_S1048576_n_0_0_1.window (ix1 e) 0 : Int)).toNat : Nat) = k.val := h1
      rw [hst] at h1
      omega
    · exact absurd hs (by simp)
  · intro ht
    unfold ScatterDims.resultIdx?
    have hh : ∀ a : Fin 1, 0 ≤ scatter_S1048576_S1048576x1_S1048576_n_0_0_1.start (ix1 e) idx a
        + (scatter_S1048576_S1048576x1_S1048576_n_0_0_1.window (ix1 e) a : Int)
        ∧ scatter_S1048576_S1048576x1_S1048576_n_0_0_1.start (ix1 e) idx a
        + (scatter_S1048576_S1048576x1_S1048576_n_0_0_1.window (ix1 e) a : Int) < (S1048576.size a : Int) := by
      intro a
      rw [hst a, ht]
      obtain rfl : a = 0 := Subsingleton.elim _ _
      show 0 ≤ (k.val : Int) ∧ (k.val : Int) < ((1048576 : Nat) : Int)
      omega
    rw [dif_pos hh]
    congr 1
    funext a
    obtain rfl : a = 0 := Subsingleton.elim _ _
    apply Fin.ext
    show ((scatter_S1048576_S1048576x1_S1048576_n_0_0_1.start (ix1 e) idx 0
        + (scatter_S1048576_S1048576x1_S1048576_n_0_0_1.window (ix1 e) 0 : Int)).toNat : Nat) = k.val
    rw [hst, ht]
    simp

end Decode

/-- The running sum: entry `p` is the initial word plus the sum of the entries `0 … p`. -/
theorem cumsum_apply (x : S1048576.Idx → BitVec 32) (init : S_.Idx → BitVec 32)
    (h : S1048576.ReduceWindows (![1048576] : Fin 1 → Nat) ![1] ![1048575] ![0] S1048576) (hu : 0 < S_.numel)
    (h0 : init ix0 = 0#32) (p : Fin 1048576) :
    Host.reduceWindow IntOp.addi ![1048576] ![1] ![1048575] ![0] x init h hu (ix1 p)
      = ∑ q ∈ Finset.univ.filter (fun q : Fin 1048576 => q ≤ p), x (ix1 q) := by
  exact cumsum_gen 1048576 1048575 (by norm_num) x init h hu h0 p

/-- The scatter of additions: position `k` gains the updates whose index word, read as a signed integer, is `k`. -/
theorem scatter_addi_apply (x : S1048576.Idx → BitVec 32) (idx : S1048576x1.Idx → BitVec 32) (upd : S1048576.Idx → BitVec 32)
    (k : Fin 1048576) :
    Host.scatter scatter_S1048576_S1048576x1_S1048576_n_0_0_1 IntOp.addi x idx upd (ix1 k)
      = x (ix1 k) + ∑ e ∈ Finset.univ.filter (fun e : Fin 1048576 => (idx (ix2 e (0 : Fin 1))).toInt = (k.val : Int)), upd (ix1 e) := by
  refine (scatter_add_gen scatter_S1048576_S1048576x1_S1048576_n_0_0_1 x idx upd (ix1 k)).trans ?_
  rw [sum_idx1, Finset.sum_filter]
  refine congrArg (fun t => x (ix1 k) + t) ?_
  refine Finset.sum_congr rfl fun e _ => ?_
  exact if_congr (resultIdx_iff idx e k) rfl rfl

/-- The full reduction by addition of a 1024 × 1024 array of words. -/
theorem reduce_addi_total (x : S1024x1024.Idx → BitVec 32) (init : S_.Idx → BitVec 32)
    (h : S1024x1024.ReducesTo [0, 1] S_) (hu : 0 < S_.numel) :
    Host.reduce IntOp.addi x init h hu ix0 = init ix0 + ∑ i : S1024x1024.Idx, x i := by
  rw [Host.reduce_eq_fold]
  have hall : (Finset.univ.filter fun i : S1024x1024.Idx => h.drop i = ix0) = Finset.univ :=
    Finset.filter_true_of_mem fun i _ => funext fun a => a.elim0
  rw [hall, show Shape.Idx.first hu = ix0 from funext fun a => a.elim0]
  generalize (Finset.univ : Finset S1024x1024.Idx) = T
  induction T using Finset.cons_induction with
  | empty => simp
  | cons a S ha ih => rw [Finset.fold_cons, Finset.sum_cons, ih, IntOp.addi_eq_add]; exact add_left_comm _ _ _

/-- A sum of words that are each `0` or `1` is the word of the number of ones, and that number is below `2^32` when the index
    set has at most `2^32 - 1` elements (no wrap-around). -/
theorem sum_bits_eq_card {ι : Type} [DecidableEq ι] (s : Finset ι) (f : ι → BitVec 32) (hf : ∀ i ∈ s, f i = 0#32 ∨ f i = 1#32) :
    ∑ i ∈ s, f i = BitVec.ofNat 32 (s.filter fun i => f i = 1#32).card := by
  have h1 : ∑ i ∈ s, f i = ∑ i ∈ s, if f i = 1#32 then (1 : BitVec 32) else 0 := by
    refine Finset.sum_congr rfl fun i hi => ?_
    rcases hf i hi with h | h
    · rw [h]; rfl
    · rw [h]; rfl
  rw [h1, ← Finset.sum_filter, Finset.sum_const, nsmul_one, BitVec.natCast_eq_ofNat]

end Cert.ReferenceIdeal.IntOps

end
-- ==== Proof.Enumerate.lean ====
/-
  Counting marked positions: the running count, the histogram of the running count, and its prefix sums enumerate the marks.

  For a decidable mark `P` on `Fin M`: `cum p` counts the marked positions up to and including `p`; `bin k` counts the positions
  whose running count is exactly `k`; `pos k`, the sum of `bin` over `0 … k`, counts the positions whose running count is at most `k`.
  The running count is monotone and steps by one exactly at the marks, so the positions with running count at most `k` are an
  initial segment ending just before the `(k+1)`-st mark: for `k` below the number of marks `total`, `pos k` IS the position of that
  mark. Hence `pos` is strictly increasing on `[0, total)`, lands on marks, and reaches every mark.
-/
import Mathlib.Data.Fintype.Card
import Mathlib.Data.Fintype.BigOperators
import Mathlib.Algebra.BigOperators.Group.Finset.Basic
import Mathlib.Order.Interval.Finset.Nat
import Mathlib.Order.Interval.Finset.Fin
import Mathlib.Tactic.Linarith

namespace Cert.Enumerate

variable {M : ℕ} (P : Fin M → Prop) [DecidablePred P]

/-- The number of marked positions among `0 … p`. -/
def cum (p : Fin M) : ℕ := (Finset.univ.filter fun q : Fin M => q ≤ p ∧ P q).card

/-- The number of positions whose running count is `k`. -/
def bin (k : ℕ) : ℕ := (Finset.univ.filter fun p : Fin M => cum P p = k).card

/-- The number of positions whose running count is at most `k`, as the sum of the histogram over `0 … k`. -/
def pos (k : ℕ) : ℕ := ∑ k' ∈ Finset.range (k + 1), bin P k'

/-- The number of marked positions. -/
def total : ℕ := (Finset.univ.filter P).card

/-! ### The count of marks strictly below a natural number -/

/-- The number of marked positions whose index is below `n`. -/
def cnt (n : ℕ) : ℕ := (Finset.univ.filter fun q : Fin M => q.val < n ∧ P q).card

/-- The running count at `p` is the count below `p + 1`. -/
theorem cum_eq_cnt (p : Fin M) : cum P p = cnt P (p.val + 1) := by
  unfold cum cnt
  congr 1
  apply Finset.filter_congr
  intro q _
  rw [Fin.le_def, Nat.lt_succ_iff]

theorem cnt_mono {a b : ℕ} (h : a ≤ b) : cnt P a ≤ cnt P b := by
  unfold cnt
  apply Finset.card_le_card
  intro q hq
  simp only [Finset.mem_filter, Finset.mem_univ, true_and] at hq ⊢
  exact ⟨lt_of_lt_of_le hq.1 h, hq.2⟩

theorem cnt_zero : cnt P 0 = 0 := by
  unfold cnt
  rw [Finset.card_eq_zero, Finset.filter_eq_empty_iff]
  intro q _ h
  exact Nat.not_lt_zero _ h.1

/-- Counting below `M` counts every mark. -/
theorem cnt_top : cnt P M = total P := by
  unfold cnt total
  congr 1
  apply Finset.filter_congr
  intro q _
  exact ⟨fun h => h.2, fun h => ⟨q.isLt, h⟩⟩

theorem cnt_le_total (n : ℕ) : cnt P n ≤ total P := by
  unfold cnt total
  apply Finset.card_le_card
  intro q hq
  simp only [Finset.mem_filter, Finset.mem_univ, true_and] at hq ⊢
  exact hq.2

/-- At an unmarked position the count does not move. -/
theorem cnt_succ_of_not (p : Fin M) (h : ¬ P p) : cnt P (p.val + 1) = cnt P p.val := by
  unfold cnt
  congr 1
  apply Finset.filter_congr
  intro q _
  constructor
  · rintro ⟨h1, h2⟩
    refine ⟨?_, h2⟩
    rcases Nat.lt_succ_iff_lt_or_eq.1 h1 with h3 | h3
    · exact h3
    · exact absurd (Fin.ext h3 ▸ h2) h
  · rintro ⟨h1, h2⟩
    exact ⟨Nat.lt_succ_of_lt h1, h2⟩

/-- At a marked position the count steps by one. -/
theorem cnt_succ_of (p : Fin M) (h : P p) : cnt P (p.val + 1) = cnt P p.val + 1 := by
  unfold cnt
  rw [← Finset.card_insert_of_notMem (a := p)]
  · congr 1
    ext q
    simp only [Finset.mem_filter, Finset.mem_univ, true_and, Finset.mem_insert]
    constructor
    · rintro ⟨h1, h2⟩
      rcases Nat.lt_succ_iff_lt_or_eq.1 h1 with h3 | h3
      · exact Or.inr ⟨h3, h2⟩
      · exact Or.inl (Fin.ext h3)
    · rintro (rfl | ⟨h1, h2⟩)
      · exact ⟨Nat.lt_succ_self _, h⟩
      · exact ⟨Nat.lt_succ_of_lt h1, h2⟩
  · simp

/-- The running count is monotone in the position. -/
theorem cum_mono {p q : Fin M} (h : p ≤ q) : cum P p ≤ cum P q := by
  rw [cum_eq_cnt, cum_eq_cnt]
  exact cnt_mono P (Nat.succ_le_succ (Fin.le_def.1 h))

/-! ### Prefix sums of the histogram count an initial segment -/

/-- The prefix sum of the histogram counts the positions whose running count is at most `k`. -/
theorem pos_eq_card (k : ℕ) :
    pos P k = (Finset.univ.filter fun p : Fin M => cum P p ≤ k).card := by
  unfold pos bin
  rw [Finset.card_eq_sum_card_fiberwise (f := cum P) (t := Finset.range (k + 1))]
  · apply Finset.sum_congr rfl
    intro k' hk'
    congr 1
    rw [Finset.filter_filter]
    apply Finset.filter_congr
    intro p _
    have hk'' := Finset.mem_range.1 hk'
    constructor
    · intro h
      exact ⟨by omega, h⟩
    · exact fun h => h.2
  · intro p hp
    simp only [Finset.coe_filter, Finset.mem_univ, true_and, Set.mem_setOf_eq] at hp
    simp only [Finset.coe_range, Set.mem_Iio]
    omega

/-- A downward closed set of positions is the initial segment of its own size. -/
theorem mem_iff_lt_card_of_lower (s : Finset (Fin M)) (hs : ∀ p ∈ s, ∀ q, q ≤ p → q ∈ s)
    (p : Fin M) : p ∈ s ↔ p.val < s.card := by
  constructor
  · intro hp
    have h1 : Finset.Iic p ⊆ s := fun q hq => hs p hp q (Finset.mem_Iic.1 hq)
    have h2 := Finset.card_le_card h1
    rw [Fin.card_Iic] at h2
    omega
  · intro hlt
    by_contra hp
    have h1 : s ⊆ Finset.Iio p := by
      intro q hq
      rw [Finset.mem_Iio]
      by_contra hqp
      exact hp (hs q hq p (not_lt.1 hqp))
    have h2 := Finset.card_le_card h1
    rw [Fin.card_Iio] at h2
    omega

/-- The running count at `p` is at most `k` exactly when `p` lies before `pos k`. -/
theorem cum_le_iff (p : Fin M) (k : ℕ) : cum P p ≤ k ↔ p.val < pos P k := by
  rw [pos_eq_card]
  have h := mem_iff_lt_card_of_lower (Finset.univ.filter fun p : Fin M => cum P p ≤ k)
    (by
      intro p hp q hq
      simp only [Finset.mem_filter, Finset.mem_univ, true_and] at hp ⊢
      exact le_trans (cum_mono P hq) hp) p
  simpa only [Finset.mem_filter, Finset.mem_univ, true_and] using h

/-! ### The bounds -/

theorem cum_le (p : Fin M) : cum P p ≤ M := by
  unfold cum
  exact (Finset.card_le_univ _).trans_eq (Fintype.card_fin M)

theorem bin_le (k : ℕ) : bin P k ≤ M := by
  unfold bin
  exact (Finset.card_le_univ _).trans_eq (Fintype.card_fin M)

theorem pos_le (k : ℕ) : pos P k ≤ M := by
  rw [pos_eq_card]
  exact (Finset.card_le_univ _).trans_eq (Fintype.card_fin M)

theorem total_le : total P ≤ M := by
  unfold total
  exact (Finset.card_le_univ _).trans_eq (Fintype.card_fin M)

/-- Below the number of marks, `pos k` is a position. -/
theorem pos_lt {k : ℕ} (hk : k < total P) : pos P k < M := by
  by_contra hge
  have hM : 0 < M := lt_of_lt_of_le (Nat.zero_lt_of_lt hk) (total_le P)
  have h1 : cum P ⟨M - 1, by omega⟩ ≤ k := by
    rw [cum_le_iff]
    show M - 1 < pos P k
    omega
  rw [cum_eq_cnt] at h1
  have h2 : M - 1 + 1 = M := by omega
  simp only [h2, cnt_top] at h1
  omega

/-- The count strictly below `pos k` is at most `k`. -/
theorem cnt_pos_le (k : ℕ) : cnt P (pos P k) ≤ k := by
  rcases Nat.eq_zero_or_pos (pos P k) with h0 | hpos
  · rw [h0, cnt_zero]
    exact Nat.zero_le _
  · have hM := pos_le P k
    have h1 : cum P ⟨pos P k - 1, by omega⟩ ≤ k := by
      rw [cum_le_iff]
      show pos P k - 1 < pos P k
      omega
    rw [cum_eq_cnt] at h1
    have h2 : pos P k - 1 + 1 = pos P k := by omega
    simpa only [h2] using h1

/-- … and a marked one. -/
theorem pos_marked {k : ℕ} (hk : k < total P) : P ⟨pos P k, pos_lt P hk⟩ := by
  by_contra hnot
  have h1 : ¬ cum P ⟨pos P k, pos_lt P hk⟩ ≤ k := by
    rw [cum_le_iff]
    exact Nat.lt_irrefl _
  apply h1
  rw [cum_eq_cnt, cnt_succ_of_not P _ hnot]
  exact cnt_pos_le P k

/-- The running count at `pos k` is `k + 1`. -/
theorem cum_pos {k : ℕ} (hk : k < total P) : cum P ⟨pos P k, pos_lt P hk⟩ = k + 1 := by
  have h1 : ¬ cum P ⟨pos P k, pos_lt P hk⟩ ≤ k := by
    rw [cum_le_iff]
    exact Nat.lt_irrefl _
  have h2 : cum P ⟨pos P k, pos_lt P hk⟩ = cnt P (pos P k) + 1 := by
    rw [cum_eq_cnt, cnt_succ_of P _ (pos_marked P hk)]
  have h3 := cnt_pos_le P k
  omega

/-- `pos` is strictly increasing below the number of marks. -/
theorem pos_strictMono {k k' : ℕ} (h : k < k') (hk' : k' < total P) : pos P k < pos P k' := by
  have hk : k < total P := lt_trans h hk'
  have h1 : cum P ⟨pos P k, pos_lt P hk⟩ ≤ k' := by
    rw [cum_pos P hk]
    exact h
  exact (cum_le_iff P _ k').1 h1

/-- Every mark is reached. -/
theorem pos_surj (p : Fin M) (hp : P p) : ∃ k, k < total P ∧ pos P k = p.val := by
  have hc : cum P p = cnt P p.val + 1 := by
    rw [cum_eq_cnt, cnt_succ_of P p hp]
  have hk : cnt P p.val < total P := by
    have := cnt_le_total P (p.val + 1)
    rw [cnt_succ_of P p hp] at this
    exact this
  refine ⟨cnt P p.val, hk, ?_⟩
  apply le_antisymm
  · by_contra hlt
    have h1 : cum P p ≤ cnt P p.val := (cum_le_iff P p _).2 (not_le.1 hlt)
    omega
  · by_contra hlt
    have hlt' : pos P (cnt P p.val) < p.val := not_le.1 hlt
    have h1 : cum P ⟨pos P (cnt P p.val), pos_lt P hk⟩ ≤ cnt P p.val := by
      rw [cum_eq_cnt]
      exact cnt_mono P hlt'
    have h2 := (cum_le_iff P _ _).1 h1
    exact Nat.lt_irrefl _ h2

end Cert.Enumerate
-- ==== Proof.Nonzero.lean ====
/-
  The reference's edge list. From the adjacency array the reference computes two arrays of 1048576 words, the row and the column of
  the `e`-th nonzero entry in row-major order, padded with the word 1024 from the number of nonzero entries on: the mask of nonzero
  entries, flattened; its running sum; the histogram of the running sum (a scatter of ones, the value 1048576 dropped); the running sum
  of the histogram, which at `e` is the flat position of the `e`-th nonzero entry; that position's quotient and remainder by 1024; and
  the padding where `e` is at least the total.
-/
import proofs.«130080_g13718125543874_cont_sun_m_270_4_alg».proof.Proof.Gen.ReferenceIdeal
import proofs.«130080_g13718125543874_cont_sun_m_270_4_alg».proof.Proof.IntOps
import proofs.«130080_g13718125543874_cont_sun_m_270_4_alg».proof.Proof.Enumerate
import Idealize.ShloMosaic.Lib.ValueIdx

noncomputable section

namespace Cert.ReferenceIdeal.Nonzero

open Cert.ReferenceIdeal Idealize.ShloMosaic Idealize.ShloMosaic.ValueIdx
open Facts₀

/-! ### The program's outlined functions, as functions of their arguments -/

/-- The running sum of a flat array (the outlined function `cumsum_0`): the sum of additions over a window that is the whole axis,
    padded on the low side by one less than its length. -/
def fCumsum0 (a0 : S1048576.Idx → BitVec 32) : S1048576.Idx → BitVec 32 :=
  Host.reduceWindow IntOp.addi ![1048576] ![1] ![1048575] ![0] a0
    (broadcastInDim S_ ![] bcast_S_S_ (constantI S_ 32 0#32))
    reduceWindows_S1048576_S1048576_w1048576s1p1048575_0 h_S_

/-- The running count of a mask (the outlined function `cumsum`): flatten, widen each bit to a word, running sum. -/
def fCumsum (a0 : S1024x1024.Idx → BitVec 1) : S1048576.Idx → BitVec 32 :=
  fCumsum0 (extui 32 (shapeCast S1048576 a0 shapeCasts_S1024x1024_S1048576) natLt_1_32)

/-- The lower clip (the outlined function `clip`): the signed maximum with a broadcast bound. -/
def fClip (a0 : S1048576.Idx → BitVec 32) (a1 : S_.Idx → BitVec 32) : S1048576.Idx → BitVec 32 :=
  maxsi (broadcastInDim S1048576 ![] bcast_S_S1048576 (id a1)) a0

/-- The floor division by a broadcast divisor (the outlined function `floor_divide`): the quotient rounded toward zero, less one
    where the signs differ and the remainder is not zero. -/
def fFloorDivide (a0 : S1048576.Idx → BitVec 32) (a1 : S_.Idx → BitVec 32) : S1048576.Idx → BitVec 32 :=
  select
    (andi
      (cmpi .ne (signi a0) (broadcastInDim S1048576 ![] bcast_S_S1048576 (signi a1)))
      (cmpi .ne (Host.remsi a0 (broadcastInDim S1048576 ![] bcast_S_S1048576 a1))
        (broadcastInDim S1048576 ![] bcast_S_S1048576 (constantI S_ 32 0#32))))
    (subi (Host.divsi a0 (broadcastInDim S1048576 ![] bcast_S_S1048576 a1))
      (broadcastInDim S1048576 ![] bcast_S_S1048576 (constantI S_ 32 1#32)))
    (Host.divsi a0 (broadcastInDim S1048576 ![] bcast_S_S1048576 a1))

/-- The divisor the remainder uses (the value `%2` of the outlined function `remainder`): one where the given divisor is zero. -/
def fRemDivisor (a1 : S_.Idx → BitVec 32) : S_.Idx → BitVec 32 :=
  select (cmpi .eq (id a1) (constantI S_ 32 0#32)) (constantI S_ 32 1#32) (id a1)

/-- The remainder of the dividend's sign (the value `%4` of the outlined function `remainder`). -/
def fRemTrunc (a0 : S1048576.Idx → BitVec 32) (a1 : S_.Idx → BitVec 32) : S1048576.Idx → BitVec 32 :=
  Host.remsi a0 (broadcastInDim S1048576 ![] bcast_S_S1048576 (fRemDivisor a1))

/-- The remainder of the divisor's sign (the outlined function `remainder`): the truncated remainder, plus the divisor where it
    is not zero and its sign differs from the divisor's. -/
def fRemainder (a0 : S1048576.Idx → BitVec 32) (a1 : S_.Idx → BitVec 32) : S1048576.Idx → BitVec 32 :=
  select
    (andi
      (cmpi .ne
        (cmpi .slt (fRemTrunc a0 a1) (broadcastInDim S1048576 ![] bcast_S_S1048576 (constantI S_ 32 0#32)))
        (broadcastInDim S1048576 ![] bcast_S_S1048576 (cmpi .slt (fRemDivisor a1) (constantI S_ 32 0#32))))
      (cmpi .ne (fRemTrunc a0 a1) (broadcastInDim S1048576 ![] bcast_S_S1048576 (constantI S_ 32 0#32))))
    (addi (fRemTrunc a0 a1) (broadcastInDim S1048576 ![] bcast_S_S1048576 (fRemDivisor a1)))
    (fRemTrunc a0 a1)

/-- The choice between a broadcast word and an array (the outlined function `_where_3`). -/
def fWhere3 (a0 : S1048576.Idx → BitVec 1) (a1 : S_.Idx → BitVec 32) (a2 : S1048576.Idx → BitVec 32) :
    S1048576.Idx → BitVec 32 :=
  select a0 (broadcastInDim S1048576 ![] bcast_S_S1048576 (id a1)) a2

/-! ### The program's values, as functions of the adjacency array -/

/-- `%1`: the mask of nonzero entries. -/
def vMask (adj : S1024x1024.Idx → BitVec 32) : S1024x1024.Idx → BitVec 1 :=
  cmpi .ne adj (broadcastInDim S1024x1024 ![] bcast_S_S1024x1024 (constantI S_ 32 0#32))

/-- `%2`: the running count of nonzero entries in row-major order. -/
def vCum (adj : S1024x1024.Idx → BitVec 32) : S1048576.Idx → BitVec 32 :=
  fCumsum (vMask adj)

/-- `%4`: the running count clipped below at zero. -/
def vClip (adj : S1024x1024.Idx → BitVec 32) : S1048576.Idx → BitVec 32 :=
  fClip (vCum adj) (constantI S_ 32 0#32)

/-- `%9`: the clipped count, a negative one moved up by the array length. -/
def vNorm (adj : S1024x1024.Idx → BitVec 32) : S1048576.Idx → BitVec 32 :=
  select
    (cmpi .slt (vClip adj) (broadcastInDim S1048576 ![] bcast_S_S1048576 (constantI S_ 32 0#32)))
    (addi (vClip adj) (broadcastInDim S1048576 ![] bcast_S_S1048576 (constantI S_ 32 1048576#32)))
    (vClip adj)

/-- `%12`: the histogram of the running count, a scatter of ones into zeros. -/
def vHist (adj : S1024x1024.Idx → BitVec 32) : S1048576.Idx → BitVec 32 :=
  Host.scatter scatter_S1048576_S1048576x1_S1048576_n_0_0_1 IntOp.addi
    (broadcastInDim S1048576 ![] bcast_S_S1048576 (constantI S_ 32 0#32))
    (broadcastInDim S1048576x1 ![0] bcast_S1048576_S1048576x1_0 (vNorm adj))
    (broadcastInDim S1048576 ![] bcast_S_S1048576 (constantI S_ 32 1#32))

/-- `%13`: the running sum of the histogram. -/
def vPos (adj : S1024x1024.Idx → BitVec 32) : S1048576.Idx → BitVec 32 :=
  fCumsum0 (vHist adj)

/-- `%15`: the position's quotient by 1024, reduced modulo 1024. -/
def vRow (adj : S1024x1024.Idx → BitVec 32) : S1048576.Idx → BitVec 32 :=
  fRemainder (fFloorDivide (vPos adj) (constantI S_ 32 1024#32)) (constantI S_ 32 1024#32)

/-- `%17`: the position's quotient by 1, reduced modulo 1024. -/
def vCol (adj : S1024x1024.Idx → BitVec 32) : S1048576.Idx → BitVec 32 :=
  fRemainder (fFloorDivide (vPos adj) (constantI S_ 32 1#32)) (constantI S_ 32 1024#32)

/-- `%20`: the number of nonzero entries. -/
def vTotal (adj : S1024x1024.Idx → BitVec 32) : S_.Idx → BitVec 32 :=
  Host.reduce IntOp.addi (extui 32 (vMask adj) natLt_1_32) (constantI S_ 32 0#32) reducesTo_S1024x1024_S_d0_1 h_S_

/-- `%22`: where the place is at or past the number of nonzero entries. -/
def vFill (adj : S1024x1024.Idx → BitVec 32) : S1048576.Idx → BitVec 1 :=
  cmpi .sge (iotaInDim S1048576 32 0) (broadcastInDim S1048576 ![] bcast_S_S1048576 (vTotal adj))

/-- The row array (the program's value %23), as the program's own operations applied to the adjacency array. -/
def nzSrc (adj : S1024x1024.Idx → BitVec 32) : S1048576.Idx → BitVec 32 :=
  fWhere3 (vFill adj) (constantI S_ 32 1024#32) (vRow adj)

/-- The column array (the program's value %24). -/
def nzDst (adj : S1024x1024.Idx → BitVec 32) : S1048576.Idx → BitVec 32 :=
  fWhere3 (vFill adj) (constantI S_ 32 1024#32) (vCol adj)

/-! ### Words of small numbers

A natural number below `2^31` and its 32-bit word: the word's unsigned and signed readings are the number, its sign bit is clear,
and the signed comparisons, quotient and remainder of two such words are those of the numbers. -/

theorem toNat_small (n : ℕ) (h : n < 2 ^ 31) : (BitVec.ofNat 32 n).toNat = n := by
  rw [BitVec.toNat_ofNat]
  exact Nat.mod_eq_of_lt (by omega)

theorem msb_small (n : ℕ) (h : n < 2 ^ 31) : (BitVec.ofNat 32 n).msb = false := by
  rw [BitVec.msb_eq_decide, toNat_small n h]
  simp only [decide_eq_false_iff_not, not_le]
  omega

theorem toInt_small (n : ℕ) (h : n < 2 ^ 31) : (BitVec.ofNat 32 n).toInt = (n : Int) := by
  rw [BitVec.toInt_eq_msb_cond, msb_small n h, toNat_small n h]
  simp

theorem slt_small (a b : ℕ) (ha : a < 2 ^ 31) (hb : b < 2 ^ 31) :
    (BitVec.ofNat 32 a).slt (BitVec.ofNat 32 b) = decide (a < b) := by
  rw [BitVec.slt_eq_decide, toInt_small a ha, toInt_small b hb]
  simp

theorem sle_small (a b : ℕ) (ha : a < 2 ^ 31) (hb : b < 2 ^ 31) :
    (BitVec.ofNat 32 a).sle (BitVec.ofNat 32 b) = decide (a ≤ b) := by
  rw [BitVec.sle_eq_decide, toInt_small a ha, toInt_small b hb]
  simp

theorem ofNat_inj_small (a b : ℕ) (ha : a < 2 ^ 31) (hb : b < 2 ^ 31) :
    BitVec.ofNat 32 a = BitVec.ofNat 32 b ↔ a = b := by
  constructor
  · intro h
    have := congrArg BitVec.toNat h
    rwa [toNat_small a ha, toNat_small b hb] at this
  · intro h; rw [h]

theorem sdiv_small (a b : ℕ) (ha : a < 2 ^ 31) (hb : b < 2 ^ 31) :
    (BitVec.ofNat 32 a).sdiv (BitVec.ofNat 32 b) = BitVec.ofNat 32 (a / b) := by
  rw [BitVec.sdiv_eq, msb_small a ha, msb_small b hb]
  apply BitVec.eq_of_toNat_eq
  have : a / b < 2 ^ 31 := lt_of_le_of_lt (Nat.div_le_self _ _) ha
  simp only [BitVec.udiv_eq, BitVec.toNat_udiv, toNat_small a ha, toNat_small b hb, toNat_small _ this]

theorem srem_small (a b : ℕ) (ha : a < 2 ^ 31) (hb : b < 2 ^ 31) :
    (BitVec.ofNat 32 a).srem (BitVec.ofNat 32 b) = BitVec.ofNat 32 (a % b) := by
  rw [BitVec.srem_eq, msb_small a ha, msb_small b hb]
  apply BitVec.eq_of_toNat_eq
  have : a % b < 2 ^ 31 := lt_of_le_of_lt (Nat.mod_le _ _) ha
  simp only [BitVec.umod_eq, BitVec.toNat_umod, toNat_small a ha, toNat_small b hb, toNat_small _ this]

/-- A sum of words of numbers is the word of the sum. -/
theorem sum_ofNat {ι : Type} (s : Finset ι) (g : ι → ℕ) :
    ∑ i ∈ s, BitVec.ofNat 32 (g i) = BitVec.ofNat 32 (∑ i ∈ s, g i) := by
  induction s using Finset.cons_induction with
  | empty => simp
  | cons a s ha ih => rw [Finset.sum_cons, Finset.sum_cons, ih, BitVec.ofNat_add]

/-- A sum over the positions up to `k` is the sum over the numbers `0 … k`. -/
theorem sum_filter_le_eq_sum_range {n : ℕ} (k : Fin n) (g : ℕ → ℕ) :
    ∑ q ∈ Finset.univ.filter (fun q : Fin n => q ≤ k), g q.val = ∑ i ∈ Finset.range (k.val + 1), g i := by
  refine (Finset.sum_map _ Fin.valEmbedding g).symm.trans ?_
  congr 1
  ext i
  simp only [Finset.mem_map, Finset.mem_filter, Finset.mem_univ, true_and, Fin.valEmbedding_apply, Finset.mem_range]
  constructor
  · rintro ⟨a, ha, rfl⟩
    exact Nat.lt_succ_of_le (Fin.le_def.1 ha)
  · intro hi
    exact ⟨⟨i, by have := k.isLt; omega⟩, Fin.le_def.2 (Nat.lt_succ_iff.1 hi), rfl⟩

/-- The signed comparisons of the words of two small numbers. -/
theorem cmpi_slt_small (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  rw [slt_small a b ha hb]

theorem cmpi_sge_small (a b : ℕ) (ha : a < 2 ^ 31) (hb : b < 2 ^ 31) :
    IntOp.cmpi .sge (BitVec.ofNat 32 a) (BitVec.ofNat 32 b) = BitVec.ofBool (decide (b ≤ a)) := by
  show BitVec.ofBool ((BitVec.ofNat 32 b).sle (BitVec.ofNat 32 a)) = _
  rw [sle_small b a hb ha]

/-- The host's signed quotient and remainder of the words of two small numbers, the divisor not zero. -/
theorem not_corner_small (n d : ℕ) (hd0 : 0 < d) (hd : d < 2 ^ 31) :
    ¬ IntOp.SDivCorner (BitVec.ofNat 32 n) (BitVec.ofNat 32 d) := by
  unfold IntOp.SDivCorner
  rintro (h | ⟨_, h⟩)
  · have := (ofNat_inj_small d 0 hd (by norm_num)).1 h
    omega
  · have hm := msb_small d hd
    rw [h] at hm
    exact absurd hm (by decide)

theorem divsi_small (n d : ℕ) (hn : n < 2 ^ 31) (hd0 : 0 < d) (hd : d < 2 ^ 31) :
    IntOp.divsi .host (BitVec.ofNat 32 n) (BitVec.ofNat 32 d) = BitVec.ofNat 32 (n / d) := by
  unfold IntOp.divsi
  rw [if_neg (not_corner_small n d hd0 hd), sdiv_small n d hn hd]

theorem remsi_small (n d : ℕ) (hn : n < 2 ^ 31) (hd0 : 0 < d) (hd : d < 2 ^ 31) :
    IntOp.remsi .host (BitVec.ofNat 32 n) (BitVec.ofNat 32 d) = BitVec.ofNat 32 (n % d) := by
  unfold IntOp.remsi
  rw [if_neg (not_corner_small n d hd0 hd), srem_small n d hn hd]

/-- The sign word of a small number: zero at zero, one above. -/
theorem sign_small (n : ℕ) (hn : n < 2 ^ 31) [inst : Decidable (BitVec.ofNat 32 n = 0)] :
    (if BitVec.ofNat 32 n = 0 then (0 : BitVec 32) else if (BitVec.ofNat 32 n).msb then -1 else 1)
      = if n = 0 then 0#32 else 1#32 := by
  by_cases h0 : n = 0
  · subst h0
    rw [if_pos (show BitVec.ofNat 32 0 = 0 from rfl), if_pos (rfl : (0 : ℕ) = 0)]
    rfl
  · have hne : ¬ BitVec.ofNat 32 n = 0 := fun h => h0 ((ofNat_inj_small n 0 hn (by norm_num)).1 h)
    rw [if_neg hne, msb_small n hn, if_neg h0]
    simp

/-! ### The program's shape operations read at an index -/

/-- The row of a flat position. -/
def rowOf (p : Fin 1048576) : Fin 1024 := ⟨p.val / 1024, by have := p.isLt; omega⟩
/-- The column of a flat position. -/
def colOf (p : Fin 1048576) : Fin 1024 := ⟨p.val % 1024, by omega⟩

/-- A broadcast scalar reads its one element everywhere. -/
theorem bcast0_apply {t : Shape} {α : Type} (dims : Fin S_.rank → Fin t.rank) (h : S_.BroadcastsInDim t dims)
    (x : S_.Idx → α) (j : t.Idx) : broadcastInDim t dims h x j = x ix0 := by
  unfold broadcastInDim
  exact congrArg x (eq_ix0 _)

/-- A flat array broadcast to a one-column matrix reads, in row `e`, its element `e`. -/
theorem bcast_col_apply {α : Type} (x : S1048576.Idx → α) (e : Fin 1048576) (u : Fin 1) :
    broadcastInDim S1048576x1 ![0] bcast_S1048576_S1048576x1_0 x (ix2 e u) = x (ix1 e) := by
  unfold broadcastInDim
  refine congrArg x (funext fun a => ?_)
  match a with
  | ⟨0, _⟩ =>
    split
    · rename_i h1
      exact absurd h1 (show ¬ (1048576 : ℕ) = 1 by decide)
    · rfl

/-- The matrix flattened in row-major order reads, at position `p`, the entry at `p`'s row and column. -/
theorem flat_apply {α : Type} (m : S1024x1024.Idx → α) (p : Fin 1048576) :
    shapeCast S1048576 m shapeCasts_S1024x1024_S1048576 (ix1 p) = m (ix2 (rowOf p) (colOf p)) := by
  unfold shapeCast
  refine congrArg m (Shape.reshapeEquiv_eq_of_rowMajor _ ?_)
  rw [Shape.rowMajor_val_two, Shape.rowMajor_val_one]
  show p.val / 1024 * 1024 + p.val % 1024 = p.val
  omega

/-- Flat positions and matrix indices correspond by row and column. -/
def flatEquiv : Fin 1048576 ≃ S1024x1024.Idx where
  toFun p := ix2 (rowOf p) (colOf p)
  invFun i := ⟨(i 0).val * 1024 + (i 1).val, by have := idx2_lt0 i; have := idx2_lt1 i; omega⟩
  left_inv p := by
    apply Fin.ext
    show p.val / 1024 * 1024 + p.val % 1024 = p.val
    omega
  right_inv i := by
    have h0 := idx2_lt0 i
    have h1 := idx2_lt1 i
    funext a
    match a with
    | ⟨0, _⟩ =>
      apply Fin.ext
      show ((i 0).val * 1024 + (i 1).val) / 1024 = (i 0).val
      omega
    | ⟨1, _⟩ =>
      apply Fin.ext
      show ((i 0).val * 1024 + (i 1).val) % 1024 = (i 1).val
      omega

/-! ### The marks and the program's values as counts -/

/-- A flat position is marked when the adjacency array's entry there is not zero. -/
def Mark (adj : S1024x1024.Idx → BitVec 32) (p : Fin 1048576) : Prop := adj (ix2 (rowOf p) (colOf p)) ≠ 0#32

instance (adj : S1024x1024.Idx → BitVec 32) : DecidablePred (Mark adj) :=
  fun p => inferInstanceAs (Decidable (adj (ix2 (rowOf p) (colOf p)) ≠ 0#32))

/-- The mask's bit at an index. -/
theorem vMask_apply (adj : S1024x1024.Idx → BitVec 32) (i : S1024x1024.Idx) :
    vMask adj i = if adj i = 0#32 then 0#1 else 1#1 := by
  simp only [vMask, cmpi, bcast0_apply, constantI, IntOp.cmpi]
  by_cases h : adj i = 0#32
  · rw [if_pos h, h]
    rfl
  · rw [if_neg h, bne_iff_ne.2 h]
    rfl

/-- The flattened, widened mask at `p`: the word one at a mark and the word zero elsewhere. -/
theorem bitword_apply (adj : S1024x1024.Idx → BitVec 32) (p : Fin 1048576) :
    extui 32 (shapeCast S1048576 (vMask adj) shapeCasts_S1024x1024_S1048576) natLt_1_32 (ix1 p)
      = if Mark adj p then 1#32 else 0#32 := by
  rw [extui_apply, flat_apply, vMask_apply]
  by_cases h : Mark adj p
  · rw [if_pos h, if_neg (show ¬ adj (ix2 (rowOf p) (colOf p)) = 0#32 from h)]
    rfl
  · rw [if_neg h, if_pos (show adj (ix2 (rowOf p) (colOf p)) = 0#32 from Classical.byContradiction fun h' => h h')]
    rfl

theorem bitword_eq_one_iff (adj : S1024x1024.Idx → BitVec 32) (p : Fin 1048576) :
    extui 32 (shapeCast S1048576 (vMask adj) shapeCasts_S1024x1024_S1048576) natLt_1_32 (ix1 p) = 1#32 ↔ Mark adj p := by
  rw [bitword_apply]
  by_cases h : Mark adj p
  · simp [h]
  · simp [h]

theorem bitword_bit (adj : S1024x1024.Idx → BitVec 32) (p : Fin 1048576) :
    extui 32 (shapeCast S1048576 (vMask adj) shapeCasts_S1024x1024_S1048576) natLt_1_32 (ix1 p) = 0#32 ∨
    extui 32 (shapeCast S1048576 (vMask adj) shapeCasts_S1024x1024_S1048576) natLt_1_32 (ix1 p) = 1#32 := by
  rw [bitword_apply]
  by_cases h : Mark adj p
  · right; rw [if_pos h]
  · left; rw [if_neg h]

/-- `%2` at `p` is the word of the running count of marks. -/
theorem vCum_apply (adj : S1024x1024.Idx → BitVec 32) (p : Fin 1048576) :
    vCum adj (ix1 p) = BitVec.ofNat 32 (Enumerate.cum (Mark adj) p) := by
  unfold vCum fCumsum fCumsum0 Enumerate.cum
  rw [IntOps.cumsum_apply _ _ _ _ rfl p, IntOps.sum_bits_eq_card _ _ (fun q _ => bitword_bit adj q)]
  refine congrArg (BitVec.ofNat 32) (congrArg Finset.card ?_)
  rw [Finset.filter_filter]
  exact Finset.filter_congr fun q _ => by rw [bitword_eq_one_iff]

/-- The running count of marks is far below `2^31`. -/
theorem cum_small (adj : S1024x1024.Idx → BitVec 32) (p : Fin 1048576) : Enumerate.cum (Mark adj) p < 2 ^ 31 :=
  lt_of_le_of_lt (Enumerate.cum_le (Mark adj) p) (by norm_num)

theorem pos_small (adj : S1024x1024.Idx → BitVec 32) (k : ℕ) : Enumerate.pos (Mark adj) k < 2 ^ 31 :=
  lt_of_le_of_lt (Enumerate.pos_le (Mark adj) k) (by norm_num)

theorem total_small (adj : S1024x1024.Idx → BitVec 32) : Enumerate.total (Mark adj) < 2 ^ 31 :=
  lt_of_le_of_lt (Enumerate.total_le (Mark adj)) (by norm_num)

/-- `%4` at `p`: the clip at zero leaves the count as it is. -/
theorem vClip_apply (adj : S1024x1024.Idx → BitVec 32) (p : Fin 1048576) :
    vClip adj (ix1 p) = BitVec.ofNat 32 (Enumerate.cum (Mark adj) p) := by
  simp only [vClip, fClip, maxsi, bcast0_apply, id, constantI, vCum_apply, IntOp.maxsi]
  rw [slt_small _ 0 (cum_small adj p) (by norm_num)]
  simp

/-- `%9` at `p`: the count is not negative, so it is not moved. -/
theorem vNorm_apply (adj : S1024x1024.Idx → BitVec 32) (p : Fin 1048576) :
    vNorm adj (ix1 p) = BitVec.ofNat 32 (Enumerate.cum (Mark adj) p) := by
  simp only [vNorm, select, cmpi, bcast0_apply, constantI, vClip_apply]
  rw [cmpi_slt_small _ 0 (cum_small adj p) (by norm_num)]
  simp only [Nat.not_lt_zero, decide_false, BitVec.ofBool_false]
  exact select_zero _ _

/-- `%12` at `k` is the word of the number of positions whose running count is `k`. -/
theorem vHist_apply (adj : S1024x1024.Idx → BitVec 32) (k : Fin 1048576) :
    vHist adj (ix1 k) = BitVec.ofNat 32 (Enumerate.bin (Mark adj) k.val) := by
  unfold vHist Enumerate.bin
  rw [IntOps.scatter_addi_apply, IntOps.sum_bits_eq_card _ _ (fun e _ => Or.inr (by simp only [bcast0_apply, constantI]))]
  simp only [bcast0_apply, constantI]
  rw [BitVec.zero_add]
  refine congrArg (BitVec.ofNat 32) (congrArg Finset.card ?_)
  rw [Finset.filter_filter]
  refine Finset.filter_congr fun e _ => ?_
  rw [bcast_col_apply, vNorm_apply, toInt_small _ (cum_small adj e)]
  simp only [and_true, Nat.cast_inj]

/-- `%13` at `k` is the word of the number of positions whose running count is at most `k`. -/
theorem vPos_apply (adj : S1024x1024.Idx → BitVec 32) (k : Fin 1048576) :
    vPos adj (ix1 k) = BitVec.ofNat 32 (Enumerate.pos (Mark adj) k.val) := by
  unfold vPos fCumsum0 Enumerate.pos
  rw [IntOps.cumsum_apply _ _ _ _ rfl k]
  simp only [vHist_apply]
  rw [sum_ofNat]
  exact congrArg (BitVec.ofNat 32) (sum_filter_le_eq_sum_range k (Enumerate.bin (Mark adj)))

/-- `%20` is the word of the number of marks. -/
theorem vTotal_apply (adj : S1024x1024.Idx → BitVec 32) :
    vTotal adj ix0 = BitVec.ofNat 32 (Enumerate.total (Mark adj)) := by
  unfold vTotal Enumerate.total
  rw [IntOps.reduce_addi_total, IntOps.sum_bits_eq_card]
  · simp only [constantI]
    rw [BitVec.zero_add]
    refine congrArg (BitVec.ofNat 32) (Finset.card_equiv flatEquiv ?_).symm
    intro p
    simp only [Finset.mem_filter, Finset.mem_univ, true_and]
    show Mark adj p ↔ (vMask adj (ix2 (rowOf p) (colOf p))).setWidth 32 = 1#32
    rw [vMask_apply]
    by_cases h : Mark adj p
    · rw [if_neg (show ¬ adj (ix2 (rowOf p) (colOf p)) = 0#32 from h)]
      exact ⟨fun _ => rfl, fun _ => h⟩
    · rw [if_pos (show adj (ix2 (rowOf p) (colOf p)) = 0#32 from Classical.byContradiction fun h' => h h')]
      exact ⟨fun h' => absurd h' h, fun h' => absurd h' (by decide)⟩
  · intro i _
    rw [extui_apply, vMask_apply]
    by_cases h : adj i = 0#32
    · left; rw [if_pos h]; rfl
    · right; rw [if_neg h]; rfl

/-- The floor division of the word of a small number by the word of a small positive number is the word of the quotient. -/
theorem fFloorDivide_apply (a0 : S1048576.Idx → BitVec 32) (d n : ℕ) (e : Fin 1048576) (hn : n < 2 ^ 31) (hd0 : 0 < d)
    (hd : d < 2 ^ 31) (ha : a0 (ix1 e) = BitVec.ofNat 32 n) :
    fFloorDivide a0 (constantI S_ 32 (BitVec.ofNat 32 d)) (ix1 e) = BitVec.ofNat 32 (n / d) := by
  simp only [fFloorDivide, select, andi, cmpi, signi, subi, Host.divsi, Host.remsi, bcast0_apply, ha]
  rw [show constantI S_ 32 (BitVec.ofNat 32 d) ix0 = BitVec.ofNat 32 d from rfl]
  simp only [constantI]
  rw [divsi_small n d hn hd0 hd, remsi_small n d hn hd0 hd, sign_small n hn, sign_small d hd, if_neg (by omega : ¬ d = 0)]
  have hcond : IntOp.andi (IntOp.cmpi .ne (if n = 0 then 0#32 else 1#32) 1#32)
      (IntOp.cmpi .ne (BitVec.ofNat 32 (n % d)) 0#32) = 0#1 := by
    by_cases h0 : n = 0
    · subst h0
      rw [Nat.zero_mod]
      decide
    · rw [if_neg h0]
      show (IntOp.cmpi .ne 1#32 1#32) &&& _ = 0#1
      rw [show IntOp.cmpi .ne 1#32 1#32 = 0#1 by decide, BitVec.zero_and]
  rw [hcond]
  exact select_zero _ _

/-- The remainder modulo 1024 of the word of a small number is the word of the remainder. -/
theorem fRemainder_apply (a0 : S1048576.Idx → BitVec 32) (m : ℕ) (e : Fin 1048576) (hm : m < 2 ^ 31)
    (ha : a0 (ix1 e) = BitVec.ofNat 32 m) :
    fRemainder a0 (constantI S_ 32 1024#32) (ix1 e) = BitVec.ofNat 32 (m % 1024) := by
  have hdv : ∀ j, fRemDivisor (constantI S_ 32 1024#32) j = BitVec.ofNat 32 1024 := fun j => by
    simp only [fRemDivisor, select, cmpi, constantI, id]
    decide
  have hr : m % 1024 < 2 ^ 31 := lt_of_le_of_lt (Nat.mod_le _ _) hm
  have ht : fRemTrunc a0 (constantI S_ 32 1024#32) (ix1 e) = BitVec.ofNat 32 (m % 1024) := by
    simp only [fRemTrunc, Host.remsi, bcast0_apply, hdv, ha]
    exact remsi_small m 1024 hm (by norm_num) (by norm_num)
  simp only [fRemainder, select, andi, cmpi, addi, bcast0_apply, constantI, hdv, ht]
  rw [cmpi_slt_small _ 0 hr (by norm_num), cmpi_slt_small 1024 0 (by norm_num) (by norm_num),
    show decide (m % 1024 < 0) = false from decide_eq_false (Nat.not_lt_zero _),
    show decide ((1024 : ℕ) < 0) = false from decide_eq_false (Nat.not_lt_zero _),
    show IntOp.cmpi .ne (BitVec.ofBool false) (BitVec.ofBool false) = 0#1 by decide]
  show Scalar.select (0#1 &&& _) _ _ = _
  rw [BitVec.zero_and]
  exact select_zero _ _

/-- `%15` at `e`: the row of the position `pos e`. -/
theorem vRow_apply (adj : S1024x1024.Idx → BitVec 32) (e : Fin 1048576) :
    vRow adj (ix1 e) = BitVec.ofNat 32 (Enumerate.pos (Mark adj) e.val / 1024 % 1024) := by
  unfold vRow
  refine fRemainder_apply _ _ e (lt_of_le_of_lt (Nat.div_le_self _ _) (pos_small adj e.val)) ?_
  exact fFloorDivide_apply _ 1024 _ e (pos_small adj e.val) (by norm_num) (by norm_num) (vPos_apply adj e)

/-- `%17` at `e`: the column of the position `pos e`. -/
theorem vCol_apply (adj : S1024x1024.Idx → BitVec 32) (e : Fin 1048576) :
    vCol adj (ix1 e) = BitVec.ofNat 32 (Enumerate.pos (Mark adj) e.val % 1024) := by
  unfold vCol
  have h := fRemainder_apply (fFloorDivide (vPos adj) (constantI S_ 32 1#32)) (Enumerate.pos (Mark adj) e.val / 1) e
    (lt_of_le_of_lt (Nat.div_le_self _ _) (pos_small adj e.val))
    (fFloorDivide_apply _ 1 _ e (pos_small adj e.val) (by norm_num) (by norm_num) (vPos_apply adj e))
  rw [Nat.div_one] at h
  exact h

/-- `%22` at `e`: whether `e` is at or past the number of marks. -/
theorem vFill_apply (adj : S1024x1024.Idx → BitVec 32) (e : Fin 1048576) :
    vFill adj (ix1 e) = BitVec.ofBool (decide (Enumerate.total (Mark adj) ≤ e.val)) := by
  simp only [vFill, cmpi, bcast0_apply, vTotal_apply]
  exact cmpi_sge_small e.val _ (by have := e.isLt; omega) (total_small adj)

/-- The two arrays list every nonzero entry of the adjacency array exactly once, in their first `cnt` places, and hold 1024 after. -/
theorem nonzero_spec (adj : S1024x1024.Idx → BitVec 32) :
    ∃ (cnt : ℕ) (row col : Fin 1048576 → Fin 1024),
      (∀ e : Fin 1048576, e.val < cnt →
          nzSrc adj (ix1 e) = BitVec.ofNat 32 (row e).val ∧ nzDst adj (ix1 e) = BitVec.ofNat 32 (col e).val
          ∧ adj (ix2 (row e) (col e)) ≠ 0#32) ∧
      (∀ e : Fin 1048576, cnt ≤ e.val → nzSrc adj (ix1 e) = 1024#32 ∧ nzDst adj (ix1 e) = 1024#32) ∧
      (∀ i j : Fin 1024, adj (ix2 i j) ≠ 0#32 → ∃ e : Fin 1048576, e.val < cnt ∧ row e = i ∧ col e = j) ∧
      (∀ e e' : Fin 1048576, e.val < cnt → e'.val < cnt → row e = row e' → col e = col e' → e = e') := by
  have hposle : ∀ k, Enumerate.pos (Mark adj) k ≤ 1048576 := fun k => Enumerate.pos_le (Mark adj) k
  refine ⟨Enumerate.total (Mark adj),
    fun e => ⟨Enumerate.pos (Mark adj) e.val / 1024 % 1024, Nat.mod_lt _ (by norm_num)⟩,
    fun e => ⟨Enumerate.pos (Mark adj) e.val % 1024, Nat.mod_lt _ (by norm_num)⟩, ?_, ?_, ?_, ?_⟩
  · intro e he
    have hfill : vFill adj (ix1 e) = 0#1 := by
      rw [vFill_apply, decide_eq_false (by omega)]
      rfl
    refine ⟨?_, ?_, ?_⟩
    · simp only [nzSrc, fWhere3, select, hfill]
      exact (select_zero _ _).trans (vRow_apply adj e)
    · simp only [nzDst, fWhere3, select, hfill]
      exact (select_zero _ _).trans (vCol_apply adj e)
    · have hlt := Enumerate.pos_lt (Mark adj) he
      have hm : Mark adj ⟨Enumerate.pos (Mark adj) e.val, hlt⟩ := Enumerate.pos_marked (Mark adj) he
      have hr : (⟨Enumerate.pos (Mark adj) e.val / 1024 % 1024, Nat.mod_lt _ (by norm_num)⟩ : Fin 1024)
          = rowOf ⟨Enumerate.pos (Mark adj) e.val, hlt⟩ := by
        apply Fin.ext
        show Enumerate.pos (Mark adj) e.val / 1024 % 1024 = Enumerate.pos (Mark adj) e.val / 1024
        omega
      have hc : (⟨Enumerate.pos (Mark adj) e.val % 1024, Nat.mod_lt _ (by norm_num)⟩ : Fin 1024)
          = colOf ⟨Enumerate.pos (Mark adj) e.val, hlt⟩ := Fin.ext rfl
      beta_reduce
      rw [hr, hc]
      exact hm
  · intro e he
    have hfill : vFill adj (ix1 e) = 1#1 := by
      rw [vFill_apply, decide_eq_true he]
      rfl
    constructor
    · simp only [nzSrc, fWhere3, select, hfill, bcast0_apply, id, constantI]
      exact select_one _ _
    · simp only [nzDst, fWhere3, select, hfill, bcast0_apply, id, constantI]
      exact select_one _ _
  · intro i j hij
    have hi := i.isLt
    have hj := j.isLt
    have hp : i.val * 1024 + j.val < 1048576 := by omega
    have hri : rowOf ⟨i.val * 1024 + j.val, hp⟩ = i := by
      apply Fin.ext
      show (i.val * 1024 + j.val) / 1024 = i.val
      omega
    have hcj : colOf ⟨i.val * 1024 + j.val, hp⟩ = j := by
      apply Fin.ext
      show (i.val * 1024 + j.val) % 1024 = j.val
      omega
    have hP : Mark adj ⟨i.val * 1024 + j.val, hp⟩ := by
      unfold Mark
      rw [hri, hcj]
      exact hij
    obtain ⟨k, hk, hpk⟩ := Enumerate.pos_surj (Mark adj) ⟨i.val * 1024 + j.val, hp⟩ hP
    have hk' : k < 1048576 := lt_of_lt_of_le hk (Enumerate.total_le (Mark adj))
    refine ⟨⟨k, hk'⟩, hk, ?_, ?_⟩
    · apply Fin.ext
      show Enumerate.pos (Mark adj) k / 1024 % 1024 = i.val
      rw [hpk]
      show (i.val * 1024 + j.val) / 1024 % 1024 = i.val
      omega
    · apply Fin.ext
      show Enumerate.pos (Mark adj) k % 1024 = j.val
      rw [hpk]
      show (i.val * 1024 + j.val) % 1024 = j.val
      omega
  · intro e e' he he' hrow hcol
    have h1 : Enumerate.pos (Mark adj) e.val / 1024 % 1024 = Enumerate.pos (Mark adj) e'.val / 1024 % 1024 :=
      congrArg Fin.val hrow
    have h2 : Enumerate.pos (Mark adj) e.val % 1024 = Enumerate.pos (Mark adj) e'.val % 1024 := congrArg Fin.val hcol
    have hle := hposle e.val
    have hle' := hposle e'.val
    have hlt := Enumerate.pos_lt (Mark adj) he
    have hlt' := Enumerate.pos_lt (Mark adj) he'
    have heq : Enumerate.pos (Mark adj) e.val = Enumerate.pos (Mark adj) e'.val := by omega
    apply Fin.ext
    rcases Nat.lt_trichotomy e.val e'.val with h | h | h
    · have := Enumerate.pos_strictMono (Mark adj) h he'
      omega
    · exact h
    · have := Enumerate.pos_strictMono (Mark adj) h he
      omega

end Cert.ReferenceIdeal.Nonzero

end
-- ==== Proof.Decode.lean ====
/-
  The reference's gather and its two accumulating float scatters, each read at one index.

  The gather takes whole rows of a 1024 × 128 table: result row `e` is the table's row named by the `e`-th index word read as a
  signed integer and clamped into `0 … 1023`. Each accumulating scatter adds, into row `i` of its operand, the update rows whose index
  word (signed) is `i`; an update whose index word lies outside `0 … 1023` is dropped.
-/
import proofs.«130080_g13718125543874_cont_sun_m_270_4_alg».proof.Proof.Gen.ReferenceIdeal
import Idealize.ShloMosaic.Lib.ValueIdx
import Idealize.ShloMosaic.PureOps.Ideal

noncomputable section

namespace Cert.ReferenceIdeal.Decode

open Cert.ReferenceIdeal Idealize.ShloMosaic Idealize.ShloMosaic.ValueIdx

local notation "gd" => gather_S1024x128_S1048576x1_S1048576x128_1_0_n_n_0_1_1128

/-- Result index `(e, k)` reads its one start-index component at `(e, 0)` of the index words. -/
theorem gather_siIdx (idx : S1048576x1.Idx → BitVec 32) (e : Fin 1048576) (k : Fin 128)
    (c : Fin (gd).startIndexMap.length) :
    (gd).siIdx (ix2 e k) c = ix2 e (0 : Fin 1) := by
  funext b; refine Fin.ext ?_
  match b with
  | ⟨0, _⟩ => rfl
  | ⟨1, _⟩ =>
    show c.val = 0
    have := c.isLt
    simp only [gather_S1024x128_S1048576x1_S1048576x128_1_0_n_n_0_1_1128, List.length_singleton] at this
    omega

/-- The operand index result index `(e, k)` reads: on the row axis the `e`-th index word, signed, clamped into `0 … 1023`; on the
    column axis `k`. -/
theorem gather_operandIdx (idx : S1048576x1.Idx → BitVec 32) (e : Fin 1048576) (k : Fin 128) :
    (gd).operandIdx (ix2 e k) idx
      = ix2 (⟨min (idx (ix2 e (0 : Fin 1))).toInt.toNat 1023, by omega⟩ : Fin 1024) k := by
  funext a; refine Fin.ext ?_
  match a with
  | ⟨0, _⟩ =>
    show (gd).start (ix2 e k) idx 0 + (gd).batchCoord (ix2 e k) 0 + (gd).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gd).startIndexMap from List.mem_singleton.mpr rfl), gather_siIdx idx]
    rfl
  | ⟨1, _⟩ =>
    show (gd).start (ix2 e k) idx 1 + (gd).batchCoord (ix2 e k) 1 + (gd).offCoord (ix2 e k) 1 = k.val
    rw [GatherDims.batchCoord_eq_zero _ _ _ List.not_mem_nil]
    have hs : (gd).start (ix2 e k) idx 1 = 0 := by
      unfold GatherDims.start
      rw [dif_neg (show (1 : Fin 2) ∉ (gd).startIndexMap by decide)]
    rw [hs]
    simp only [Nat.add_zero, Nat.zero_add]
    unfold GatherDims.offCoord
    rw [dif_pos (show (1 : Fin 2) ∈ (gd).sKept by decide)]
    rfl

/-- A gathered row whose index word is the number `r ≤ 1023` is the table's row `r`. -/
theorem gather_row_of_lt {α : Type} (tbl : S1024x128.Idx → α) (idx : S1048576x1.Idx → BitVec 32) (e : Fin 1048576) (k : Fin 128)
    (r : Fin 1024) (hr : idx (ix2 e (0 : Fin 1)) = BitVec.ofNat 32 r.val) :
    Host.gather gather_S1024x128_S1048576x1_S1048576x128_1_0_n_n_0_1_1128 tbl idx (ix2 e k) = tbl (ix2 r k) := by
  unfold Host.gather
  rw [gather_operandIdx idx e k]
  congr 2
  refine Fin.ext ?_
  show min (idx (ix2 e (0 : Fin 1))).toInt.toNat 1023 = r.val
  have hlt := r.isLt
  have h1 : (idx (ix2 e (0 : Fin 1))).toInt = (r.val : Int) := by
    rw [hr, BitVec.toInt_eq_toNat_of_lt (by rw [BitVec.toNat_ofNat]; omega), BitVec.toNat_ofNat]
    omega
  rw [h1]
  omega

/-- A gathered row whose index word is `1024` (one past the table) is the table's last row: the start index is clamped. -/
theorem gather_row_of_1024 {α : Type} (tbl : S1024x128.Idx → α) (idx : S1048576x1.Idx → BitVec 32) (e : Fin 1048576) (k : Fin 128)
    (hr : idx (ix2 e (0 : Fin 1)) = 1024#32) :
    Host.gather gather_S1024x128_S1048576x1_S1048576x128_1_0_n_n_0_1_1128 tbl idx (ix2 e k) = tbl (ix2 (1023 : Fin 1024) k) := by
  unfold Host.gather
  rw [gather_operandIdx idx e k]
  congr 2
  refine Fin.ext ?_
  show min (idx (ix2 e (0 : Fin 1))).toInt.toNat 1023 = 1023
  rw [hr]
  decide

/-- An update lands at operand index `i` exactly when, on every axis, its start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      show _ = ((Int.toNat _ : Nat) : Int)
      omega
    · intro hi
      funext a
      refine Fin.ext ?_
      have := hi a
      show Int.toNat _ = _
      omega
  · rename_i h
    constructor
    · intro hh
      exact absurd hh (by simp)
    · intro hi
      refine absurd (fun a => ?_) h
      have := hi a
      have := (i a).isLt
      constructor <;> omega

section Rows
variable (N M C : Nat) (wf : ScatterDims.WF ⟨2, ![N, C]⟩ ⟨2, ![M, 1]⟩ ⟨2, ![M, C]⟩ [1] [0] [0] 1)

/-- The dimension numbers of a scatter of `M` rows of width `C` into an `N × C` operand, one index word per row. -/
abbrev rowScatter : ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N M C}

/-- Update index `(e, k')` reads its one start-index component at `(e, 0)` of the index words. -/
theorem rowScatter_siIdx (e : Fin M) (k' : Fin C) (c : Fin (rowScatter N M C wf).scatterDimsToOperandDims.length) :
    (rowScatter N M C wf).siIdx (ix2 e k') c = ix2 e (0 : Fin 1) := by
  funext b; refine Fin.ext ?_
  match b with
  | ⟨0, _⟩ => rfl
  | ⟨1, _⟩ =>
    show c.val = 0
    have := c.isLt
    simp only [List.length_singleton] at this
    omega

/-- On the row axis the window of update `(e, k')` starts at the `e`-th index word, read signed. -/
theorem rowScatter_start0 {w : Nat} (idx : IVec ⟨2, ![M, 1]⟩ w) (e : Fin M) (k' : Fin C) :
    (rowScatter N M C wf).start (ix2 e k') idx 0 = (idx (ix2 e (0 : Fin 1))).toInt := by
  unfold ScatterDims.start
  rw [dif_pos (show (0 : Fin 2) ∈ (rowScatter N M C wf).scatterDimsToOperandDims from List.mem_singleton.mpr rfl),
    rowScatter_siIdx]

/-- On the column axis it starts at `0`. -/
theorem rowScatter_start1 {w : Nat} (idx : IVec ⟨2, ![M, 1]⟩ w) (e : Fin M) (k' : Fin C) :
    (rowScatter N M C wf).start (ix2 e k') idx 1 = 0 := by
  unfold ScatterDims.start
  rw [dif_neg (show (1 : Fin 2) ∉ (rowScatter N M C wf).scatterDimsToOperandDims by simp)]

/-- The row axis is an inserted window axis: the window coordinate there is `0`. -/
theorem rowScatter_window0 (e : Fin M) (k' : Fin C) : (rowScatter N M C wf).window (ix2 e k') 0 = 0 := by
  unfold ScatterDims.window
  rw [dif_neg (show (0 : Fin 2) ∉ (rowScatter N M C wf).sKept by
    simp [ScatterDims.sKept, Shape.kept, List.mem_filter, List.mem_finRange])]

/-- On the column axis the window coordinate is the update's column `k'`. -/
theorem rowScatter_window1 (e : Fin M) (k' : Fin C) : (rowScatter N M C wf).window (ix2 e k') 1 = k'.val := by
  unfold ScatterDims.window
  rw [dif_pos (show (1 : Fin 2) ∈ (rowScatter N M C wf).sKept by
    simp [ScatterDims.sKept, Shape.kept, List.mem_filter, List.mem_finRange])]
  rfl

/-- Update `(e, k')` lands at `(i, k)` exactly when the `e`-th index word, read signed, is `i` and `k' = k`. -/
theorem rowScatter_resultIdx? {w : Nat} (idx : IVec ⟨2, ![M, 1]⟩ w) (e : Fin M) (k' : Fin C) (i : Fin N) (k : Fin C) :
    (rowScatter N M C wf).resultIdx? (ix2 e k') idx = some (ix2 i k)
      ↔ (idx (ix2 e (0 : Fin 1))).toInt = (i.val : Int) ∧ k' = k := by
  rw [resultIdx?_eq_some_iff, Fin.forall_fin_two, rowScatter_start0, rowScatter_start1, rowScatter_window0, rowScatter_window1]
  show _ + ((0 : Nat) : Int) = (i.val : Int) ∧ (0 : Int) + (k'.val : Int) = (k.val : Int) ↔ _
  rw [Fin.ext_iff]
  omega

/-- The accumulating row scatter read at `(i, k)`: the operand's entry plus entry `k` of every update row whose index word, read signed, is `i`. -/
theorem rowScatter_apply {w : Nat} (x : (⟨2, ![N, C]⟩ : Shape).Idx → EReal) (idx : IVec ⟨2, ![M, 1]⟩ w)
    (upd : (⟨2, ![M, C]⟩ : Shape).Idx → EReal) (i : Fin N) (k : Fin C) :
    Ideal.hostScatterAdd (rowScatter N M C wf) x idx upd (ix2 i k)
      = x (ix2 i k)
        + ∑ e ∈ Finset.univ.filter (fun e : Fin M => (idx (ix2 e (0 : Fin 1))).toInt = (i.val : Int)), upd (ix2 e k) := by
  unfold Ideal.hostScatterAdd
  congr 1
  rw [Finset.sum_filter, sum_idx2, Finset.sum_filter]
  refine Finset.sum_congr rfl (fun e _ => ?_)
  simp only [rowScatter_resultIdx?]
  by_cases hA : (idx (ix2 e (0 : Fin 1))).toInt = (i.val : Int)
  · simp only [hA, true_and, if_true]
    rw [Finset.sum_ite_eq' Finset.univ k (fun k' => upd (ix2 e k')), if_pos (Finset.mem_univ k)]
  · simp only [hA, false_and, if_false, Finset.sum_const_zero]

end Rows

/-- The accumulating scatter of one-element rows: entry `i` gains the updates whose index word, read signed, is `i`. -/
theorem scatterAdd1_apply (x : S1024x1.Idx → EReal) (idx : S1048576x1.Idx → BitVec 32) (upd : S1048576x1.Idx → EReal) (i : Fin 1024) :
    Host.scatterAdd (F := Ideal) (φ := .f32) scatter_S1024x1_S1048576x1_S1048576x1_1_0_0_1 x idx upd (ix2 i (0 : Fin 1))
      = x (ix2 i (0 : Fin 1))
        + ∑ e ∈ Finset.univ.filter (fun e : Fin 1048576 => (idx (ix2 e (0 : Fin 1))).toInt = (i.val : Int)), upd (ix2 e (0 : Fin 1)) := by
  exact rowScatter_apply (N := 1024) (M := 1048576) (C := 1) Facts₀.scatter_S1024x1_S1048576x1_S1048576x1_1_0_0_1_wf x idx upd i 0

/-- The accumulating scatter of 128-element rows: entry `(i, k)` gains entry `k` of the update rows whose index word, read signed, is `i`. -/
theorem scatterAdd128_apply (x : S1024x128.Idx → EReal) (idx : S1048576x1.Idx → BitVec 32) (upd : S1048576x128.Idx → EReal)
    (i : Fin 1024) (k : Fin 128) :
    Host.scatterAdd (F := Ideal) (φ := .f32) scatter_S1024x128_S1048576x1_S1048576x128_1_0_0_1 x idx upd (ix2 i k)
      = x (ix2 i k)
        + ∑ e ∈ Finset.univ.filter (fun e : Fin 1048576 => (idx (ix2 e (0 : Fin 1))).toInt = (i.val : Int)), upd (ix2 e k) := by
  exact rowScatter_apply (N := 1024) (M := 1048576) (C := 128) Facts₀.scatter_S1024x128_S1048576x1_S1048576x128_1_0_0_1_wf x idx upd i k

end Cert.ReferenceIdeal.Decode

end
-- ==== Proof.RefEdge.lean ====
/-
  The reference's values per edge. With the hidden features `hid = x · W` and the two index arrays stacked as a 2 × 1048576 array, the
  reference gathers the source and the destination rows of `hid` for every edge, lays them side by side (256 entries per edge),
  contracts them with the 256-vector `a`, applies the leaky ReLU of slope 0.2, negates and exponentiates: the edge's weight. It
  gathers the destination rows once more for the weighted sum. Read at one edge whose two index words are the numbers `r` and `c`, the
  weight is `exp (0 - leaky (srcTerm r + dstTerm c))` and the gathered row is row `c` of `hid`.
-/
import proofs.«130080_g13718125543874_cont_sun_m_270_4_alg».proof.Proof.Gen.ReferenceIdeal
import proofs.«130080_g13718125543874_cont_sun_m_270_4_alg».proof.Proof.Spec
import proofs.«130080_g13718125543874_cont_sun_m_270_4_alg».proof.Proof.Decode
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefEdge

open Cert.ReferenceIdeal Idealize.ShloMosaic Idealize.ShloMosaic.ValueIdx Cert.GatSpec
open Cert.ReferenceIdeal.Facts₀

/-- The hidden features (the program's value %28). -/
def tHid (x : S1024x128.Idx → EReal) (W : S128x128.Idx → EReal) : S1024x128.Idx → EReal :=
  Host.dotGeneral (F := Ideal) (φ₁ := .f32) (φ₂ := .f32) dot_S1024x128_S128x128_S1024x128_1_0_0_1_n_n none x W

/-- The two index arrays stacked (the program's value %27). -/
def tEdges (src dst : S1048576.Idx → BitVec 32) : S2x1048576.Idx → BitVec 32 :=
  concatenate S2x1048576 0
    [⟨S1x1048576, broadcastInDim S1x1048576 ![1] bcast_S1048576_S1x1048576_1 src⟩,
     ⟨S1x1048576, broadcastInDim S1x1048576 ![1] bcast_S1048576_S1x1048576_1 dst⟩]
    concatenates_S1x1048576_S1x1048576_S2x1048576_d0

/-- One row of the stacked index arrays, normalised and laid out as a column: the row as a flat array, each word that is negative
    as a signed integer shifted up by 1024, then one word per row of a 1048576 × 1 array (the program's values %30-%36, and again
    %39-%45, %57-%64, %71-%77, %68-%86). -/
def normCol (row : S1x1048576.Idx → BitVec 32) : S1048576x1.Idx → BitVec 32 :=
  broadcastInDim S1048576x1 ![0] bcast_S1048576_S1048576x1_0
    (select
      (cmpi .slt (shapeCast S1048576 row shapeCasts_S1x1048576_S1048576)
        (broadcastInDim S1048576 ![] bcast_S_S1048576 (constantI S_ 32 0#32)))
      (addi (shapeCast S1048576 row shapeCasts_S1x1048576_S1048576)
        (broadcastInDim S1048576 ![] bcast_S_S1048576 (constantI S_ 32 1024#32)))
      (shapeCast S1048576 row shapeCasts_S1x1048576_S1048576))

/-- The logit of every edge (the program's value %51): the source and the destination rows of the hidden features gathered and laid
    side by side (%29-%47), transposed (%48), contracted with `a` transposed (%49, %50), as a flat array. -/
def tLogit (hid : S1024x128.Idx → EReal) (a : S256x1.Idx → EReal) (edges : S2x1048576.Idx → BitVec 32) : S1048576.Idx → EReal :=
  shapeCast S1048576
    (Host.dotGeneral (F := Ideal) (φ₁ := .f32) (φ₂ := .f32) dot_S1x256_S256x1048576_S1x1048576_1_0_0_1_n_n none
      (transpose S1x256 [1, 0] a transposes_S256x1_S1x256_1_0)
      (transpose S256x1048576 [1, 0]
        (concatenate S1048576x256 1
          [⟨S1048576x128, Host.gather gather_S1024x128_S1048576x1_S1048576x128_1_0_n_n_0_1_1128 hid
              (normCol (extractStridedSlice S1x1048576 ![0, 0] edges slices_S2x1048576_S1x1048576_0_0))⟩,
           ⟨S1048576x128, Host.gather gather_S1024x128_S1048576x1_S1048576x128_1_0_n_n_0_1_1128 hid
              (normCol (extractStridedSlice S1x1048576 ![1, 0] edges slices_S2x1048576_S1x1048576_1_0))⟩]
          concatenates_S1048576x128_S1048576x128_S1048576x256_d1)
        transposes_S1048576x256_S256x1048576_1_0))
    shapeCasts_S1x1048576_S1048576

/-- The edge weights (the program's value %54), from the hidden features, `a` and the stacked index arrays: the leaky ReLU of the
    logit (%52: the comparison with the zero splat, the product with the splat of the slope, the select), negated (%53),
    exponentiated (%54). -/
def tEdge (hid : S1024x128.Idx → EReal) (a : S256x1.Idx → EReal) (edges : S2x1048576.Idx → BitVec 32) : S1048576.Idx → EReal :=
  Host.exp (F := Ideal) (φ := .f32)
    (Host.negf (F := Ideal) (φ := .f32)
      (select
        (cmpf (F := Ideal) (φ := .f32) .oge (tLogit hid a edges)
          (broadcastInDim S1048576 ![] bcast_S_S1048576 (constant (F := Ideal) S_ .f32 0x00000000#32)))
        (tLogit hid a edges)
        (mulf (F := Ideal) (φ := .f32)
          (broadcastInDim S1048576 ![] bcast_S_S1048576 (id (constant (F := Ideal) S_ .f32 0x3E4CCCCD#32)))
          (tLogit hid a edges))))

/-- The index words the two accumulating scatters use (the program's values %64 and %86: row 0 of the stacked arrays, a negative
    word shifted up by 1024, as a column). -/
def tRowIdx (edges : S2x1048576.Idx → BitVec 32) : S1048576x1.Idx → BitVec 32 :=
  normCol (extractStridedSlice S1x1048576 ![0, 0] edges slices_S2x1048576_S1x1048576_0_0)

/-- The destination rows gathered for the weighted sum (the program's value %78). -/
def tGath (hid : S1024x128.Idx → EReal) (edges : S2x1048576.Idx → BitVec 32) : S1048576x128.Idx → EReal :=
  Host.gather gather_S1024x128_S1048576x1_S1048576x128_1_0_n_n_0_1_1128 hid
    (normCol (extractStridedSlice S1x1048576 ![1, 0] edges slices_S2x1048576_S1x1048576_1_0))

variable (x : S1024x128.Idx → EReal) (W : S128x128.Idx → EReal) (a : S256x1.Idx → EReal)

/-! ## The hidden features at an index

The contraction of `x · W` has one axis of extent 128. The four lemmas below read the two operand indices of the product at result
index `j` and contraction index `q`: the left one is `(j 0, q)`, the right one `(q, j 1)`. -/

theorem lhs_hid_0 (j : S1024x128.Idx) (q : dot_S1024x128_S128x128_S1024x128_1_0_0_1_n_n.contr.Idx) :
    (dot_S1024x128_S128x128_S1024x128_1_0_0_1_n_n.lhsIdx j q 0).val = (j 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl

theorem lhs_hid_1 (j : S1024x128.Idx) (q : dot_S1024x128_S128x128_S1024x128_1_0_0_1_n_n.contr.Idx) :
    (dot_S1024x128_S128x128_S1024x128_1_0_0_1_n_n.lhsIdx j q 1).val = (q ⟨0, by decide⟩).val :=
  DotDims.lhsIdx_val_of_single dot_S1024x128_S128x128_S1024x128_1_0_0_1_n_n rfl j q

theorem rhs_hid_0 (j : S1024x128.Idx) (q : dot_S1024x128_S128x128_S1024x128_1_0_0_1_n_n.contr.Idx) :
    (dot_S1024x128_S128x128_S1024x128_1_0_0_1_n_n.rhsIdx j q 0).val = (q ⟨0, by decide⟩).val :=
  DotDims.rhsIdx_val_of_single dot_S1024x128_S128x128_S1024x128_1_0_0_1_n_n rfl j q

theorem rhs_hid_1 (j : S1024x128.Idx) (q : dot_S1024x128_S128x128_S1024x128_1_0_0_1_n_n.contr.Idx) :
    (dot_S1024x128_S128x128_S1024x128_1_0_0_1_n_n.rhsIdx j q 1).val = (j 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

theorem tHid_apply (r : Fin 1024) (k : Fin 128) : tHid x W (ix2 r k) = hid x W r k := by
  unfold tHid hid
  simp only [Host.dotGeneral]
  rw [Ideal.dotGeneral_apply]
  rw [← Equiv.sum_comp (contrEquiv1 dot_S1024x128_S128x128_S1024x128_1_0_0_1_n_n 128 rfl rfl).symm]
  refine Finset.sum_congr rfl fun c _ => ?_
  have hl : dot_S1024x128_S128x128_S1024x128_1_0_0_1_n_n.lhsIdx (ix2 r k)
      ((contrEquiv1 dot_S1024x128_S128x128_S1024x128_1_0_0_1_n_n 128 rfl rfl).symm c) = ix2 r c := by
    funext a
    refine Fin.ext ?_
    match a with
    | ⟨0, _⟩ => exact lhs_hid_0 _ _
    | ⟨1, _⟩ => exact (lhs_hid_1 _ _).trans (contrEquiv1_symm_val _ 128 rfl rfl c)
  have hr : dot_S1024x128_S128x128_S1024x128_1_0_0_1_n_n.rhsIdx (ix2 r k)
      ((contrEquiv1 dot_S1024x128_S128x128_S1024x128_1_0_0_1_n_n 128 rfl rfl).symm c) = ix2 c k := by
    funext a
    refine Fin.ext ?_
    match a with
    | ⟨0, _⟩ => exact (rhs_hid_0 _ _).trans (contrEquiv1_symm_val _ 128 rfl rfl c)
    | ⟨1, _⟩ => exact rhs_hid_1 _ _
  rw [hl, hr]

/-! ## The index words at an edge -/

/-- A word that is a number up to 1024 reads, as a signed integer, that number … -/
theorem toInt_ofNat_of_le (n : ℕ) (hn : n ≤ 1024) : (BitVec.ofNat 32 n).toInt = (n : Int) := by
  have hm : n % 2 ^ 32 = n := Nat.mod_eq_of_lt (by omega)
  rw [BitVec.toInt_eq_toNat_cond, BitVec.toNat_ofNat, hm]
  split <;> omega

/-- … so it is not negative: the signed comparison with zero gives the bit `0`. -/
theorem slt_zero_ofNat (n : ℕ) (hn : n ≤ 1024) : IntOp.cmpi .slt (BitVec.ofNat 32 n) 0#32 = 0#1 := by
  have h : (BitVec.ofNat 32 n).slt 0#32 = false := by
    simp only [BitVec.slt, toInt_ofNat_of_le n hn]
    simp
  simp only [IntOp.cmpi, h]
  rfl

/-- Row 0 of the stacked index arrays is `src` … -/
theorem tEdges_row0 (src dst : S1048576.Idx → BitVec 32) (e : Fin 1048576) :
    tEdges src dst (ix2 (0 : Fin 2) e) = src (ix1 e) := by
  unfold tEdges
  refine (concatenate_pair_apply_left (0 : Fin S2x1048576.rank) _ _ concatenates_S1x1048576_S1x1048576_S2x1048576_d0
    (ix2 (0 : Fin 2) e) rfl (ix2 (0 : Fin 1) e) (fun b => by match b with | ⟨0, _⟩ => rfl | ⟨1, _⟩ => rfl)).trans ?_
  exact broadcastInDim_apply _ _ src _ (ix1 e) (fun a => by
    match a with
    | ⟨0, _⟩ => exact (if_neg (show ¬(1048576 : ℕ) = 1 by decide)).symm)

/-- … and row 1 is `dst`. -/
theorem tEdges_row1 (src dst : S1048576.Idx → BitVec 32) (e : Fin 1048576) :
    tEdges src dst (ix2 (1 : Fin 2) e) = dst (ix1 e) := by
  unfold tEdges
  refine (concatenate_pair_apply_right (0 : Fin S2x1048576.rank) _ _ concatenates_S1x1048576_S1x1048576_S2x1048576_d0
    (ix2 (1 : Fin 2) e) rfl rfl (ix2 (0 : Fin 1) e)
    (fun b hb => by
      match b with
      | ⟨0, _⟩ => exact absurd rfl hb
      | ⟨1, _⟩ => rfl)
    rfl).trans ?_
  exact broadcastInDim_apply _ _ dst _ (ix1 e) (fun a => by
    match a with
    | ⟨0, _⟩ => exact (if_neg (show ¬(1048576 : ℕ) = 1 by decide)).symm)

/-- The slice of row 0 of a 2 × 1048576 array, read at an edge … -/
theorem slice_row0 (edges : S2x1048576.Idx → BitVec 32) (e : Fin 1048576) :
    extractStridedSlice S1x1048576 ![0, 0] edges slices_S2x1048576_S1x1048576_0_0 (ix2 (0 : Fin 1) e)
      = edges (ix2 (0 : Fin 2) e) :=
  slice2_axis0_apply 0 edges slices_S2x1048576_S1x1048576_0_0 (0 : Fin 1) e (0 : Fin 2) rfl

/-- … and the slice of row 1. -/
theorem slice_row1 (edges : S2x1048576.Idx → BitVec 32) (e : Fin 1048576) :
    extractStridedSlice S1x1048576 ![1, 0] edges slices_S2x1048576_S1x1048576_1_0 (ix2 (0 : Fin 1) e)
      = edges (ix2 (1 : Fin 2) e) :=
  slice2_axis0_apply 1 edges slices_S2x1048576_S1x1048576_1_0 (0 : Fin 1) e (1 : Fin 2) rfl

/-- The normalised column of a row, at an edge whose word in the row is a number up to 1024: the word is not negative, so the
    select keeps it. -/
theorem normCol_apply (row : S1x1048576.Idx → BitVec 32) (e : Fin 1048576) (n : ℕ) (hn : n ≤ 1024)
    (h : row (ix2 (0 : Fin 1) e) = BitVec.ofNat 32 n) : normCol row (ix2 e (0 : Fin 1)) = BitVec.ofNat 32 n := by
  have hz : shapeCast S1048576 row shapeCasts_S1x1048576_S1048576 (ix1 e) = BitVec.ofNat 32 n :=
    (shapeCast_1a_a_apply row shapeCasts_S1x1048576_S1048576 e).trans h
  unfold normCol
  refine (broadcastInDim_apply _ _ _ (ix2 e (0 : Fin 1)) (ix1 e) (fun a => by
    match a with
    | ⟨0, _⟩ => exact (if_neg (show ¬(1048576 : ℕ) = 1 by decide)).symm)).trans ?_
  show Scalar.select
      (IntOp.cmpi .slt (shapeCast S1048576 row shapeCasts_S1x1048576_S1048576 (ix1 e)) 0#32)
      (IntOp.addi (shapeCast S1048576 row shapeCasts_S1x1048576_S1048576 (ix1 e)) 1024#32)
      (shapeCast S1048576 row shapeCasts_S1x1048576_S1048576 (ix1 e)) = _
  rw [hz, slt_zero_ofNat n hn, select_zero]

/-- The scatters' index word at an edge is that edge's source word, when it is a number in `0 … 1024`. -/
theorem tRowIdx_apply (src dst : S1048576.Idx → BitVec 32) (e : Fin 1048576) (n : ℕ) (hn : n ≤ 1024)
    (hs : src (ix1 e) = BitVec.ofNat 32 n) :
    tRowIdx (tEdges src dst) (ix2 e (0 : Fin 1)) = BitVec.ofNat 32 n := by
  unfold tRowIdx
  exact normCol_apply _ e n hn ((slice_row0 _ e).trans ((tEdges_row0 src dst e).trans hs))

/-! ## The logit of an edge

The contraction of `aᵀ` with the transposed 1048576 × 256 array of gathered rows has one axis of extent 256. The four lemmas below read
the two operand indices of the product at result index `j` and contraction index `q`: the left one is `(j 0, q)`, the right one
`(q, j 1)`. -/

theorem lhs_logit_0 (j : S1x1048576.Idx) (q : dot_S1x256_S256x1048576_S1x1048576_1_0_0_1_n_n.contr.Idx) :
    (dot_S1x256_S256x1048576_S1x1048576_1_0_0_1_n_n.lhsIdx j q 0).val = (j 0).val := by
  unfold DotDims.lhsIdx
  rw [dif_neg (show ¬(0 : Fin S1x256.rank) ∈ dot_S1x256_S256x1048576_S1x1048576_1_0_0_1_n_n.lhsBatch by decide),
    dif_pos (show (0 : Fin S1x256.rank) ∈ dot_S1x256_S256x1048576_S1x1048576_1_0_0_1_n_n.lhsNonContracting by decide)]
  rfl

theorem lhs_logit_1 (j : S1x1048576.Idx) (q : dot_S1x256_S256x1048576_S1x1048576_1_0_0_1_n_n.contr.Idx) :
    (dot_S1x256_S256x1048576_S1x1048576_1_0_0_1_n_n.lhsIdx j q 1).val = (q ⟨0, by decide⟩).val :=
  DotDims.lhsIdx_val_of_single dot_S1x256_S256x1048576_S1x1048576_1_0_0_1_n_n rfl j q

theorem rhs_logit_0 (j : S1x1048576.Idx) (q : dot_S1x256_S256x1048576_S1x1048576_1_0_0_1_n_n.contr.Idx) :
    (dot_S1x256_S256x1048576_S1x1048576_1_0_0_1_n_n.rhsIdx j q 0).val = (q ⟨0, by decide⟩).val :=
  DotDims.rhsIdx_val_of_single dot_S1x256_S256x1048576_S1x1048576_1_0_0_1_n_n rfl j q

theorem rhs_logit_1 (j : S1x1048576.Idx) (q : dot_S1x256_S256x1048576_S1x1048576_1_0_0_1_n_n.contr.Idx) :
    (dot_S1x256_S256x1048576_S1x1048576_1_0_0_1_n_n.rhsIdx j q 1).val = (j 1).val := by
  unfold DotDims.rhsIdx
  rw [dif_neg (show ¬(1 : Fin S256x1048576.rank) ∈ dot_S1x256_S256x1048576_S1x1048576_1_0_0_1_n_n.rhsBatch by decide),
    dif_pos (show (1 : Fin S256x1048576.rank) ∈ dot_S1x256_S256x1048576_S1x1048576_1_0_0_1_n_n.rhsNonContracting by decide)]
  rfl

/-- The product of a 1 × 256 array with a 256 × 1048576 array, at column `e`: the sum over the 256 entries. -/
theorem dot_logit_apply (l : S1x256.Idx → EReal) (m : S256x1048576.Idx → EReal) (e : Fin 1048576) :
    Host.dotGeneral (F := Ideal) (φ₁ := .f32) (φ₂ := .f32) dot_S1x256_S256x1048576_S1x1048576_1_0_0_1_n_n none l m
        (ix2 (0 : Fin 1) e)
      = ∑ q : Fin 256, l (ix2 (0 : Fin 1) q) * m (ix2 q e) := by
  simp only [Host.dotGeneral]
  rw [Ideal.dotGeneral_apply]
  rw [← Equiv.sum_comp (contrEquiv1 dot_S1x256_S256x1048576_S1x1048576_1_0_0_1_n_n 256 rfl rfl).symm]
  refine Finset.sum_congr rfl fun q _ => ?_
  have hl : dot_S1x256_S256x1048576_S1x1048576_1_0_0_1_n_n.lhsIdx (ix2 (0 : Fin 1) e)
      ((contrEquiv1 dot_S1x256_S256x1048576_S1x1048576_1_0_0_1_n_n 256 rfl rfl).symm q) = ix2 (0 : Fin 1) q := by
    funext b
    refine Fin.ext ?_
    match b with
    | ⟨0, _⟩ => exact lhs_logit_0 _ _
    | ⟨1, _⟩ => exact (lhs_logit_1 _ _).trans (contrEquiv1_symm_val _ 256 rfl rfl q)
  have hr : dot_S1x256_S256x1048576_S1x1048576_1_0_0_1_n_n.rhsIdx (ix2 (0 : Fin 1) e)
      ((contrEquiv1 dot_S1x256_S256x1048576_S1x1048576_1_0_0_1_n_n 256 rfl rfl).symm q) = ix2 q e := by
    funext b
    refine Fin.ext ?_
    match b with
    | ⟨0, _⟩ => exact (rhs_logit_0 _ _).trans (contrEquiv1_symm_val _ 256 rfl rfl q)
    | ⟨1, _⟩ => exact rhs_logit_1 _ _
  rw [hl, hr]

/-- A sum over 256 entries is the sum over the first 128 plus the sum over the last 128. -/
theorem sum_fin256_split (f : Fin 256 → EReal) :
    ∑ q : Fin 256, f q
      = ∑ k : Fin 128, f ⟨k.val, by omega⟩ + ∑ k : Fin 128, f ⟨128 + k.val, by omega⟩ :=
  Fin.sum_univ_add (a := 128) (b := 128) f

/-- `a` transposed, at entry `q` of its one row. -/
theorem aT_apply (q : Fin 256) :
    transpose S1x256 [1, 0] a transposes_S256x1_S1x256_1_0 (ix2 (0 : Fin 1) q) = a (ix2 q (0 : Fin 1)) :=
  transpose_ix2_apply a transposes_S256x1_S1x256_1_0 (0 : Fin 1) q

/-- A 1048576 × 256 array transposed, at `(q, e)`. -/
theorem rowsT_apply (v : S1048576x256.Idx → EReal) (q : Fin 256) (e : Fin 1048576) :
    transpose S256x1048576 [1, 0] v transposes_S1048576x256_S256x1048576_1_0 (ix2 q e) = v (ix2 e q) :=
  transpose_ix2_apply v transposes_S1048576x256_S256x1048576_1_0 q e

/-- Two 1048576 × 128 arrays side by side: entry `k < 128` of row `e` is the first array's … -/
theorem sideBySide_left (g₀ g₁ : S1048576x128.Idx → EReal) (e : Fin 1048576) (k : Fin 128) :
    concatenate S1048576x256 1 [⟨S1048576x128, g₀⟩, ⟨S1048576x128, g₁⟩] concatenates_S1048576x128_S1048576x128_S1048576x256_d1
        (ix2 e (⟨k.val, by omega⟩ : Fin 256))
      = g₀ (ix2 e k) :=
  concatenate_pair_apply_left (1 : Fin S1048576x256.rank) g₀ g₁ concatenates_S1048576x128_S1048576x128_S1048576x256_d1
    (ix2 e (⟨k.val, by omega⟩ : Fin 256)) rfl (ix2 e k) (fun b => by match b with | ⟨0, _⟩ => rfl | ⟨1, _⟩ => rfl)

/-- … and entry `128 + k` is the second array's entry `k`. -/
theorem sideBySide_right (g₀ g₁ : S1048576x128.Idx → EReal) (e : Fin 1048576) (k : Fin 128) :
    concatenate S1048576x256 1 [⟨S1048576x128, g₀⟩, ⟨S1048576x128, g₁⟩] concatenates_S1048576x128_S1048576x128_S1048576x256_d1
        (ix2 e (⟨128 + k.val, by omega⟩ : Fin 256))
      = g₁ (ix2 e k) :=
  concatenate_pair_apply_right (1 : Fin S1048576x256.rank) g₀ g₁ concatenates_S1048576x128_S1048576x128_S1048576x256_d1
    (ix2 e (⟨128 + k.val, by omega⟩ : Fin 256)) rfl rfl (ix2 e k)
    (fun b hb => by
      match b with
      | ⟨0, _⟩ => rfl
      | ⟨1, _⟩ => exact absurd rfl hb)
    (by show k.val + 128 = 128 + k.val; omega)

/-- The logit of an edge whose index words are the numbers `r` and `c`: the 256 products split into the source node's 128 and the
    destination node's 128. -/
theorem tLogit_apply (src dst : S1048576.Idx → BitVec 32) (e : Fin 1048576) (r c : Fin 1024)
    (hs : src (ix1 e) = BitVec.ofNat 32 r.val) (hd : dst (ix1 e) = BitVec.ofNat 32 c.val) :
    tLogit (tHid x W) a (tEdges src dst) (ix1 e) = srcTerm x W a r + dstTerm x W a c := by
  have hrow0 : normCol (extractStridedSlice S1x1048576 ![0, 0] (tEdges src dst) slices_S2x1048576_S1x1048576_0_0) (ix2 e (0 : Fin 1))
      = BitVec.ofNat 32 r.val :=
    normCol_apply _ e r.val (by have := r.isLt; omega) ((slice_row0 _ e).trans ((tEdges_row0 src dst e).trans hs))
  have hrow1 : normCol (extractStridedSlice S1x1048576 ![1, 0] (tEdges src dst) slices_S2x1048576_S1x1048576_1_0) (ix2 e (0 : Fin 1))
      = BitVec.ofNat 32 c.val :=
    normCol_apply _ e c.val (by have := c.isLt; omega) ((slice_row1 _ e).trans ((tEdges_row1 src dst e).trans hd))
  unfold tLogit
  refine (shapeCast_1a_a_apply _ shapeCasts_S1x1048576_S1048576 e).trans ?_
  refine (dot_logit_apply _ _ e).trans ?_
  refine (sum_fin256_split _).trans ?_
  unfold srcTerm dstTerm
  refine congrArg₂ (· + ·) ?_ ?_
  · refine Finset.sum_congr rfl fun k _ => ?_
    rw [aT_apply, rowsT_apply, sideBySide_left, Decode.gather_row_of_lt _ _ e k r hrow0, tHid_apply]
    exact mul_comm _ _
  · refine Finset.sum_congr rfl fun k _ => ?_
    rw [aT_apply, rowsT_apply, sideBySide_right, Decode.gather_row_of_lt _ _ e k c hrow1, tHid_apply]

/-- The weight of every edge from its logit: the select on `z ≥ 0` between `z` and `0.2 · z` is the leaky ReLU, and the negation is
    the difference from the zero word, which reads `0`. -/
theorem tEdge_of_logit (hid : S1024x128.Idx → EReal) (a : S256x1.Idx → EReal) (edges : S2x1048576.Idx → BitVec 32)
    (i : S1048576.Idx) : tEdge hid a edges i = Ideal.exp (c0 - leaky (tLogit hid a edges i)) := by
  unfold tEdge
  generalize tLogit hid a edges = z
  have h0 : c0 - leaky (z i) = -leaky (z i) := by
    unfold c0
    rw [Ideal.ofBits_zero_f32, zero_sub]
  rw [h0]
  rfl

/-- The weight of an edge whose index words are the numbers `r` and `c`. -/
theorem tEdge_apply (src dst : S1048576.Idx → BitVec 32) (e : Fin 1048576) (r c : Fin 1024)
    (hs : src (ix1 e) = BitVec.ofNat 32 r.val) (hd : dst (ix1 e) = BitVec.ofNat 32 c.val) :
    tEdge (tHid x W) a (tEdges src dst) (ix1 e) = Ideal.exp (c0 - leaky (srcTerm x W a r + dstTerm x W a c)) := by
  rw [tEdge_of_logit, tLogit_apply x W a src dst e r c hs hd]

/-- The gathered row of an edge whose destination word is the number `c`. -/
theorem tGath_apply (src dst : S1048576.Idx → BitVec 32) (e : Fin 1048576) (c : Fin 1024) (k : Fin 128)
    (hd : dst (ix1 e) = BitVec.ofNat 32 c.val) :
    tGath (tHid x W) (tEdges src dst) (ix2 e k) = hid x W c k := by
  unfold tGath
  refine (Decode.gather_row_of_lt (tHid x W) _ e k c ?_).trans (tHid_apply x W c k)
  exact normCol_apply _ e c.val (by have := c.isLt; omega) ((slice_row1 _ e).trans ((tEdges_row1 src dst e).trans hd))

end Cert.ReferenceIdeal.RefEdge

end
-- ==== Proof.SpecLaws.lean ====
/-
  Laws of the specification's scalar pieces, on the extended reals: the f32 words 0.0 and 1.0 are the numbers 0 and 1; a pair's weight
  is the exponential on an edge and 0 off it; a row's total weight and weighted sum are sums over the row's nonzero columns only;
  and the ELU written with `exp (min h 0) - 1` is the ELU written with `1 · expm1 (h where h ≤ 0, else 0)`.
-/
import proofs.«130080_g13718125543874_cont_sun_m_270_4_alg».proof.Proof.Spec

noncomputable section

namespace Cert.GatSpec

open Idealize.ShloMosaic Idealize.ShloMosaic.ValueIdx

/-- The all-zero f32 word has a zero exponent field and a zero significand: it denotes `0`. -/
theorem c0_eq : c0 = 0 := by
  unfold c0
  simp [Ideal.ofBits, Ideal.ieee]

/-- The word `0x3F800000` has sign 0, exponent field 127 (the bias) and a zero significand: it denotes `2^23 · 2^(-23) = 1`. -/
theorem c1_eq : c1 = 1 := by
  unfold c1
  simp [Ideal.ofBits, Ideal.ieee, -EReal.coe_mul]
  norm_num

/-- The comparison "not equal to the zero word" gives the bit 1 on a nonzero word … -/
theorem cmpi_ne_zero_of_ne {w : BitVec 32} (h : w ≠ 0#32) : IntOp.cmpi .ne w 0#32 = 1#1 := by
  have hb : (w != 0#32) = true := bne_iff_ne.mpr h
  show BitVec.ofBool (w != 0#32) = 1#1
  rw [hb]
  rfl

/-- … and the bit 0 on the zero word. -/
theorem cmpi_ne_zero_of_eq {w : BitVec 32} (h : w = 0#32) : IntOp.cmpi .ne w 0#32 = 0#1 := by
  subst h
  simp [IntOp.cmpi]

/-- The comparison "greater than" of extended reals gives the bit 1 where it holds … -/
theorem cmpf_ogt_of_lt {h z : EReal} (hlt : z < h) : FloatOps.cmpf (F := Ideal) (φ := .f32) .ogt h z = 1#1 := by
  show Ideal.cmp .ogt h z = 1#1
  simp [Ideal.cmp, hlt]

/-- … and the bit 0 where it does not. -/
theorem cmpf_ogt_of_not_lt {h z : EReal} (hlt : ¬z < h) : FloatOps.cmpf (F := Ideal) (φ := .f32) .ogt h z = 0#1 := by
  show Ideal.cmp .ogt h z = 0#1
  simp [Ideal.cmp, hlt]

variable (x : (⟨2, ![1024, 128]⟩ : Shape).Idx → EReal) (adj : (⟨2, ![1024, 1024]⟩ : Shape).Idx → BitVec 32)
  (W : (⟨2, ![128, 128]⟩ : Shape).Idx → EReal) (a : (⟨2, ![256, 1]⟩ : Shape).Idx → EReal)

/-- The weight on an edge. -/
def edgeW (i j : Fin 1024) : EReal := Ideal.exp (c0 - leaky (srcTerm x W a i + dstTerm x W a j))

theorem wgt_of_ne (i j : Fin 1024) (h : adj (ix2 i j) ≠ 0#32) : wgt x adj W a i j = edgeW x W a i j := by
  unfold wgt edgeW
  rw [cmpi_ne_zero_of_ne h, select_one]

theorem wgt_of_eq (i j : Fin 1024) (h : adj (ix2 i j) = 0#32) : wgt x adj W a i j = 0 := by
  unfold wgt
  rw [cmpi_ne_zero_of_eq h, select_zero, c0_eq]

/-- A row's total weight is the sum of the edge weights over its nonzero columns. -/
theorem rowsum_eq_filter (i : Fin 1024) :
    rowsum x adj W a i = ∑ j ∈ Finset.univ.filter (fun j : Fin 1024 => adj (ix2 i j) ≠ 0#32), edgeW x W a i j := by
  unfold rowsum
  rw [Finset.sum_filter]
  refine Finset.sum_congr rfl fun j _ => ?_
  by_cases h : adj (ix2 i j) = 0#32
  · rw [wgt_of_eq x adj W a i j h, if_neg (not_not.mpr h)]
  · rw [wgt_of_ne x adj W a i j h, if_pos h]

/-- A row's weighted sum of hidden features is the sum over its nonzero columns. -/
theorem agg_eq_filter (i : Fin 1024) (k : Fin 128) :
    agg x adj W a i k = ∑ j ∈ Finset.univ.filter (fun j : Fin 1024 => adj (ix2 i j) ≠ 0#32), edgeW x W a i j * hid x W j k := by
  unfold agg
  rw [Finset.sum_filter]
  refine Finset.sum_congr rfl fun j _ => ?_
  by_cases h : adj (ix2 i j) = 0#32
  · rw [wgt_of_eq x adj W a i j h, if_neg (not_not.mpr h), zero_mul]
  · rw [wgt_of_ne x adj W a i j h, if_pos h]

/-- The two ways of writing the ELU agree: where `h > 0` both give `h`; elsewhere `min h 0 = h`, the inner select gives `h`,
    `expm1 h = exp h - 1`, and the factor is 1. -/
theorem elu_ref (h : EReal) :
    Scalar.select (FloatOps.cmpf (F := Ideal) (φ := .f32) .ogt h c0) h
        (c1 * Ideal.expm1 (Scalar.select (FloatOps.cmpf (F := Ideal) (φ := .f32) .ogt h c0) c0 h))
      = elu h := by
  unfold elu
  by_cases hpos : c0 < h
  · rw [cmpf_ogt_of_lt hpos]
    simp only [select_one]
  · rw [cmpf_ogt_of_not_lt hpos]
    simp only [select_zero]
    rw [min_eq_left (not_lt.mp hpos), c1_eq, one_mul]
    rfl

end Cert.GatSpec

end
-- ==== Proof.RefScatter.lean ====
/-
  The reference's result from its edge list. Each edge's weight is added into its source row's total (an accumulating scatter over
  the 1048576 listed places), the weight times the destination's hidden row into the source row's weighted sum (a second one); the
  quotient of the sum by the total plus 1e-9 goes through the ELU. When the listed places enumerate the nonzero adjacency entries
  once each and the padding places carry the out-of-range word 1024 (dropped by both scatters), row `i`'s total is the sum over the
  columns `j` with a nonzero entry of the pair's weight, which is the specification's masked sum over all columns.
-/
import proofs.«130080_g13718125543874_cont_sun_m_270_4_alg».proof.Proof.Gen.ReferenceIdeal
import proofs.«130080_g13718125543874_cont_sun_m_270_4_alg».proof.Proof.Spec
import proofs.«130080_g13718125543874_cont_sun_m_270_4_alg».proof.Proof.SpecLaws
import proofs.«130080_g13718125543874_cont_sun_m_270_4_alg».proof.Proof.Decode
import proofs.«130080_g13718125543874_cont_sun_m_270_4_alg».proof.Proof.RefEdge
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RefScatter

open Cert.ReferenceIdeal Idealize.ShloMosaic Idealize.ShloMosaic.ValueIdx Cert.GatSpec Cert.ReferenceIdeal.RefEdge

/-- The edge weights as a one-column array (the program's values %58 and %69). -/
def tW (hid : S1024x128.Idx → EReal) (a : S256x1.Idx → EReal) (E : S2x1048576.Idx → BitVec 32) : S1048576x1.Idx → EReal :=
  broadcastInDim S1048576x1 ![0] Gen.bcast_S1048576_S1048576x1_0 (tEdge hid a E)

/-- The rows' total weights (the program's value %65): every edge's weight added into its source row of a zero column. -/
def tTot (hid : S1024x128.Idx → EReal) (a : S256x1.Idx → EReal) (E : S2x1048576.Idx → BitVec 32) : S1024x1.Idx → EReal :=
  Host.scatterAdd (F := Ideal) (φ := .f32) scatter_S1024x1_S1048576x1_S1048576x1_1_0_0_1
    (broadcastInDim S1024x1 ![] Gen.bcast_S_S1024x1 (constant (F := Ideal) S_ .f32 0x00000000#32))
    (tRowIdx E) (tW hid a E)

/-- The rows' weighted sums (the program's value %87): every edge's weight times its destination's hidden row, added into its
    source row of a zero array. -/
def tSum (hid : S1024x128.Idx → EReal) (a : S256x1.Idx → EReal) (E : S2x1048576.Idx → BitVec 32) : S1024x128.Idx → EReal :=
  Host.scatterAdd (F := Ideal) (φ := .f32) scatter_S1024x128_S1048576x1_S1048576x128_1_0_0_1
    (broadcastInDim S1024x128 ![] Gen.bcast_S_S1024x128 (constant (F := Ideal) S_ .f32 0x00000000#32))
    (tRowIdx E)
    (mulf (F := Ideal) (φ := .f32)
      (broadcastInDim S1048576x128 ![0, 1] Gen.bcast_S1048576x1_S1048576x128_0_1 (tW hid a E)) (tGath hid E))

/-- The quotient (the program's value %91): the weighted sum over the total weight plus the word of 1e-9. -/
def tQuot (hid : S1024x128.Idx → EReal) (a : S256x1.Idx → EReal) (E : S2x1048576.Idx → BitVec 32) : S1024x128.Idx → EReal :=
  Host.divf (F := Ideal) (φ := .f32) (tSum hid a E)
    (broadcastInDim S1024x128 ![0, 1] Gen.bcast_S1024x1_S1024x128_0_1
      (addf (F := Ideal) (φ := .f32) (tTot hid a E)
        (broadcastInDim S1024x1 ![] Gen.bcast_S_S1024x1 (constant (F := Ideal) S_ .f32 0x3089705F#32))))

/-- The reference's ELU of an array (the body of its function `elu`): where `hp > 0` it keeps `hp`, elsewhere it takes
    `1 · (exp z - 1)` of `z` = `0` where `hp > 0` and `hp` elsewhere. -/
def tElu (hp : S1024x128.Idx → EReal) : S1024x128.Idx → EReal :=
  select
    (cmpf (F := Ideal) (φ := .f32) .ogt hp
      (broadcastInDim S1024x128 ![] Gen.bcast_S_S1024x128 (constant (F := Ideal) S_ .f32 0x00000000#32)))
    hp
    (mulf (F := Ideal) (φ := .f32)
      (broadcastInDim S1024x128 ![] Gen.bcast_S_S1024x128 (constant (F := Ideal) S_ .f32 0x3F800000#32))
      (Host.expm1 (F := Ideal) (φ := .f32)
        (select
          (cmpf (F := Ideal) (φ := .f32) .ogt hp
            (broadcastInDim S1024x128 ![] Gen.bcast_S_S1024x128 (constant (F := Ideal) S_ .f32 0x00000000#32)))
          (broadcastInDim S1024x128 ![] Gen.bcast_S_S1024x128 (id (constant (F := Ideal) S_ .f32 0x00000000#32)))
          hp)))

/-- The result (the program's value %92) from the hidden features, `a` and the two index arrays: the program's own operations from
    %55 on, over `tEdges`, `tEdge`, `tRowIdx` and `tGath`. -/
def tOut (hid : S1024x128.Idx → EReal) (a : S256x1.Idx → EReal) (src dst : S1048576.Idx → BitVec 32) : S1024x128.Idx → EReal :=
  tElu (tQuot hid a (tEdges src dst))

/-! ### Layout reads -/

/-- The weight column at place `e` is the edge's weight. -/
theorem tW_apply (hid : S1024x128.Idx → EReal) (a : S256x1.Idx → EReal) (E : S2x1048576.Idx → BitVec 32) (e : Fin 1048576) :
    tW hid a E (ix2 e (0 : Fin 1)) = tEdge hid a E (ix1 e) := by
  unfold tW
  refine broadcastInDim_apply _ _ _ _ (ix1 e) (fun b => ?_)
  match b with
  | ⟨0, _⟩ => rfl

/-- A one-column array spread over 128 columns reads its column. -/
theorem spread_places_apply (v : S1048576x1.Idx → EReal) (e : Fin 1048576) (k : Fin 128) :
    broadcastInDim S1048576x128 ![0, 1] Gen.bcast_S1048576x1_S1048576x128_0_1 v (ix2 e k) = v (ix2 e (0 : Fin 1)) := by
  refine broadcastInDim_apply _ _ _ _ (ix2 e (0 : Fin 1)) (fun b => ?_)
  match b with
  | ⟨0, _⟩ => rfl
  | ⟨1, _⟩ => rfl

/-- The same for a 1024-row column. -/
theorem spread_rows_apply (v : S1024x1.Idx → EReal) (i : Fin 1024) (k : Fin 128) :
    broadcastInDim S1024x128 ![0, 1] Gen.bcast_S1024x1_S1024x128_0_1 v (ix2 i k) = v (ix2 i (0 : Fin 1)) := by
  refine broadcastInDim_apply _ _ _ _ (ix2 i (0 : Fin 1)) (fun b => ?_)
  match b with
  | ⟨0, _⟩ => rfl
  | ⟨1, _⟩ => rfl

/-- The quotient at `(i, k)`: the weighted sum over the row's total plus the word of 1e-9. -/
theorem tQuot_apply (hid : S1024x128.Idx → EReal) (a : S256x1.Idx → EReal) (E : S2x1048576.Idx → BitVec 32) (i : Fin 1024) (k : Fin 128) :
    tQuot hid a E (ix2 i k) = Ideal.div (tSum hid a E (ix2 i k)) (tTot hid a E (ix2 i (0 : Fin 1)) + ceps) := by
  unfold tQuot
  rw [hostDivf_apply, spread_rows_apply, addf_apply, broadcastInDim_scalar_apply, constant_apply]
  rfl

/-- The reference's ELU at one index. -/
theorem tElu_apply (hp : S1024x128.Idx → EReal) (j : S1024x128.Idx) :
    tElu hp j = Scalar.select (FloatOps.cmpf (F := Ideal) (φ := .f32) .ogt (hp j) c0) (hp j)
      (c1 * Ideal.expm1 (Scalar.select (FloatOps.cmpf (F := Ideal) (φ := .f32) .ogt (hp j) c0) c0 (hp j))) := by
  rfl

/-! ### The scatters' index words -/

/-- Read signed, the 32-bit word of a number up to 1024 is the number. -/
theorem toInt_ofNat_le (n : ℕ) (hn : n ≤ 1024) : (BitVec.ofNat 32 n).toInt = (n : Int) := by
  rw [BitVec.toInt_eq_toNat_cond, BitVec.toNat_ofNat]
  have h : n % 2 ^ 32 = n := Nat.mod_eq_of_lt (by omega)
  rw [h, if_pos (by omega)]

section Places

variable (x : S1024x128.Idx → EReal) (adj : S1024x1024.Idx → BitVec 32) (W : S128x128.Idx → EReal) (a : S256x1.Idx → EReal)
    (src dst : S1048576.Idx → BitVec 32) (cnt : ℕ) (row col : Fin 1048576 → Fin 1024)
    (h1 : ∀ e : Fin 1048576, e.val < cnt →
          src (ix1 e) = BitVec.ofNat 32 (row e).val ∧ dst (ix1 e) = BitVec.ofNat 32 (col e).val ∧ adj (ix2 (row e) (col e)) ≠ 0#32)
    (h2 : ∀ e : Fin 1048576, cnt ≤ e.val → src (ix1 e) = 1024#32 ∧ dst (ix1 e) = 1024#32)
    (h3 : ∀ i j : Fin 1024, adj (ix2 i j) ≠ 0#32 → ∃ e : Fin 1048576, e.val < cnt ∧ row e = i ∧ col e = j)
    (h4 : ∀ e e' : Fin 1048576, e.val < cnt → e'.val < cnt → row e = row e' → col e = col e' → e = e')

include h1 h2 in
/-- A place's scatter index, read signed, is `i` exactly when the place is one of the first `cnt` and lists row `i`: a listed
    place carries its row's number, a padding place the out-of-range 1024. -/
theorem rowIdx_toInt_iff (e : Fin 1048576) (i : Fin 1024) :
    (tRowIdx (tEdges src dst) (ix2 e (0 : Fin 1))).toInt = (i.val : Int) ↔ e.val < cnt ∧ row e = i := by
  by_cases he : e.val < cnt
  · obtain ⟨hs, -, -⟩ := h1 e he
    have hr := (row e).isLt
    rw [tRowIdx_apply src dst e (row e).val (by omega) hs, toInt_ofNat_le _ (by omega)]
    constructor
    · intro h; exact ⟨he, Fin.ext (by exact_mod_cast h)⟩
    · rintro ⟨-, rfl⟩; rfl
  · obtain ⟨hs, -⟩ := h2 e (by omega)
    have hi := i.isLt
    rw [tRowIdx_apply src dst e 1024 le_rfl hs, toInt_ofNat_le _ le_rfl]
    constructor
    · intro h; omega
    · rintro ⟨h, -⟩; exact absurd h he

include h1 h2 h3 h4 in
/-- A sum over the places whose scatter index is `i` is a sum over row `i`'s nonzero columns: on those places `col` is a bijection
    onto the nonzero columns. -/
theorem sum_places (i : Fin 1024) (f : Fin 1024 → EReal) (g : Fin 1048576 → EReal)
    (hg : ∀ e : Fin 1048576, e.val < cnt → row e = i → g e = f (col e)) :
    ∑ e ∈ Finset.univ.filter (fun e : Fin 1048576 => (tRowIdx (tEdges src dst) (ix2 e (0 : Fin 1))).toInt = (i.val : Int)), g e
      = ∑ j ∈ Finset.univ.filter (fun j : Fin 1024 => adj (ix2 i j) ≠ 0#32), f j := by
  have key := rowIdx_toInt_iff adj src dst cnt row col h1 h2
  refine Finset.sum_bij (fun e _ => col e) ?_ ?_ ?_ ?_
  · intro e he
    obtain ⟨hlt, hr⟩ := (key e i).mp (Finset.mem_filter.mp he).2
    refine Finset.mem_filter.mpr ⟨Finset.mem_univ _, ?_⟩
    have := (h1 e hlt).2.2
    rwa [hr] at this
  · intro e he e' he' hc
    obtain ⟨hlt, hr⟩ := (key e i).mp (Finset.mem_filter.mp he).2
    obtain ⟨hlt', hr'⟩ := (key e' i).mp (Finset.mem_filter.mp he').2
    exact h4 e e' hlt hlt' (hr.trans hr'.symm) hc
  · intro j hj
    obtain ⟨e, hlt, hr, hc⟩ := h3 i j (Finset.mem_filter.mp hj).2
    exact ⟨e, Finset.mem_filter.mpr ⟨Finset.mem_univ _, (key e i).mpr ⟨hlt, hr⟩⟩, hc⟩
  · intro e he
    obtain ⟨hlt, hr⟩ := (key e i).mp (Finset.mem_filter.mp he).2
    exact hg e hlt hr

include h1 h2 h3 h4 in
/-- Row `i`'s total weight: the edge weights over its nonzero columns. -/
theorem tTot_eq (i : Fin 1024) :
    tTot (tHid x W) a (tEdges src dst) (ix2 i (0 : Fin 1))
      = ∑ j ∈ Finset.univ.filter (fun j : Fin 1024 => adj (ix2 i j) ≠ 0#32), edgeW x W a i j := by
  unfold tTot
  rw [Decode.scatterAdd1_apply, broadcastInDim_scalar_apply, constant_apply, Ideal.ofBits_zero_f32, zero_add]
  refine sum_places adj src dst cnt row col h1 h2 h3 h4 i (fun j => edgeW x W a i j) _ (fun e hlt hr => ?_)
  obtain ⟨hs, hd, -⟩ := h1 e hlt
  rw [tW_apply, tEdge_apply x W a src dst e (row e) (col e) hs hd, hr]
  rfl

include h1 h2 h3 h4 in
/-- Row `i`'s weighted sum at feature `k`: over its nonzero columns `j`, the edge weight times `hid j k`. -/
theorem tSum_eq (i : Fin 1024) (k : Fin 128) :
    tSum (tHid x W) a (tEdges src dst) (ix2 i k)
      = ∑ j ∈ Finset.univ.filter (fun j : Fin 1024 => adj (ix2 i j) ≠ 0#32), edgeW x W a i j * hid x W j k := by
  unfold tSum
  rw [Decode.scatterAdd128_apply, broadcastInDim_scalar_apply, constant_apply, Ideal.ofBits_zero_f32, zero_add]
  refine sum_places adj src dst cnt row col h1 h2 h3 h4 i (fun j => edgeW x W a i j * hid x W j k) _ (fun e hlt hr => ?_)
  obtain ⟨hs, hd, -⟩ := h1 e hlt
  rw [mulf_apply, spread_places_apply, tW_apply, tEdge_apply x W a src dst e (row e) (col e) hs hd,
    tGath_apply x W src dst e (col e) k hd, hr]
  rfl

end Places

/-- If the two index arrays list every nonzero adjacency entry once in their first `cnt` places and hold 1024 after, the reference's
    result is the specification. -/
theorem tOut_eq (x : S1024x128.Idx → EReal) (adj : S1024x1024.Idx → BitVec 32) (W : S128x128.Idx → EReal) (a : S256x1.Idx → EReal)
    (src dst : S1048576.Idx → BitVec 32) (cnt : ℕ) (row col : Fin 1048576 → Fin 1024)
    (h1 : ∀ e : Fin 1048576, e.val < cnt →
          src (ix1 e) = BitVec.ofNat 32 (row e).val ∧ dst (ix1 e) = BitVec.ofNat 32 (col e).val ∧ adj (ix2 (row e) (col e)) ≠ 0#32)
    (h2 : ∀ e : Fin 1048576, cnt ≤ e.val → src (ix1 e) = 1024#32 ∧ dst (ix1 e) = 1024#32)
    (h3 : ∀ i j : Fin 1024, adj (ix2 i j) ≠ 0#32 → ∃ e : Fin 1048576, e.val < cnt ∧ row e = i ∧ col e = j)
    (h4 : ∀ e e' : Fin 1048576, e.val < cnt → e'.val < cnt → row e = row e' → col e = col e' → e = e') :
    tOut (tHid x W) a src dst = out x adj W a := by
  funext idx
  obtain ⟨i, k, rfl⟩ : ∃ (i : Fin 1024) (k : Fin 128), idx = ix2 i k := ⟨idx 0, idx 1, eq_ix2 idx⟩
  unfold tOut
  rw [tElu_apply, tQuot_apply, tSum_eq x adj W a src dst cnt row col h1 h2 h3 h4 i k,
    tTot_eq x adj W a src dst cnt row col h1 h2 h3 h4 i, ← agg_eq_filter, ← rowsum_eq_filter]
  exact elu_ref _

end Cert.ReferenceIdeal.RefScatter

end
-- ==== Proof.RefSegs.lean ====
/-
  The reference's line of 222 operations cut into nine consecutive stretches, each ending where few buffers are
  still to be read: after a stretch only its last values and the arguments matter to what follows. What a stretch
  leaves in the buffers read later is then a statement about that stretch alone, from ANY contents before it; the
  whole line's result is their composition (`ops_eq` with the fold of a concatenation).

  Three of the stretches read a value computed earlier where the named functions of the value modules recompute it
  from the arguments; `gFill`, `gW`, `gTot`, `gSum` and `gQuot` are those functions with that value as a parameter.
-/
import proofs.«130080_g13718125543874_cont_sun_m_270_4_alg».proof.Proof.RefRun
import proofs.«130080_g13718125543874_cont_sun_m_270_4_alg».proof.Proof.Nonzero
import proofs.«130080_g13718125543874_cont_sun_m_270_4_alg».proof.Proof.RefEdge
import proofs.«130080_g13718125543874_cont_sun_m_270_4_alg».proof.Proof.RefScatter

noncomputable section

namespace Cert.ReferenceIdeal.RSegs

open Cert.ReferenceIdeal Cert.ReferenceIdeal.Gen Idealize.ShloMosaic Idealize.ShloMosaic.TcCoe Idealize.SL.Sem
  Idealize.ShloMosaic.StableHlo

/-! ## The values a later stretch reads, as parameters -/

/-- Where the slot is at or past the number of set entries of a mask (the program's value %22 from %1). -/
def gFill (mask : S1024x1024.Idx → BitVec 1) : S1048576.Idx → BitVec 1 :=
  cmpi .sge (iotaInDim S1048576 32 0)
    (broadcastInDim S1048576 ![] bcast_S_S1048576
      (Host.reduce IntOp.addi (extui 32 mask natLt_1_32) (constantI S_ 32 0#32) reducesTo_S1024x1024_S_d0_1 h_S_))

/-- Weights as a one-column array (the program's values %58 and %69 from %54). -/
def gW (w : S1048576.Idx → EReal) : S1048576x1.Idx → EReal :=
  broadcastInDim S1048576x1 ![0] bcast_S1048576_S1048576x1_0 w

/-- The weights added into a zero column at the sources (the program's value %65 from %27 and %54). -/
def gTot (E : S2x1048576.Idx → BitVec 32) (w : S1048576.Idx → EReal) : S1024x1.Idx → EReal :=
  Host.scatterAdd (F := Ideal) (φ := .f32) scatter_S1024x1_S1048576x1_S1048576x1_1_0_0_1
    (broadcastInDim S1024x1 ![] bcast_S_S1024x1 (constant (F := Ideal) S_ .f32 0x00000000#32))
    (RefEdge.tRowIdx E) (gW w)

/-- The weighted destination rows added into a zero array at the sources (the program's value %87 from %28, %27 and %54). -/
def gSum (hid : S1024x128.Idx → EReal) (E : S2x1048576.Idx → BitVec 32) (w : S1048576.Idx → EReal) : S1024x128.Idx → EReal :=
  Host.scatterAdd (F := Ideal) (φ := .f32) scatter_S1024x128_S1048576x1_S1048576x128_1_0_0_1
    (broadcastInDim S1024x128 ![] bcast_S_S1024x128 (constant (F := Ideal) S_ .f32 0x00000000#32))
    (RefEdge.tRowIdx E)
    (mulf (F := Ideal) (φ := .f32)
      (broadcastInDim S1048576x128 ![0, 1] bcast_S1048576x1_S1048576x128_0_1 (gW w)) (RefEdge.tGath hid E))

/-- The quotient of a sum by a total moved off zero (the program's value %91 from %87 and %65). -/
def gQuot (s : S1024x128.Idx → EReal) (t : S1024x1.Idx → EReal) : S1024x128.Idx → EReal :=
  Host.divf (F := Ideal) (φ := .f32) s
    (broadcastInDim S1024x128 ![0, 1] bcast_S1024x1_S1024x128_0_1
      (addf (F := Ideal) (φ := .f32) t
        (broadcastInDim S1024x1 ![] bcast_S_S1024x1 (constant (F := Ideal) S_ .f32 0x3089705F#32))))

/-- At the mask of an adjacency array `gFill` is the value module's `vFill`. -/
theorem vFill_eq (adj : S1024x1024.Idx → BitVec 32) : Nonzero.vFill adj = gFill (Nonzero.vMask adj) := rfl

/-- At the weights computed from the same hidden features and index rows, the parametrized quotient is the value
    module's `tQuot`. -/
theorem tQuot_eq (hid : S1024x128.Idx → EReal) (a : S256x1.Idx → EReal) (E : S2x1048576.Idx → BitVec 32) :
    RefScatter.tQuot hid a E = gQuot (gSum hid E (RefEdge.tEdge hid a E)) (gTot E (RefEdge.tEdge hid a E)) := rfl

/-! ## The nine stretches -/

variable {F : FTy → Type} [FloatOps F]

/-- Operations 1 to 28: the mask `main_v1` and the positions of its set entries `main_v13`. -/
abbrev segA1 : List (HloOp τ sig (Elt F)) :=
  [
    -- the mask: `adj ≠ 0`
    nullary main_c (constantI S_ 32 0#32),
    unary main_c main_v0 (broadcastInDim S1024x1024 ![] bcast_S_S1024x1024),
    binary main_arg1 main_v0 main_v1 (cmpi .ne),
    -- `cumsum`: the mask flattened and widened, then its running sum (window the whole line, left padding)
    TRef.reshape (.of main_v1 : TRef sig ⟨S1024x1024, .i1⟩) main_call0.v0 rfl shapeCasts_S1024x1024_S1048576,
    TRef.unary main_call0.v0 main_call0.v1 (extui 32 · natLt_1_32),
    TRef.nullary main_call0.call0.c (constantI S_ 32 0#32),
    TRef.unary main_call0.call0.c main_call0.call0.v0 (broadcastInDim S_ ![] bcast_S_S_),
    TRef.binary main_call0.v1 main_call0.call0.v0 main_call0.call0.v1 (fun x v => Host.reduceWindow IntOp.addi ![1048576] ![1] ![1048575] ![0] x v reduceWindows_S1048576_S1048576_w1048576s1p1048575_0 h_S_),
    -- a line of zeros (the histogram's start)
    nullary main_c_0 (constantI S_ 32 0#32),
    unary main_c_0 main_v3 (broadcastInDim S1048576 ![] bcast_S_S1048576),
    -- `clip`: the running count, at least 0
    nullary main_c_1 (constantI S_ 32 0#32),
    TRef.unary (.of main_c_1 : TRef sig ⟨S_, .i32⟩) main_call1.v0 id,
    TRef.unary main_call1.v0 main_call1.v1 (broadcastInDim S1048576 ![] bcast_S_S1048576),
    TRef.binary main_call1.v1 (.of main_v2 : TRef sig ⟨S1048576, .i32⟩) main_call1.v2 maxsi,
    -- a negative index counted from the end: `c < 0 ? c + 1048576 : c`, as a column of indices
    nullary main_c_2 (constantI S_ 32 0#32),
    unary main_c_2 main_v5 (broadcastInDim S1048576 ![] bcast_S_S1048576),
    binary main_v4 main_v5 main_v6 (cmpi .slt),
    nullary main_c_3 (constantI S_ 32 1048576#32),
    unary main_c_3 main_v7 (broadcastInDim S1048576 ![] bcast_S_S1048576),
    binary main_v4 main_v7 main_v8 addi,
    ternary main_v6 main_v8 main_v4 main_v9 select,
    unary main_v9 main_v10 (broadcastInDim S1048576x1 ![0] bcast_S1048576_S1048576x1_0),
    -- the histogram of the counts: ones added into the zeros at those indices
    nullary main_c_4 (constantI S_ 32 1#32),
    unary main_c_4 main_v11 (broadcastInDim S1048576 ![] bcast_S_S1048576),
    ternary main_v3 main_v10 main_v11 main_v12 (fun x i u => Host.scatter scatter_S1048576_S1048576x1_S1048576_n_0_0_1 IntOp.addi x i u),
    -- `cumsum_1`: the histogram's running sum — slot `k` holds the flat position of the `k`-th set entry
    TRef.nullary main_call2.call0.c (constantI S_ 32 0#32),
    TRef.unary main_call2.call0.c main_call2.call0.v0 (broadcastInDim S_ ![] bcast_S_S_),
    TRef.binary (.of main_v12 : TRef sig ⟨S1048576, .i32⟩) main_call2.call0.v0 main_call2.call0.v1 (fun x v => Host.reduceWindow IntOp.addi ![1048576] ![1] ![1048575] ![0] x v reduceWindows_S1048576_S1048576_w1048576s1p1048575_0 h_S_) ]

/-- Operations 29 to 67: the positions' floor quotient by 1024, reduced modulo 1024: the rows `main_v15`. -/
abbrev segA2 : List (HloOp τ sig (Elt F)) :=
  [
    -- `floor_divide` by 1024: the truncated quotient, less one where the signs differ and the remainder is not 0
    nullary main_c_5 (constantI S_ 32 1024#32),
    TRef.unary (.of main_c_5 : TRef sig ⟨S_, .i32⟩) main_call3.v0 (broadcastInDim S1048576 ![] bcast_S_S1048576),
    TRef.binary (.of main_v13 : TRef sig ⟨S1048576, .i32⟩) main_call3.v0 main_call3.v1 Host.divsi,
    TRef.unary (.of main_v13 : TRef sig ⟨S1048576, .i32⟩) main_call3.v2 signi,
    TRef.unary (.of main_c_5 : TRef sig ⟨S_, .i32⟩) main_call3.v3 signi,
    TRef.unary main_call3.v3 main_call3.v4 (broadcastInDim S1048576 ![] bcast_S_S1048576),
    TRef.binary main_call3.v2 main_call3.v4 main_call3.v5 (cmpi .ne),
    TRef.unary (.of main_c_5 : TRef sig ⟨S_, .i32⟩) main_call3.v6 (broadcastInDim S1048576 ![] bcast_S_S1048576),
    TRef.binary (.of main_v13 : TRef sig ⟨S1048576, .i32⟩) main_call3.v6 main_call3.v7 Host.remsi,
    TRef.nullary main_call3.c (constantI S_ 32 0#32),
    TRef.unary main_call3.c main_call3.v8 (broadcastInDim S1048576 ![] bcast_S_S1048576),
    TRef.binary main_call3.v7 main_call3.v8 main_call3.v9 (cmpi .ne),
    TRef.binary main_call3.v5 main_call3.v9 main_call3.v10 andi,
    TRef.nullary main_call3.c_0 (constantI S_ 32 1#32),
    TRef.unary main_call3.c_0 main_call3.v11 (broadcastInDim S1048576 ![] bcast_S_S1048576),
    TRef.binary main_call3.v1 main_call3.v11 main_call3.v12 subi,
    TRef.ternary main_call3.v10 main_call3.v12 main_call3.v1 main_call3.call0.v0 select,
    -- `remainder` by 1024 (a zero divisor replaced by 1): the truncated remainder, plus the divisor where it is
    -- not 0 and its sign is not the divisor's — the row
    nullary main_c_6 (constantI S_ 32 1024#32),
    TRef.unary (.of main_c_6 : TRef sig ⟨S_, .i32⟩) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S1048576 ![] bcast_S_S1048576),
    TRef.binary (.of main_v14 : TRef sig ⟨S1048576, .i32⟩) main_call4.v3 main_call4.v4 Host.remsi,
    TRef.nullary main_call4.c_1 (constantI S_ 32 0#32),
    TRef.unary main_call4.c_1 main_call4.v5 (broadcastInDim S1048576 ![] bcast_S_S1048576),
    TRef.binary main_call4.v4 main_call4.v5 main_call4.v6 (cmpi .ne),
    TRef.nullary main_call4.c_2 (constantI S_ 32 0#32),
    TRef.unary main_call4.c_2 main_call4.v7 (broadcastInDim S1048576 ![] bcast_S_S1048576),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S1048576 ![] bcast_S_S1048576),
    TRef.binary main_call4.v8 main_call4.v10 main_call4.v11 (cmpi .ne),
    TRef.binary main_call4.v11 main_call4.v6 main_call4.v12 andi,
    TRef.unary main_call4.call0.v0 main_call4.v13 (broadcastInDim S1048576 ![] bcast_S_S1048576),
    TRef.binary main_call4.v4 main_call4.v13 main_call4.v14 addi,
    TRef.ternary main_call4.v12 main_call4.v14 main_call4.v4 main_call4.v15 select ]

/-- Operations 68 to 106: the positions' floor quotient by 1, reduced modulo 1024: the columns `main_v17`. -/
abbrev segA3 : List (HloOp τ sig (Elt F)) :=
  [
    -- `floor_divide` by 1: the same sixteen operations over the second call's buffers
    nullary main_c_7 (constantI S_ 32 1#32),
    TRef.unary (.of main_c_7 : TRef sig ⟨S_, .i32⟩) main_call5.v0 (broadcastInDim S1048576 ![] bcast_S_S1048576),
    TRef.binary (.of main_v13 : TRef sig ⟨S1048576, .i32⟩) main_call5.v0 main_call5.v1 Host.divsi,
    TRef.unary (.of main_v13 : TRef sig ⟨S1048576, .i32⟩) main_call5.v2 signi,
    TRef.unary (.of main_c_7 : TRef sig ⟨S_, .i32⟩) main_call5.v3 signi,
    TRef.unary main_call5.v3 main_call5.v4 (broadcastInDim S1048576 ![] bcast_S_S1048576),
    TRef.binary main_call5.v2 main_call5.v4 main_call5.v5 (cmpi .ne),
    TRef.unary (.of main_c_7 : TRef sig ⟨S_, .i32⟩) main_call5.v6 (broadcastInDim S1048576 ![] bcast_S_S1048576),
    TRef.binary (.of main_v13 : TRef sig ⟨S1048576, .i32⟩) main_call5.v6 main_call5.v7 Host.remsi,
    TRef.nullary main_call5.c (constantI S_ 32 0#32),
    TRef.unary main_call5.c main_call5.v8 (broadcastInDim S1048576 ![] bcast_S_S1048576),
    TRef.binary main_call5.v7 main_call5.v8 main_call5.v9 (cmpi .ne),
    TRef.binary main_call5.v5 main_call5.v9 main_call5.v10 andi,
    TRef.nullary main_call5.c_0 (constantI S_ 32 1#32),
    TRef.unary main_call5.c_0 main_call5.v11 (broadcastInDim S1048576 ![] bcast_S_S1048576),
    TRef.binary main_call5.v1 main_call5.v11 main_call5.v12 subi,
    TRef.ternary main_call5.v10 main_call5.v12 main_call5.v1 main_call5.call0.v0 select,
    -- `remainder` by 1024 of that: the column
    nullary main_c_8 (constantI S_ 32 1024#32),
    TRef.unary (.of main_c_8 : TRef sig ⟨S_, .i32⟩) main_call6.v0 id,
    TRef.nullary main_call6.c (constantI S_ 32 0#32),
    TRef.binary main_call6.v0 main_call6.c main_call6.v1 (cmpi .eq),
    TRef.nullary main_call6.c_0 (constantI S_ 32 1#32),
    TRef.ternary main_call6.v1 main_call6.c_0 main_call6.v0 main_call6.call0.v0 select,
    TRef.unary main_call6.call0.v0 main_call6.v3 (broadcastInDim S1048576 ![] bcast_S_S1048576),
    TRef.binary (.of main_v16 : TRef sig ⟨S1048576, .i32⟩) main_call6.v3 main_call6.v4 Host.remsi,
    TRef.nullary main_call6.c_1 (constantI S_ 32 0#32),
    TRef.unary main_call6.c_1 main_call6.v5 (broadcastInDim S1048576 ![] bcast_S_S1048576),
    TRef.binary main_call6.v4 main_call6.v5 main_call6.v6 (cmpi .ne),
    TRef.nullary main_call6.c_2 (constantI S_ 32 0#32),
    TRef.unary main_call6.c_2 main_call6.v7 (broadcastInDim S1048576 ![] bcast_S_S1048576),
    TRef.binary main_call6.v4 main_call6.v7 main_call6.v8 (cmpi .slt),
    TRef.nullary main_call6.c_3 (constantI S_ 32 0#32),
    TRef.binary main_call6.call0.v0 main_call6.c_3 main_call6.v9 (cmpi .slt),
    TRef.unary main_call6.v9 main_call6.v10 (broadcastInDim S1048576 ![] bcast_S_S1048576),
    TRef.binary main_call6.v8 main_call6.v10 main_call6.v11 (cmpi .ne),
    TRef.binary main_call6.v11 main_call6.v6 main_call6.v12 andi,
    TRef.unary main_call6.call0.v0 main_call6.v13 (broadcastInDim S1048576 ![] bcast_S_S1048576),
    TRef.binary main_call6.v4 main_call6.v13 main_call6.v14 addi,
    TRef.ternary main_call6.v12 main_call6.v14 main_call6.v4 main_call6.v15 select ]

/-- Operations 107 to 120: the slots past the number of set entries filled with 1024: `main_v23`, `main_v24`. -/
abbrev segA4 : List (HloOp τ sig (Elt F)) :=
  [
    -- slots past the number of set entries: `iota ≥ Σ mask`
    nullary main_v18 (iotaInDim S1048576 32 0),
    unary main_v1 main_v19 (extui 32 · natLt_1_32),
    nullary main_c_9 (constantI S_ 32 0#32),
    binary main_v19 main_c_9 main_v20 (fun x v => Host.reduce IntOp.addi x v reducesTo_S1024x1024_S_d0_1 h_S_),
    unary main_v20 main_v21 (broadcastInDim S1048576 ![] bcast_S_S1048576),
    binary main_v18 main_v21 main_v22 (cmpi .sge),
    -- the row there 1024, elsewhere the row
    nullary main_c_10 (constantI S_ 32 1024#32),
    TRef.unary (.of main_c_10 : TRef sig ⟨S_, .i32⟩) main_call7.v0 id,
    TRef.unary main_call7.v0 main_call7.v1 (broadcastInDim S1048576 ![] bcast_S_S1048576),
    TRef.ternary (.of main_v22 : TRef sig ⟨S1048576, .i1⟩) main_call7.v1 (.of main_v15 : TRef sig ⟨S1048576, .i32⟩) main_call7.v2 select,
    -- the column there 1024, elsewhere the column
    nullary main_c_11 (constantI S_ 32 1024#32),
    TRef.unary (.of main_c_11 : TRef sig ⟨S_, .i32⟩) main_call8.v0 id,
    TRef.unary main_call8.v0 main_call8.v1 (broadcastInDim S1048576 ![] bcast_S_S1048576),
    TRef.ternary (.of main_v22 : TRef sig ⟨S1048576, .i1⟩) main_call8.v1 (.of main_v17 : TRef sig ⟨S1048576, .i32⟩) main_call8.v2 select ]

/-- Operations 121 to 124: the two index rows stacked `main_v27`, and the hidden features `main_v28`. -/
abbrev segB1 : List (HloOp τ sig (Elt F)) :=
  [
    -- the two index rows stacked: sources over destinations
    unary main_v23 main_v25 (broadcastInDim S1x1048576 ![1] bcast_S1048576_S1x1048576_1),
    unary main_v24 main_v26 (broadcastInDim S1x1048576 ![1] bcast_S1048576_S1x1048576_1),
    binary main_v25 main_v26 main_v27 (fun a b => concatenate S2x1048576 0 [⟨S1x1048576, a⟩, ⟨S1x1048576, b⟩] concatenates_S1x1048576_S1x1048576_S2x1048576_d0),
    -- `h = x · W`
    binary main_arg0 main_arg2 main_v28 (fun l r => Host.dotGeneral dot_S1024x128_S128x128_S1024x128_1_0_0_1_n_n none l r) ]

/-- Operations 125 to 161: the gathered rows, the scores, and the weights `main_v54`. -/
abbrev segB2 : List (HloOp τ sig (Elt F)) :=
  [
    -- the rows of `h` at the sources (a negative index counted from the end)
    unary main_v27 main_v29 (extractStridedSlice S1x1048576 ![0, 0] · slices_S2x1048576_S1x1048576_0_0),
    reshape main_v29 main_v30 rfl shapeCasts_S1x1048576_S1048576,
    nullary main_c_12 (constantI S_ 32 0#32),
    unary main_c_12 main_v31 (broadcastInDim S1048576 ![] bcast_S_S1048576),
    binary main_v30 main_v31 main_v32 (cmpi .slt),
    nullary main_c_13 (constantI S_ 32 1024#32),
    unary main_c_13 main_v33 (broadcastInDim S1048576 ![] bcast_S_S1048576),
    binary main_v30 main_v33 main_v34 addi,
    ternary main_v32 main_v34 main_v30 main_v35 select,
    unary main_v35 main_v36 (broadcastInDim S1048576x1 ![0] bcast_S1048576_S1048576x1_0),
    binary main_v28 main_v36 main_v37 (fun x i => Host.gather gather_S1024x128_S1048576x1_S1048576x128_1_0_n_n_0_1_1128 x i),
    -- the rows of `h` at the destinations
    unary main_v27 main_v38 (extractStridedSlice S1x1048576 ![1, 0] · slices_S2x1048576_S1x1048576_1_0),
    reshape main_v38 main_v39 rfl shapeCasts_S1x1048576_S1048576,
    nullary main_c_14 (constantI S_ 32 0#32),
    unary main_c_14 main_v40 (broadcastInDim S1048576 ![] bcast_S_S1048576),
    binary main_v39 main_v40 main_v41 (cmpi .slt),
    nullary main_c_15 (constantI S_ 32 1024#32),
    unary main_c_15 main_v42 (broadcastInDim S1048576 ![] bcast_S_S1048576),
    binary main_v39 main_v42 main_v43 addi,
    ternary main_v41 main_v43 main_v39 main_v44 select,
    unary main_v44 main_v45 (broadcastInDim S1048576x1 ![0] bcast_S1048576_S1048576x1_0),
    binary main_v28 main_v45 main_v46 (fun x i => Host.gather gather_S1024x128_S1048576x1_S1048576x128_1_0_n_n_0_1_1128 x i),
    -- the two joined along the feature axis and contracted with the attention vector: one score per slot
    binary main_v37 main_v46 main_v47 (fun a b => concatenate S1048576x256 1 [⟨S1048576x128, a⟩, ⟨S1048576x128, b⟩] concatenates_S1048576x128_S1048576x128_S1048576x256_d1),
    unary main_v47 main_v48 (transpose S256x1048576 [1, 0] · transposes_S1048576x256_S256x1048576_1_0),
    unary main_arg3 main_v49 (transpose S1x256 [1, 0] · transposes_S256x1_S1x256_1_0),
    binary main_v49 main_v48 main_v50 (fun l r => Host.dotGeneral dot_S1x256_S256x1048576_S1x1048576_1_0_0_1_n_n none l r),
    reshape main_v50 main_v51 rfl shapeCasts_S1x1048576_S1048576,
    -- `leaky_relu` at slope 0.2: the score where it is at least 0, else 0.2 times it
    nullary main_cst (constant S_ .f32 0x3E4CCCCD#32),
    TRef.nullary main_call9.cst (constant S_ .f32 0x00000000#32),
    TRef.unary main_call9.cst main_call9.v0 (broadcastInDim S1048576 ![] bcast_S_S1048576),
    TRef.binary (.of main_v51 : TRef sig ⟨S1048576, .f32⟩) main_call9.v0 main_call9.v1 (cmpf .oge),
    TRef.unary (.of main_cst : TRef sig ⟨S_, .f32⟩) main_call9.v2 id,
    TRef.unary main_call9.v2 main_call9.v3 (broadcastInDim S1048576 ![] bcast_S_S1048576),
    TRef.binary main_call9.v3 (.of main_v51 : TRef sig ⟨S1048576, .f32⟩) main_call9.v4 mulf,
    TRef.ternary main_call9.v1 (.of main_v51 : TRef sig ⟨S1048576, .f32⟩) main_call9.v4 main_call9.call0.v0 select,
    -- the weight: `exp (-·)`
    unary main_v52 main_v53 Host.negf,
    unary main_v53 main_v54 Host.exp ]

/-- Operations 162 to 175: the weights summed per source node `main_v65`. -/
abbrev segC1 : List (HloOp τ sig (Elt F)) :=
  [
    -- the weights summed per source node: added into a column of zeros at the sources
    nullary main_cst_16 (constant S_ .f32 0x00000000#32),
    unary main_cst_16 main_v55 (broadcastInDim S1024x1 ![] bcast_S_S1024x1),
    unary main_v27 main_v56 (extractStridedSlice S1x1048576 ![0, 0] · slices_S2x1048576_S1x1048576_0_0),
    reshape main_v56 main_v57 rfl shapeCasts_S1x1048576_S1048576,
    unary main_v54 main_v58 (broadcastInDim S1048576x1 ![0] bcast_S1048576_S1048576x1_0),
    nullary main_c_17 (constantI S_ 32 0#32),
    unary main_c_17 main_v59 (broadcastInDim S1048576 ![] bcast_S_S1048576),
    binary main_v57 main_v59 main_v60 (cmpi .slt),
    nullary main_c_18 (constantI S_ 32 1024#32),
    unary main_c_18 main_v61 (broadcastInDim S1048576 ![] bcast_S_S1048576),
    binary main_v57 main_v61 main_v62 addi,
    ternary main_v60 main_v62 main_v57 main_v63 select,
    unary main_v63 main_v64 (broadcastInDim S1048576x1 ![0] bcast_S1048576_S1048576x1_0),
    ternary main_v55 main_v64 main_v58 main_v65 (fun x i u => Host.scatterAdd scatter_S1024x1_S1048576x1_S1048576x1_1_0_0_1 x i u) ]

/-- Operations 176 to 202: the weighted destination rows summed per source node `main_v87`. -/
abbrev segC2 : List (HloOp τ sig (Elt F)) :=
  [
    -- the weighted destination rows summed per source node: added into a table of zeros at the sources
    nullary main_cst_19 (constant S_ .f32 0x00000000#32),
    unary main_cst_19 main_v66 (broadcastInDim S1024x128 ![] bcast_S_S1024x128),
    unary main_v27 main_v67 (extractStridedSlice S1x1048576 ![0, 0] · slices_S2x1048576_S1x1048576_0_0),
    reshape main_v67 main_v68 rfl shapeCasts_S1x1048576_S1048576,
    unary main_v54 main_v69 (broadcastInDim S1048576x1 ![0] bcast_S1048576_S1048576x1_0),
    unary main_v27 main_v70 (extractStridedSlice S1x1048576 ![1, 0] · slices_S2x1048576_S1x1048576_1_0),
    reshape main_v70 main_v71 rfl shapeCasts_S1x1048576_S1048576,
    nullary main_c_20 (constantI S_ 32 0#32),
    unary main_c_20 main_v72 (broadcastInDim S1048576 ![] bcast_S_S1048576),
    binary main_v71 main_v72 main_v73 (cmpi .slt),
    nullary main_c_21 (constantI S_ 32 1024#32),
    unary main_c_21 main_v74 (broadcastInDim S1048576 ![] bcast_S_S1048576),
    binary main_v71 main_v74 main_v75 addi,
    ternary main_v73 main_v75 main_v71 main_v76 select,
    unary main_v76 main_v77 (broadcastInDim S1048576x1 ![0] bcast_S1048576_S1048576x1_0),
    binary main_v28 main_v77 main_v78 (fun x i => Host.gather gather_S1024x128_S1048576x1_S1048576x128_1_0_n_n_0_1_1128 x i),
    unary main_v69 main_v79 (broadcastInDim S1048576x128 ![0, 1] bcast_S1048576x1_S1048576x128_0_1),
    binary main_v79 main_v78 main_v80 mulf,
    nullary main_c_22 (constantI S_ 32 0#32),
    unary main_c_22 main_v81 (broadcastInDim S1048576 ![] bcast_S_S1048576),
    binary main_v68 main_v81 main_v82 (cmpi .slt),
    nullary main_c_23 (constantI S_ 32 1024#32),
    unary main_c_23 main_v83 (broadcastInDim S1048576 ![] bcast_S_S1048576),
    binary main_v68 main_v83 main_v84 addi,
    ternary main_v82 main_v84 main_v68 main_v85 select,
    unary main_v85 main_v86 (broadcastInDim S1048576x1 ![0] bcast_S1048576_S1048576x1_0),
    ternary main_v66 main_v86 main_v80 main_v87 (fun x i u => Host.scatterAdd scatter_S1024x128_S1048576x1_S1048576x128_1_0_0_1 x i u) ]

/-- Operations 203 to 222: the quotient and its `elu`, the result `main_v92`. -/
abbrev segC3 : List (HloOp τ sig (Elt F)) :=
  [
    -- the quotient, the denominator moved off zero by `1e-9`
    nullary main_cst_24 (constant S_ .f32 0x3089705F#32),
    unary main_cst_24 main_v88 (broadcastInDim S1024x1 ![] bcast_S_S1024x1),
    binary main_v65 main_v88 main_v89 addf,
    unary main_v89 main_v90 (broadcastInDim S1024x128 ![0, 1] bcast_S1024x1_S1024x128_0_1),
    binary main_v87 main_v90 main_v91 Host.divf,
    -- `elu`: the quotient where it is above 0, else `1 · expm1` of it (0 put where it is above 0 first)
    TRef.nullary main_call10.cst (constant S_ .f32 0x00000000#32),
    TRef.unary main_call10.cst main_call10.v0 (broadcastInDim S1024x128 ![] bcast_S_S1024x128),
    TRef.binary (.of main_v91 : TRef sig ⟨S1024x128, .f32⟩) main_call10.v0 main_call10.v1 (cmpf .ogt),
    TRef.nullary main_call10.cst_0 (constant S_ .f32 0x00000000#32),
    TRef.unary main_call10.cst_0 main_call10.v2 (broadcastInDim S1024x128 ![] bcast_S_S1024x128),
    TRef.binary (.of main_v91 : TRef sig ⟨S1024x128, .f32⟩) main_call10.v2 main_call10.v3 (cmpf .ogt),
    TRef.nullary main_call10.cst_1 (constant S_ .f32 0x00000000#32),
    TRef.unary main_call10.cst_1 main_call10.call0.v0 id,
    TRef.unary main_call10.call0.v0 main_call10.call0.v1 (broadcastInDim S1024x128 ![] bcast_S_S1024x128),
    TRef.ternary main_call10.v3 main_call10.call0.v1 (.of main_v91 : TRef sig ⟨S1024x128, .f32⟩) main_call10.call0.v2 select,
    TRef.unary main_call10.call0.v2 main_call10.v5 Host.expm1,
    TRef.nullary main_call10.cst_2 (constant S_ .f32 0x3F800000#32),
    TRef.unary main_call10.cst_2 main_call10.v6 (broadcastInDim S1024x128 ![] bcast_S_S1024x128),
    TRef.binary main_call10.v6 main_call10.v5 main_call10.v7 mulf,
    TRef.ternary main_call10.v1 (.of main_v91 : TRef sig ⟨S1024x128, .f32⟩) main_call10.v7 main_call10.call1.v0 select ]

set_option maxRecDepth 16384 in
/-- The line is the nine stretches one after the other. -/
theorem ops_eq :
    (RRun.ops (F := F)) = segA1 ++ segA2 ++ segA3 ++ segA4 ++ segB1 ++ segB2 ++ segC1 ++ segC2 ++ segC3 := rfl

end Cert.ReferenceIdeal.RSegs

end
-- ==== Proof.RefSegA1.lean ====
/-
  The first stretch of the reference's line: it leaves in the mask's buffer the mask of the adjacency array's nonzero entries, and
  it writes none of the four argument buffers.
-/
import proofs.«130080_g13718125543874_cont_sun_m_270_4_alg».proof.Proof.RefSegs

noncomputable section

namespace Cert.ReferenceIdeal.RSegs

open Cert.ReferenceIdeal Cert.ReferenceIdeal.Gen Idealize.ShloMosaic Idealize.ShloMosaic.TcCoe Idealize.SL.Sem
  Idealize.ShloMosaic.StableHlo

attribute [local irreducible] Host.reduce Host.reduceWindow Host.gather Host.scatter Host.scatterAdd in
set_option maxRecDepth 100000 in
set_option maxHeartbeats 4000000 in
/-- After the stretch the mask's buffer holds the mask of the adjacency array's nonzero entries. -/
theorem segA1_v1 (W : Valuation τ sig (Elt Ideal)) :
    after (segA1 (F := Ideal)) W (main_v1 : DevRef τ sig) = Nonzero.vMask (W (main_arg1 : DevRef τ sig)) := by
  after_results_simp
  rfl

set_option maxRecDepth 100000 in
set_option maxHeartbeats 4000000 in
/-- The stretch writes no argument buffer. -/
theorem segA1_arg0 (W : Valuation τ sig (Elt Ideal)) :
    after (segA1 (F := Ideal)) W (main_arg0 : DevRef τ sig) = W (main_arg0 : DevRef τ sig) := by
  after_results_simp

set_option maxRecDepth 100000 in
set_option maxHeartbeats 4000000 in
theorem segA1_arg1 (W : Valuation τ sig (Elt Ideal)) :
    after (segA1 (F := Ideal)) W (main_arg1 : DevRef τ sig) = W (main_arg1 : DevRef τ sig) := by
  after_results_simp

set_option maxRecDepth 100000 in
set_option maxHeartbeats 4000000 in
theorem segA1_arg2 (W : Valuation τ sig (Elt Ideal)) :
    after (segA1 (F := Ideal)) W (main_arg2 : DevRef τ sig) = W (main_arg2 : DevRef τ sig) := by
  after_results_simp

set_option maxRecDepth 100000 in
set_option maxHeartbeats 4000000 in
theorem segA1_arg3 (W : Valuation τ sig (Elt Ideal)) :
    after (segA1 (F := Ideal)) W (main_arg3 : DevRef τ sig) = W (main_arg3 : DevRef τ sig) := by
  after_results_simp

end Cert.ReferenceIdeal.RSegs

end
-- ==== Proof.RefSegA1Pos.lean ====
/-
  The stretch of operations 1 to 28, its second value: the positions of the mask's set entries.
  The stretch is six pieces one after the other — the mask; its running count; a line of zeros and the count
  clipped below; the count counted from the end where negative, as a column; the histogram of the counts; the
  histogram's running sum — and what each piece leaves is a named function of what it reads, from any contents.
-/
import proofs.«130080_g13718125543874_cont_sun_m_270_4_alg».proof.Proof.RefSegs
import Idealize.ShloMosaic.Lib.Pipeline.Frame

noncomputable section

namespace Cert.ReferenceIdeal.RSegs

open Cert.ReferenceIdeal Cert.ReferenceIdeal.Gen Idealize.ShloMosaic Idealize.ShloMosaic.TcCoe Idealize.SL.Sem
  Idealize.ShloMosaic.StableHlo

variable {F : FTy → Type} [FloatOps F]

/-- Operations 1 to 3: the mask. -/
abbrev pA1a : List (HloOp τ sig (Elt F)) :=
  [
    nullary main_c (constantI S_ 32 0#32),
    unary main_c main_v0 (broadcastInDim S1024x1024 ![] bcast_S_S1024x1024),
    binary main_arg1 main_v0 main_v1 (cmpi .ne) ]

/-- Operations 4 to 8: the mask's running count. -/
abbrev pA1b : List (HloOp τ sig (Elt F)) :=
  [
    TRef.reshape (.of main_v1 : TRef sig ⟨S1024x1024, .i1⟩) main_call0.v0 rfl shapeCasts_S1024x1024_S1048576,
    TRef.unary main_call0.v0 main_call0.v1 (extui 32 · natLt_1_32),
    TRef.nullary main_call0.call0.c (constantI S_ 32 0#32),
    TRef.unary main_call0.call0.c main_call0.call0.v0 (broadcastInDim S_ ![] bcast_S_S_),
    TRef.binary main_call0.v1 main_call0.call0.v0 main_call0.call0.v1 (fun x v => Host.reduceWindow IntOp.addi ![1048576] ![1] ![1048575] ![0] x v reduceWindows_S1048576_S1048576_w1048576s1p1048575_0 h_S_) ]

/-- Operations 9 to 14: a line of zeros, and the count clipped below at 0. -/
abbrev pA1c : List (HloOp τ sig (Elt F)) :=
  [
    nullary main_c_0 (constantI S_ 32 0#32),
    unary main_c_0 main_v3 (broadcastInDim S1048576 ![] bcast_S_S1048576),
    nullary main_c_1 (constantI S_ 32 0#32),
    TRef.unary (.of main_c_1 : TRef sig ⟨S_, .i32⟩) main_call1.v0 id,
    TRef.unary main_call1.v0 main_call1.v1 (broadcastInDim S1048576 ![] bcast_S_S1048576),
    TRef.binary main_call1.v1 (.of main_v2 : TRef sig ⟨S1048576, .i32⟩) main_call1.v2 maxsi ]

/-- Operations 15 to 22: the clipped count, a negative one counted from the end, as a column. -/
abbrev pA1d : List (HloOp τ sig (Elt F)) :=
  [
    nullary main_c_2 (constantI S_ 32 0#32),
    unary main_c_2 main_v5 (broadcastInDim S1048576 ![] bcast_S_S1048576),
    binary main_v4 main_v5 main_v6 (cmpi .slt),
    nullary main_c_3 (constantI S_ 32 1048576#32),
    unary main_c_3 main_v7 (broadcastInDim S1048576 ![] bcast_S_S1048576),
    binary main_v4 main_v7 main_v8 addi,
    ternary main_v6 main_v8 main_v4 main_v9 select,
    unary main_v9 main_v10 (broadcastInDim S1048576x1 ![0] bcast_S1048576_S1048576x1_0) ]

/-- Operations 23 to 25: the histogram of the counts. -/
abbrev pA1e : List (HloOp τ sig (Elt F)) :=
  [
    nullary main_c_4 (constantI S_ 32 1#32),
    unary main_c_4 main_v11 (broadcastInDim S1048576 ![] bcast_S_S1048576),
    ternary main_v3 main_v10 main_v11 main_v12 (fun x i u => Host.scatter scatter_S1048576_S1048576x1_S1048576_n_0_0_1 IntOp.addi x i u) ]

/-- Operations 26 to 28: the histogram's running sum. -/
abbrev pA1f : List (HloOp τ sig (Elt F)) :=
  [
    TRef.nullary main_call2.call0.c (constantI S_ 32 0#32),
    TRef.unary main_call2.call0.c main_call2.call0.v0 (broadcastInDim S_ ![] bcast_S_S_),
    TRef.binary (.of main_v12 : TRef sig ⟨S1048576, .i32⟩) main_call2.call0.v0 main_call2.call0.v1 (fun x v => Host.reduceWindow IntOp.addi ![1048576] ![1] ![1048575] ![0] x v reduceWindows_S1048576_S1048576_w1048576s1p1048575_0 h_S_) ]

/-- The stretch is the six pieces one after the other. -/
theorem segA1_pieces : (segA1 (F := F)) = pA1a ++ pA1b ++ pA1c ++ pA1d ++ pA1e ++ pA1f := rfl

attribute [local irreducible] Host.reduce Host.reduceWindow Host.gather Host.scatter Host.scatterAdd in
set_option maxRecDepth 100000 in
set_option maxHeartbeats 4000000 in
theorem pA1a_v1 (W : Valuation τ sig (Elt Ideal)) :
    after (pA1a (F := Ideal)) W (main_v1 : DevRef τ sig) = Nonzero.vMask (W (main_arg1 : DevRef τ sig)) := by
  after_results_simp
  rfl

attribute [local irreducible] Host.reduce Host.reduceWindow Host.gather Host.scatter Host.scatterAdd in
set_option maxRecDepth 100000 in
set_option maxHeartbeats 4000000 in
theorem pA1b_v2 (W : Valuation τ sig (Elt Ideal)) :
    after (pA1b (F := Ideal)) W (main_v2 : DevRef τ sig) = Nonzero.fCumsum (W (main_v1 : DevRef τ sig)) := by
  after_results_simp
  rfl

attribute [local irreducible] Host.reduce Host.reduceWindow Host.gather Host.scatter Host.scatterAdd in
set_option maxRecDepth 100000 in
set_option maxHeartbeats 4000000 in
theorem pA1c_v3 (W : Valuation τ sig (Elt Ideal)) :
    after (pA1c (F := Ideal)) W (main_v3 : DevRef τ sig)
      = broadcastInDim S1048576 ![] bcast_S_S1048576 (constantI S_ 32 0#32) := by
  after_results_simp

attribute [local irreducible] Host.reduce Host.reduceWindow Host.gather Host.scatter Host.scatterAdd in
set_option maxRecDepth 100000 in
set_option maxHeartbeats 4000000 in
theorem pA1c_v4 (W : Valuation τ sig (Elt Ideal)) :
    after (pA1c (F := Ideal)) W (main_v4 : DevRef τ sig)
      = Nonzero.fClip (W (main_v2 : DevRef τ sig)) (constantI S_ 32 0#32) := by
  after_results_simp
  rfl

attribute [local irreducible] Host.reduce Host.reduceWindow Host.gather Host.scatter Host.scatterAdd in
set_option maxRecDepth 100000 in
set_option maxHeartbeats 4000000 in
theorem pA1d_v10 (W : Valuation τ sig (Elt Ideal)) :
    after (pA1d (F := Ideal)) W (main_v10 : DevRef τ sig)
      = broadcastInDim S1048576x1 ![0] bcast_S1048576_S1048576x1_0
          (select
            (cmpi .slt (W (main_v4 : DevRef τ sig)) (broadcastInDim S1048576 ![] bcast_S_S1048576 (constantI S_ 32 0#32)))
            (addi (W (main_v4 : DevRef τ sig)) (broadcastInDim S1048576 ![] bcast_S_S1048576 (constantI S_ 32 1048576#32)))
            (W (main_v4 : DevRef τ sig))) := by
  after_results_simp

theorem pA1d_v3 (W : Valuation τ sig (Elt Ideal)) :
    after (pA1d (F := Ideal)) W (main_v3 : DevRef τ sig) = W (main_v3 : DevRef τ sig) := by
  after_results_simp

attribute [local irreducible] Host.reduce Host.reduceWindow Host.gather Host.scatter Host.scatterAdd in
set_option maxRecDepth 100000 in
set_option maxHeartbeats 4000000 in
theorem pA1e_v12 (W : Valuation τ sig (Elt Ideal)) :
    after (pA1e (F := Ideal)) W (main_v12 : DevRef τ sig)
      = Host.scatter scatter_S1048576_S1048576x1_S1048576_n_0_0_1 IntOp.addi (W (main_v3 : DevRef τ sig))
          (W (main_v10 : DevRef τ sig)) (broadcastInDim S1048576 ![] bcast_S_S1048576 (constantI S_ 32 1#32)) := by
  after_results_simp

attribute [local irreducible] Host.reduce Host.reduceWindow Host.gather Host.scatter Host.scatterAdd in
set_option maxRecDepth 100000 in
set_option maxHeartbeats 4000000 in
theorem pA1f_v13 (W : Valuation τ sig (Elt Ideal)) :
    after (pA1f (F := Ideal)) W (main_v13 : DevRef τ sig) = Nonzero.fCumsum0 (W (main_v12 : DevRef τ sig)) := by
  after_results_simp
  rfl

attribute [local irreducible] Host.reduce Host.reduceWindow Host.gather Host.scatter Host.scatterAdd in
set_option maxRecDepth 100000 in
set_option maxHeartbeats 4000000 in
/-- The positions of the mask's set entries after the stretch, from the adjacency array before it: the pieces'
    values read from the last piece back to the first, then the named functions unfolded. -/
theorem segA1_v13 (W : Valuation τ sig (Elt Ideal)) :
    after (segA1 (F := Ideal)) W (main_v13 : DevRef τ sig) = Nonzero.vPos (W (main_arg1 : DevRef τ sig)) := by
  rw [segA1_pieces, after_append, after_append, after_append, after_append, after_append]
  rw [pA1f_v13, pA1e_v12, pA1d_v10, pA1d_v3, pA1c_v3, pA1c_v4, pA1b_v2, pA1a_v1]
  rfl

end Cert.ReferenceIdeal.RSegs

end
-- ==== Proof.RefSegA2.lean ====
/-
  Operations 29 to 67 of the reference: each position's floor quotient by 1024, then that quotient's remainder of the
  divisor's sign modulo 1024: the row of the position. The mask, the positions and the four arguments are left as they were.
-/
import proofs.«130080_g13718125543874_cont_sun_m_270_4_alg».proof.Proof.RefSegs

noncomputable section

namespace Cert.ReferenceIdeal.RSegs

open Cert.ReferenceIdeal Cert.ReferenceIdeal.Gen Idealize.ShloMosaic Idealize.ShloMosaic.TcCoe Idealize.SL.Sem Idealize.ShloMosaic.StableHlo

attribute [local irreducible] Host.reduce Host.reduceWindow Host.gather Host.scatter Host.scatterAdd in
set_option maxRecDepth 100000 in
set_option maxHeartbeats 4000000 in
/-- After the stretch the rows hold the remainder modulo 1024 of the floor quotient by 1024 of the positions held before it. -/
theorem segA2_v15 (W : Valuation τ sig (Elt Ideal)) : after (segA2 (F := Ideal)) W (main_v15 : DevRef τ sig) = Nonzero.fRemainder (Nonzero.fFloorDivide (W (main_v13 : DevRef τ sig)) (constantI S_ 32 1024#32)) (constantI S_ 32 1024#32) := by
  after_results_simp
  rfl

set_option maxRecDepth 100000 in
set_option maxHeartbeats 4000000 in
/-- The stretch leaves the mask as it was. -/
theorem segA2_v1 (W : Valuation τ sig (Elt Ideal)) : after (segA2 (F := Ideal)) W (main_v1 : DevRef τ sig) = W (main_v1 : DevRef τ sig) := by
  after_results_simp

set_option maxRecDepth 100000 in
set_option maxHeartbeats 4000000 in
/-- The stretch leaves the positions as they were. -/
theorem segA2_v13 (W : Valuation τ sig (Elt Ideal)) : after (segA2 (F := Ideal)) W (main_v13 : DevRef τ sig) = W (main_v13 : DevRef τ sig) := by
  after_results_simp

set_option maxRecDepth 100000 in
set_option maxHeartbeats 4000000 in
/-- The stretch leaves the first argument as it was. -/
theorem segA2_arg0 (W : Valuation τ sig (Elt Ideal)) : after (segA2 (F := Ideal)) W (main_arg0 : DevRef τ sig) = W (main_arg0 : DevRef τ sig) := by
  after_results_simp

set_option maxRecDepth 100000 in
set_option maxHeartbeats 4000000 in
/-- The stretch leaves the second argument as it was. -/
theorem segA2_arg1 (W : Valuation τ sig (Elt Ideal)) : after (segA2 (F := Ideal)) W (main_arg1 : DevRef τ sig) = W (main_arg1 : DevRef τ sig) := by
  after_results_simp

set_option maxRecDepth 100000 in
set_option maxHeartbeats 4000000 in
/-- The stretch leaves the third argument as it was. -/
theorem segA2_arg2 (W : Valuation τ sig (Elt Ideal)) : after (segA2 (F := Ideal)) W (main_arg2 : DevRef τ sig) = W (main_arg2 : DevRef τ sig) := by
  after_results_simp

set_option maxRecDepth 100000 in
set_option maxHeartbeats 4000000 in
/-- The stretch leaves the fourth argument as it was. -/
theorem segA2_arg3 (W : Valuation τ sig (Elt Ideal)) : after (segA2 (F := Ideal)) W (main_arg3 : DevRef τ sig) = W (main_arg3 : DevRef τ sig) := by
  after_results_simp

end Cert.ReferenceIdeal.RSegs

end
-- ==== Proof.RefSegA3.lean ====
/-
  The third stretch of the reference's line: from the flat positions of the set entries it computes their floor quotient by 1 and
  reduces that modulo 1024, the column of each set entry. It writes neither the mask, nor the rows, nor any argument.
-/
import proofs.«130080_g13718125543874_cont_sun_m_270_4_alg».proof.Proof.RefSegs

noncomputable section

namespace Cert.ReferenceIdeal.RSegs

open Cert.ReferenceIdeal Cert.ReferenceIdeal.Gen Idealize.ShloMosaic Idealize.ShloMosaic.TcCoe Idealize.SL.Sem
  Idealize.ShloMosaic.StableHlo

attribute [local irreducible] Host.reduce Host.reduceWindow Host.gather Host.scatter Host.scatterAdd in
set_option maxRecDepth 100000 in
set_option maxHeartbeats 4000000 in
/-- After the stretch the column buffer holds the positions' floor quotient by 1, reduced modulo 1024. -/
theorem segA3_v17 (W : Valuation τ sig (Elt Ideal)) :
    after (segA3 (F := Ideal)) W (main_v17 : DevRef τ sig)
      = Nonzero.fRemainder (Nonzero.fFloorDivide (W (main_v13 : DevRef τ sig)) (constantI S_ 32 1#32)) (constantI S_ 32 1024#32) := by
  after_results_simp
  rfl

set_option maxRecDepth 100000 in
set_option maxHeartbeats 4000000 in
/-- The mask is not written. -/
theorem segA3_v1 (W : Valuation τ sig (Elt Ideal)) :
    after (segA3 (F := Ideal)) W (main_v1 : DevRef τ sig) = W (main_v1 : DevRef τ sig) := by
  after_results_simp

set_option maxRecDepth 100000 in
set_option maxHeartbeats 4000000 in
/-- The rows are not written. -/
theorem segA3_v15 (W : Valuation τ sig (Elt Ideal)) :
    after (segA3 (F := Ideal)) W (main_v15 : DevRef τ sig) = W (main_v15 : DevRef τ sig) := by
  after_results_simp

set_option maxRecDepth 100000 in
set_option maxHeartbeats 4000000 in
/-- The first argument is not written. -/
theorem segA3_arg0 (W : Valuation τ sig (Elt Ideal)) :
    after (segA3 (F := Ideal)) W (main_arg0 : DevRef τ sig) = W (main_arg0 : DevRef τ sig) := by
  after_results_simp

set_option maxRecDepth 100000 in
set_option maxHeartbeats 4000000 in
/-- The second argument is not written. -/
theorem segA3_arg1 (W : Valuation τ sig (Elt Ideal)) :
    after (segA3 (F := Ideal)) W (main_arg1 : DevRef τ sig) = W (main_arg1 : DevRef τ sig) := by
  after_results_simp

set_option maxRecDepth 100000 in
set_option maxHeartbeats 4000000 in
/-- The third argument is not written. -/
theorem segA3_arg2 (W : Valuation τ sig (Elt Ideal)) :
    after (segA3 (F := Ideal)) W (main_arg2 : DevRef τ sig) = W (main_arg2 : DevRef τ sig) := by
  after_results_simp

set_option maxRecDepth 100000 in
set_option maxHeartbeats 4000000 in
/-- The fourth argument is not written. -/
theorem segA3_arg3 (W : Valuation τ sig (Elt Ideal)) :
    after (segA3 (F := Ideal)) W (main_arg3 : DevRef τ sig) = W (main_arg3 : DevRef τ sig) := by
  after_results_simp

end Cert.ReferenceIdeal.RSegs

end
-- ==== Proof.RefSegA4.lean ====
/-
  The stretch of operations 107 to 120, from any contents before it.
  It counts the set entries of the mask, marks the slots at or past that count, and puts 1024 there in the rows
  and in the columns (`_where_3`, twice); it writes fourteen buffers and none of the arguments'.
-/
import proofs.«130080_g13718125543874_cont_sun_m_270_4_alg».proof.Proof.RefSegs

noncomputable section

namespace Cert.ReferenceIdeal.RSegs

open Cert.ReferenceIdeal Cert.ReferenceIdeal.Gen Idealize.ShloMosaic Idealize.ShloMosaic.TcCoe Idealize.SL.Sem
  Idealize.ShloMosaic.StableHlo

/-! The fold is unrolled and each operation's result read at its own buffer, or passed over at another
    (the buffers told apart as references); what is left is the named function's body, by unfolding. -/

attribute [local irreducible] Host.reduce Host.reduceWindow Host.gather Host.scatter Host.scatterAdd in
set_option maxRecDepth 100000 in
set_option maxHeartbeats 4000000 in
/-- The padded rows from the mask and the rows before the stretch. -/
theorem segA4_v23 (W : Valuation τ sig (Elt Ideal)) :
    after (segA4 (F := Ideal)) W (main_v23 : DevRef τ sig)
      = Nonzero.fWhere3 (gFill (W (main_v1 : DevRef τ sig))) (constantI S_ 32 1024#32) (W (main_v15 : DevRef τ sig)) := by
  after_results_simp
  rfl

attribute [local irreducible] Host.reduce Host.reduceWindow Host.gather Host.scatter Host.scatterAdd in
set_option maxRecDepth 100000 in
set_option maxHeartbeats 4000000 in
/-- The padded columns from the mask and the columns before the stretch. -/
theorem segA4_v24 (W : Valuation τ sig (Elt Ideal)) :
    after (segA4 (F := Ideal)) W (main_v24 : DevRef τ sig)
      = Nonzero.fWhere3 (gFill (W (main_v1 : DevRef τ sig))) (constantI S_ 32 1024#32) (W (main_v17 : DevRef τ sig)) := by
  after_results_simp
  rfl

/-- The stretch writes no argument: the features keep their contents. -/
theorem segA4_arg0 (W : Valuation τ sig (Elt Ideal)) :
    after (segA4 (F := Ideal)) W (main_arg0 : DevRef τ sig) = W (main_arg0 : DevRef τ sig) := by
  after_results_simp

/-- The adjacency array keeps its contents. -/
theorem segA4_arg1 (W : Valuation τ sig (Elt Ideal)) :
    after (segA4 (F := Ideal)) W (main_arg1 : DevRef τ sig) = W (main_arg1 : DevRef τ sig) := by
  after_results_simp

/-- The weight matrix keeps its contents. -/
theorem segA4_arg2 (W : Valuation τ sig (Elt Ideal)) :
    after (segA4 (F := Ideal)) W (main_arg2 : DevRef τ sig) = W (main_arg2 : DevRef τ sig) := by
  after_results_simp

/-- The attention vector keeps its contents. -/
theorem segA4_arg3 (W : Valuation τ sig (Elt Ideal)) :
    after (segA4 (F := Ideal)) W (main_arg3 : DevRef τ sig) = W (main_arg3 : DevRef τ sig) := by
  after_results_simp

end Cert.ReferenceIdeal.RSegs

end
-- ==== Proof.RefSegB1.lean ====
/-
  The stretch of operations 121 to 124, from any contents before it.
  It stacks the two index rows (a broadcast of each to one row, then their concatenation) and forms the hidden
  features `x · W`; it writes four buffers and none of the arguments'.
-/
import proofs.«130080_g13718125543874_cont_sun_m_270_4_alg».proof.Proof.RefSegs

noncomputable section

namespace Cert.ReferenceIdeal.RSegs

open Cert.ReferenceIdeal Cert.ReferenceIdeal.Gen Idealize.ShloMosaic Idealize.ShloMosaic.TcCoe Idealize.SL.Sem
  Idealize.ShloMosaic.StableHlo

/-! The fold is unrolled and each operation's result read at its own buffer, or passed over at another
    (the buffers told apart as references); what is left is the named function's body, by unfolding. -/

attribute [local irreducible] Host.reduce Host.reduceWindow Host.gather Host.scatter Host.scatterAdd in
set_option maxRecDepth 100000 in
set_option maxHeartbeats 4000000 in
/-- The stacked index rows from the two rows before the stretch. -/
theorem segB1_v27 (W : Valuation τ sig (Elt Ideal)) :
    after (segB1 (F := Ideal)) W (main_v27 : DevRef τ sig)
      = RefEdge.tEdges (W (main_v23 : DevRef τ sig)) (W (main_v24 : DevRef τ sig)) := by
  after_results_simp
  rfl

attribute [local irreducible] Host.reduce Host.reduceWindow Host.gather Host.scatter Host.scatterAdd in
set_option maxRecDepth 100000 in
set_option maxHeartbeats 4000000 in
/-- The hidden features from the two arguments. -/
theorem segB1_v28 (W : Valuation τ sig (Elt Ideal)) :
    after (segB1 (F := Ideal)) W (main_v28 : DevRef τ sig)
      = RefEdge.tHid (W (main_arg0 : DevRef τ sig)) (W (main_arg2 : DevRef τ sig)) := by
  after_results_simp
  rfl

/-- The stretch writes no argument: the features keep their contents. -/
theorem segB1_arg0 (W : Valuation τ sig (Elt Ideal)) :
    after (segB1 (F := Ideal)) W (main_arg0 : DevRef τ sig) = W (main_arg0 : DevRef τ sig) := by
  after_results_simp

/-- The adjacency array keeps its contents. -/
theorem segB1_arg1 (W : Valuation τ sig (Elt Ideal)) :
    after (segB1 (F := Ideal)) W (main_arg1 : DevRef τ sig) = W (main_arg1 : DevRef τ sig) := by
  after_results_simp

/-- The weight matrix keeps its contents. -/
theorem segB1_arg2 (W : Valuation τ sig (Elt Ideal)) :
    after (segB1 (F := Ideal)) W (main_arg2 : DevRef τ sig) = W (main_arg2 : DevRef τ sig) := by
  after_results_simp

/-- The attention vector keeps its contents. -/
theorem segB1_arg3 (W : Valuation τ sig (Elt Ideal)) :
    after (segB1 (F := Ideal)) W (main_arg3 : DevRef τ sig) = W (main_arg3 : DevRef τ sig) := by
  after_results_simp

end Cert.ReferenceIdeal.RSegs

end
-- ==== Proof.RefSegB2.lean ====
/-
  Operations 125 to 161 of the reference: from the hidden features `h`, the attention vector `a` and the two stacked index rows, the
  rows of `h` gathered at the sources and at the destinations, their 256-entry contraction with `a`, and the weight
  `exp (-leaky_relu (score))` of every slot. The stretch writes none of the buffers it reads from before it.
-/
import proofs.«130080_g13718125543874_cont_sun_m_270_4_alg».proof.Proof.RefSegs

noncomputable section

namespace Cert.ReferenceIdeal.RSegs

open Cert.ReferenceIdeal Cert.ReferenceIdeal.Gen Idealize.ShloMosaic Idealize.ShloMosaic.TcCoe Idealize.SL.Sem
  Idealize.ShloMosaic.StableHlo

attribute [local irreducible] Host.reduce Host.reduceWindow Host.gather Host.scatter Host.scatterAdd in
set_option maxRecDepth 100000 in
set_option maxHeartbeats 4000000 in
/-- After the stretch the weights' buffer holds the edge weights as a function of the hidden features, the attention vector and
    the stacked index rows it found in their buffers. -/
theorem segB2_v54 (W : Valuation τ sig (Elt Ideal)) :
    after (segB2 (F := Ideal)) W (main_v54 : DevRef τ sig)
      = RefEdge.tEdge (W (main_v28 : DevRef τ sig)) (W (main_arg3 : DevRef τ sig)) (W (main_v27 : DevRef τ sig)) := by
  after_results_simp
  rfl

set_option maxRecDepth 100000 in
set_option maxHeartbeats 4000000 in
/-- The stretch leaves the stacked index rows as they were. -/
theorem segB2_v27 (W : Valuation τ sig (Elt Ideal)) :
    after (segB2 (F := Ideal)) W (main_v27 : DevRef τ sig) = W (main_v27 : DevRef τ sig) := by
  after_results_simp

set_option maxRecDepth 100000 in
set_option maxHeartbeats 4000000 in
/-- The stretch leaves the hidden features as they were. -/
theorem segB2_v28 (W : Valuation τ sig (Elt Ideal)) :
    after (segB2 (F := Ideal)) W (main_v28 : DevRef τ sig) = W (main_v28 : DevRef τ sig) := by
  after_results_simp

set_option maxRecDepth 100000 in
set_option maxHeartbeats 4000000 in
/-- The stretch leaves the first argument as it was. -/
theorem segB2_arg0 (W : Valuation τ sig (Elt Ideal)) :
    after (segB2 (F := Ideal)) W (main_arg0 : DevRef τ sig) = W (main_arg0 : DevRef τ sig) := by
  after_results_simp

set_option maxRecDepth 100000 in
set_option maxHeartbeats 4000000 in
/-- The stretch leaves the second argument as it was. -/
theorem segB2_arg1 (W : Valuation τ sig (Elt Ideal)) :
    after (segB2 (F := Ideal)) W (main_arg1 : DevRef τ sig) = W (main_arg1 : DevRef τ sig) := by
  after_results_simp

set_option maxRecDepth 100000 in
set_option maxHeartbeats 4000000 in
/-- The stretch leaves the third argument as it was. -/
theorem segB2_arg2 (W : Valuation τ sig (Elt Ideal)) :
    after (segB2 (F := Ideal)) W (main_arg2 : DevRef τ sig) = W (main_arg2 : DevRef τ sig) := by
  after_results_simp

set_option maxRecDepth 100000 in
set_option maxHeartbeats 4000000 in
/-- The stretch leaves the fourth argument as it was. -/
theorem segB2_arg3 (W : Valuation τ sig (Elt Ideal)) :
    after (segB2 (F := Ideal)) W (main_arg3 : DevRef τ sig) = W (main_arg3 : DevRef τ sig) := by
  after_results_simp

end Cert.ReferenceIdeal.RSegs

end
-- ==== Proof.RefSegC1.lean ====
/-
  Operations 162 to 175 of the reference: every edge's weight is added into its source node's entry of a column of zeros, the
  source read from row 0 of the stacked index arrays (a negative word shifted up by 1024). The stacked arrays, the hidden
  features, the weights and the four arguments are not written.
-/
import proofs.«130080_g13718125543874_cont_sun_m_270_4_alg».proof.Proof.RefSegs

noncomputable section

namespace Cert.ReferenceIdeal.RSegs

open Cert.ReferenceIdeal Cert.ReferenceIdeal.Gen Idealize.ShloMosaic Idealize.ShloMosaic.TcCoe Idealize.SL.Sem
  Idealize.ShloMosaic.StableHlo

attribute [local irreducible] Host.reduce Host.reduceWindow Host.gather Host.scatter Host.scatterAdd in
set_option maxRecDepth 100000 in
set_option maxHeartbeats 4000000 in
/-- After the stretch, the totals' buffer holds the weights it found added into a zero column at the sources it found. -/
theorem segC1_v65 (W : Valuation τ sig (Elt Ideal)) :
    after (segC1 (F := Ideal)) W (main_v65 : DevRef τ sig)
      = gTot (W (main_v27 : DevRef τ sig)) (W (main_v54 : DevRef τ sig)) := by
  after_results_simp
  rfl

set_option maxRecDepth 100000 in
set_option maxHeartbeats 4000000 in
/-- The stretch does not write `main_v27`. -/
theorem segC1_v27 (W : Valuation τ sig (Elt Ideal)) :
    after (segC1 (F := Ideal)) W (main_v27 : DevRef τ sig) = W (main_v27 : DevRef τ sig) := by
  after_results_simp

set_option maxRecDepth 100000 in
set_option maxHeartbeats 4000000 in
/-- The stretch does not write `main_v28`. -/
theorem segC1_v28 (W : Valuation τ sig (Elt Ideal)) :
    after (segC1 (F := Ideal)) W (main_v28 : DevRef τ sig) = W (main_v28 : DevRef τ sig) := by
  after_results_simp

set_option maxRecDepth 100000 in
set_option maxHeartbeats 4000000 in
/-- The stretch does not write `main_v54`. -/
theorem segC1_v54 (W : Valuation τ sig (Elt Ideal)) :
    after (segC1 (F := Ideal)) W (main_v54 : DevRef τ sig) = W (main_v54 : DevRef τ sig) := by
  after_results_simp

set_option maxRecDepth 100000 in
set_option maxHeartbeats 4000000 in
/-- The stretch does not write `main_arg0`. -/
theorem segC1_arg0 (W : Valuation τ sig (Elt Ideal)) :
    after (segC1 (F := Ideal)) W (main_arg0 : DevRef τ sig) = W (main_arg0 : DevRef τ sig) := by
  after_results_simp

set_option maxRecDepth 100000 in
set_option maxHeartbeats 4000000 in
/-- The stretch does not write `main_arg1`. -/
theorem segC1_arg1 (W : Valuation τ sig (Elt Ideal)) :
    after (segC1 (F := Ideal)) W (main_arg1 : DevRef τ sig) = W (main_arg1 : DevRef τ sig) := by
  after_results_simp

set_option maxRecDepth 100000 in
set_option maxHeartbeats 4000000 in
/-- The stretch does not write `main_arg2`. -/
theorem segC1_arg2 (W : Valuation τ sig (Elt Ideal)) :
    after (segC1 (F := Ideal)) W (main_arg2 : DevRef τ sig) = W (main_arg2 : DevRef τ sig) := by
  after_results_simp

set_option maxRecDepth 100000 in
set_option maxHeartbeats 4000000 in
/-- The stretch does not write `main_arg3`. -/
theorem segC1_arg3 (W : Valuation τ sig (Elt Ideal)) :
    after (segC1 (F := Ideal)) W (main_arg3 : DevRef τ sig) = W (main_arg3 : DevRef τ sig) := by
  after_results_simp

end Cert.ReferenceIdeal.RSegs

end
-- ==== Proof.RefSegC2.lean ====
/-
  The reference's operations 176 to 202: the destination rows of the hidden features gathered per slot, each scaled by its slot's weight,
  and added into a 1024 × 128 table of zeros at the slot's source row; the per-source totals and the four arguments are left as they were.
-/
import proofs.«130080_g13718125543874_cont_sun_m_270_4_alg».proof.Proof.RefSegs

noncomputable section

namespace Cert.ReferenceIdeal.RSegs

open Cert.ReferenceIdeal Cert.ReferenceIdeal.Gen Idealize.ShloMosaic Idealize.ShloMosaic.TcCoe Idealize.SL.Sem
  Idealize.ShloMosaic.StableHlo

attribute [local irreducible] Host.reduce Host.reduceWindow Host.gather Host.scatter Host.scatterAdd in
set_option maxRecDepth 100000 in
set_option maxHeartbeats 4000000 in
/-- After the stretch its last buffer holds the weighted sums: from the hidden features, the stacked index rows and the weights
    found in the buffers before it. -/
theorem segC2_v87 (W : Valuation τ sig (Elt Ideal)) :
    after (segC2 (F := Ideal)) W (main_v87 : DevRef τ sig)
      = gSum (W (main_v28 : DevRef τ sig)) (W (main_v27 : DevRef τ sig)) (W (main_v54 : DevRef τ sig)) := by
  after_results_simp
  rfl

set_option maxRecDepth 100000 in
set_option maxHeartbeats 4000000 in
/-- The stretch leaves the per-source totals as they were. -/
theorem segC2_v65 (W : Valuation τ sig (Elt Ideal)) :
    after (segC2 (F := Ideal)) W (main_v65 : DevRef τ sig) = W (main_v65 : DevRef τ sig) := by
  after_results_simp

set_option maxRecDepth 100000 in
set_option maxHeartbeats 4000000 in
/-- The stretch leaves the first argument as it was. -/
theorem segC2_arg0 (W : Valuation τ sig (Elt Ideal)) :
    after (segC2 (F := Ideal)) W (main_arg0 : DevRef τ sig) = W (main_arg0 : DevRef τ sig) := by
  after_results_simp

set_option maxRecDepth 100000 in
set_option maxHeartbeats 4000000 in
/-- The stretch leaves the second argument as it was. -/
theorem segC2_arg1 (W : Valuation τ sig (Elt Ideal)) :
    after (segC2 (F := Ideal)) W (main_arg1 : DevRef τ sig) = W (main_arg1 : DevRef τ sig) := by
  after_results_simp

set_option maxRecDepth 100000 in
set_option maxHeartbeats 4000000 in
/-- The stretch leaves the third argument as it was. -/
theorem segC2_arg2 (W : Valuation τ sig (Elt Ideal)) :
    after (segC2 (F := Ideal)) W (main_arg2 : DevRef τ sig) = W (main_arg2 : DevRef τ sig) := by
  after_results_simp

set_option maxRecDepth 100000 in
set_option maxHeartbeats 4000000 in
/-- The stretch leaves the fourth argument as it was. -/
theorem segC2_arg3 (W : Valuation τ sig (Elt Ideal)) :
    after (segC2 (F := Ideal)) W (main_arg3 : DevRef τ sig) = W (main_arg3 : DevRef τ sig) := by
  after_results_simp

end Cert.ReferenceIdeal.RSegs

end
-- ==== Proof.RefSegC3.lean ====
/-
  The last stretch of the reference's line: it divides the weighted sums by the weight totals moved off zero by the f32 word
  of 1e-9, and takes the ELU of the quotient; it reads the sums and the totals as it finds them and leaves the arguments alone.
-/
import proofs.«130080_g13718125543874_cont_sun_m_270_4_alg».proof.Proof.RefSegs

noncomputable section

namespace Cert.ReferenceIdeal.RSegs

open Cert.ReferenceIdeal Cert.ReferenceIdeal.Gen Idealize.ShloMosaic Idealize.ShloMosaic.TcCoe Idealize.SL.Sem
  Idealize.ShloMosaic.StableHlo

attribute [local irreducible] Host.reduce Host.reduceWindow Host.gather Host.scatter Host.scatterAdd in
set_option maxRecDepth 100000 in
set_option maxHeartbeats 4000000 in
/-- After the stretch the result buffer holds the ELU of the quotient of the sums it found by the totals it found. -/
theorem segC3_v92 (W : Valuation τ sig (Elt Ideal)) :
    after (segC3 (F := Ideal)) W (main_v92 : DevRef τ sig)
      = RefScatter.tElu (gQuot (W (main_v87 : DevRef τ sig)) (W (main_v65 : DevRef τ sig))) := by
  after_results_simp
  rfl

/-- The stretch writes none of the four argument buffers. -/
theorem segC3_arg0 (W : Valuation τ sig (Elt Ideal)) :
    after (segC3 (F := Ideal)) W (main_arg0 : DevRef τ sig) = W (main_arg0 : DevRef τ sig) := by
  after_results_simp

theorem segC3_arg1 (W : Valuation τ sig (Elt Ideal)) :
    after (segC3 (F := Ideal)) W (main_arg1 : DevRef τ sig) = W (main_arg1 : DevRef τ sig) := by
  after_results_simp

theorem segC3_arg2 (W : Valuation τ sig (Elt Ideal)) :
    after (segC3 (F := Ideal)) W (main_arg2 : DevRef τ sig) = W (main_arg2 : DevRef τ sig) := by
  after_results_simp

theorem segC3_arg3 (W : Valuation τ sig (Elt Ideal)) :
    after (segC3 (F := Ideal)) W (main_arg3 : DevRef τ sig) = W (main_arg3 : DevRef τ sig) := by
  after_results_simp

end Cert.ReferenceIdeal.RSegs

end
-- ==== Proof.RefOut.lean ====
/-
  The reference's result buffer after its whole run, as named functions of the arguments' contents.

  The line of 222 operations is nine stretches one after the other (`RSegs.ops_eq`), so its fold is the stretches'
  folds one inside the other. Each stretch's module says, from ANY contents before the stretch, what it leaves in
  the buffers read later — a named function of the contents of the buffers it reads — and that it leaves alone the
  values and arguments that are read after it. Read from the last stretch back to the first these equations
  rewrite the result buffer's contents into the named result `tOut` of the hidden features `tHid`, the attention
  vector and the two index rows `nzSrc`, `nzDst` of the adjacency array, up to unfolding those names; and each
  argument's buffer, written by no stretch, into its launch contents.
-/
import proofs.«130080_g13718125543874_cont_sun_m_270_4_alg».proof.Proof.RefSegs
import proofs.«130080_g13718125543874_cont_sun_m_270_4_alg».proof.Proof.RefSegA1
import proofs.«130080_g13718125543874_cont_sun_m_270_4_alg».proof.Proof.RefSegA1Pos
import proofs.«130080_g13718125543874_cont_sun_m_270_4_alg».proof.Proof.RefSegA2
import proofs.«130080_g13718125543874_cont_sun_m_270_4_alg».proof.Proof.RefSegA3
import proofs.«130080_g13718125543874_cont_sun_m_270_4_alg».proof.Proof.RefSegA4
import proofs.«130080_g13718125543874_cont_sun_m_270_4_alg».proof.Proof.RefSegB1
import proofs.«130080_g13718125543874_cont_sun_m_270_4_alg».proof.Proof.RefSegB2
import proofs.«130080_g13718125543874_cont_sun_m_270_4_alg».proof.Proof.RefSegC1
import proofs.«130080_g13718125543874_cont_sun_m_270_4_alg».proof.Proof.RefSegC2
import proofs.«130080_g13718125543874_cont_sun_m_270_4_alg».proof.Proof.RefSegC3
import Idealize.ShloMosaic.Lib.Pipeline.Frame

noncomputable section

namespace Cert.ReferenceIdeal.ROut

open Cert.ReferenceIdeal Cert.ReferenceIdeal.Gen Idealize.ShloMosaic Idealize.ShloMosaic.TcCoe Idealize.SL.Sem
  Idealize.ShloMosaic.StableHlo Cert.ReferenceIdeal.RSegs

/-- The fold of the whole line is the folds of the nine stretches, one inside the other. -/
theorem after_ops (V : Valuation τ sig (Elt Ideal)) :
    after (Cert.ReferenceIdeal.RRun.ops (F := Ideal)) V
      = after segC3 (after segC2 (after segC1 (after segB2 (after segB1 (after segA4 (after segA3 (after segA2
          (after segA1 V)))))))) := by
  rw [ops_eq, after_append, after_append, after_append, after_append, after_append, after_append, after_append,
    after_append]

attribute [local irreducible] Host.reduce Host.reduceWindow Host.gather Host.scatter Host.scatterAdd in
set_option maxRecDepth 100000 in
set_option maxHeartbeats 4000000 in
/-- The result buffer after the whole line, as the named functions of the arguments' contents. Read from the last
    stretch back to the first: each stretch's value lemma names what it leaves from what it finds, each frame
    lemma carries a value or an argument across a stretch that does not write it; what is left at the first
    stretch's start is the named result with its definitions unfolded. -/
theorem out_eq (V : Valuation τ sig (Elt Ideal)) :
    after (Cert.ReferenceIdeal.RRun.ops (F := Ideal)) V (main_v92 : DevRef τ sig)
      = Cert.ReferenceIdeal.RefScatter.tOut
          (Cert.ReferenceIdeal.RefEdge.tHid (V (main_arg0 : DevRef τ sig)) (V (main_arg2 : DevRef τ sig)))
          (V (main_arg3 : DevRef τ sig))
          (Cert.ReferenceIdeal.Nonzero.nzSrc (V (main_arg1 : DevRef τ sig)))
          (Cert.ReferenceIdeal.Nonzero.nzDst (V (main_arg1 : DevRef τ sig))) := by
  rw [after_ops]
  rw [segC3_v92, segC2_v87, segC2_v65, segC1_v65, segC1_v28, segC1_v27, segC1_v54]
  rw [segB2_v54, segB2_v27, segB2_v28, segB1_v27, segB1_v28, segB1_arg3]
  rw [segA4_v23, segA4_v24, segA4_arg0, segA4_arg2, segA4_arg3]
  rw [segA3_v17, segA3_v1, segA3_v15, segA3_arg0, segA3_arg2, segA3_arg3]
  rw [segA2_v15, segA2_v13, segA2_v1, segA2_arg0, segA2_arg2, segA2_arg3]
  rw [segA1_v13, segA1_v1, segA1_arg0, segA1_arg2, segA1_arg3]
  rfl

/-- No stretch writes the features' buffer. -/
theorem arg0_eq (V : Valuation τ sig (Elt Ideal)) :
    after (Cert.ReferenceIdeal.RRun.ops (F := Ideal)) V (main_arg0 : DevRef τ sig) = V (main_arg0 : DevRef τ sig) := by
  rw [after_ops, segC3_arg0, segC2_arg0, segC1_arg0, segB2_arg0, segB1_arg0, segA4_arg0, segA3_arg0, segA2_arg0,
    segA1_arg0]

/-- No stretch writes the adjacency array's buffer. -/
theorem arg1_eq (V : Valuation τ sig (Elt Ideal)) :
    after (Cert.ReferenceIdeal.RRun.ops (F := Ideal)) V (main_arg1 : DevRef τ sig) = V (main_arg1 : DevRef τ sig) := by
  rw [after_ops, segC3_arg1, segC2_arg1, segC1_arg1, segB2_arg1, segB1_arg1, segA4_arg1, segA3_arg1, segA2_arg1,
    segA1_arg1]

/-- No stretch writes the weight matrix's buffer. -/
theorem arg2_eq (V : Valuation τ sig (Elt Ideal)) :
    after (Cert.ReferenceIdeal.RRun.ops (F := Ideal)) V (main_arg2 : DevRef τ sig) = V (main_arg2 : DevRef τ sig) := by
  rw [after_ops, segC3_arg2, segC2_arg2, segC1_arg2, segB2_arg2, segB1_arg2, segA4_arg2, segA3_arg2, segA2_arg2,
    segA1_arg2]

/-- No stretch writes the attention vector's buffer. -/
theorem arg3_eq (V : Valuation τ sig (Elt Ideal)) :
    after (Cert.ReferenceIdeal.RRun.ops (F := Ideal)) V (main_arg3 : DevRef τ sig) = V (main_arg3 : DevRef τ sig) := by
  rw [after_ops, segC3_arg3, segC2_arg3, segC1_arg3, segB2_arg3, segB1_arg3, segA4_arg3, segA3_arg3, segA2_arg3,
    segA1_arg3]

end Cert.ReferenceIdeal.ROut

end
-- ==== Proof.RefValue.lean ====
/-
  What the reference's result array holds after its run, on the extended reals: the masked graph attention of the argument arrays.
  The run leaves each buffer at the program's operations applied to the launch contents; the result's term is the tail over the edge
  list the program computes from the adjacency array; that edge list enumerates the nonzero entries once each, and over such a list
  the tail is the specification.
-/
import proofs.«130080_g13718125543874_cont_sun_m_270_4_alg».proof.Proof.Gen.ReferenceIdeal
import proofs.«130080_g13718125543874_cont_sun_m_270_4_alg».proof.Proof.Spec
import proofs.«130080_g13718125543874_cont_sun_m_270_4_alg».proof.Proof.RefRun
import proofs.«130080_g13718125543874_cont_sun_m_270_4_alg».proof.Proof.RefOut
import proofs.«130080_g13718125543874_cont_sun_m_270_4_alg».proof.Proof.Nonzero
import proofs.«130080_g13718125543874_cont_sun_m_270_4_alg».proof.Proof.RefScatter

noncomputable section

namespace Cert.ReferenceIdeal.RValue

open Cert.ReferenceIdeal Idealize.ShloMosaic Idealize.ShloMosaic.TcCoe Idealize.SL.Sem Idealize.ShloMosaic.StableHlo

/-- The result's term, over any contents of the argument buffers, is the specification of those contents. -/
theorem out_spec (V : Valuation τ sig (Elt Ideal)) :
    after (Cert.ReferenceIdeal.RRun.ops (F := Ideal)) V (main_v92 : DevRef τ sig)
      = Cert.GatSpec.out (V (main_arg0 : DevRef τ sig)) (V (main_arg1 : DevRef τ sig)) (V (main_arg2 : DevRef τ sig))
          (V (main_arg3 : DevRef τ sig)) := by
  rw [Cert.ReferenceIdeal.ROut.out_eq V]
  obtain ⟨cnt, row, col, h1, h2, h3, h4⟩ := Cert.ReferenceIdeal.Nonzero.nonzero_spec (V (main_arg1 : DevRef τ sig))
  exact Cert.ReferenceIdeal.RefScatter.tOut_eq _ _ _ _ _ _ cnt row col h1 h2 h3 h4

/-- Every weakly fair execution of the idealized reference terminates with the result array at the specification of the argument
    arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v92)
          = Cert.GatSpec.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v92).trans (out_spec (launchContents m c)),
        (h c main_arg0).trans (Cert.ReferenceIdeal.ROut.arg0_eq (launchContents m c)),
        (h c main_arg1).trans (Cert.ReferenceIdeal.ROut.arg1_eq (launchContents m c)),
        (h c main_arg2).trans (Cert.ReferenceIdeal.ROut.arg2_eq (launchContents m c)),
        (h c main_arg3).trans (Cert.ReferenceIdeal.ROut.arg3_eq (launchContents m c))⟩)
    (Cert.ReferenceIdeal.RRun.run_main (F := Ideal) m ρ)

end Cert.ReferenceIdeal.RValue

end
-- ==== Proof.lean ====
/-
  The certificate of the dense masked graph-attention kernel against its edge-list reference.

  Both programs compute, for 1024 nodes with 128 features, the hidden features `hid = x · W`, give every ordered pair `(i, j)` whose
  adjacency entry is not zero the weight `exp (-leaky (hid i · a[0:128] + a[128:256] · hid j))`, and return the ELU of each row's
  weighted sum of hidden rows divided by its total weight plus 1e-9. The kernel forms the full 1024 × 1024 weight matrix, zero off
  the edges, block of 512 rows by block, with the hidden features and the two logit shares computed at the first grid point and kept
  in scratch. The reference lists the nonzero adjacency entries (a running sum of the mask, its histogram, and the histogram's running
  sum give the position of the e-th nonzero entry), gathers the endpoint rows per listed edge, and adds weights and weighted rows
  into their source rows; the list's padding carries an out-of-range row, which the additions drop. On the extended reals the two
  are one function of the arguments (`Cert.GatSpec.out`): sums over a row's nonzero columns in any order, a 256-term contraction split
  into its two halves, `exp x - 1` for both forms of the ELU's negative branch. No step needs the inputs finite.

  The frames of the kernel at both instances are the generated ones; the reference's frame is its run with the result dropped; the
  idealization rewrote nothing, so `preserves` is trivial.
-/
import proofs.«130080_g13718125543874_cont_sun_m_270_4_alg».proof.Defs
import proofs.«130080_g13718125543874_cont_sun_m_270_4_alg».proof.Proof.Gen.Kernel
import proofs.«130080_g13718125543874_cont_sun_m_270_4_alg».proof.Proof.Gen.Kernel.Frame
import proofs.«130080_g13718125543874_cont_sun_m_270_4_alg».proof.Proof.Gen.KernelIdeal
import proofs.«130080_g13718125543874_cont_sun_m_270_4_alg».proof.Proof.Gen.KernelIdeal.Frame
import proofs.«130080_g13718125543874_cont_sun_m_270_4_alg».proof.Proof.Gen.ReferenceIdeal
import proofs.«130080_g13718125543874_cont_sun_m_270_4_alg».proof.Proof.Gen.Pre_finite_inputs
import proofs.«130080_g13718125543874_cont_sun_m_270_4_alg».proof.Proof.KernelValue
import proofs.«130080_g13718125543874_cont_sun_m_270_4_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.RValue.run m ρ)

theorem preserves : Cert.preserves_Kernel_KernelIdeal := trivial

/-- Both runs end at the specification of their arguments, and the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
